-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S20000x16 : Shape := ⟨2, ![20000, 16]⟩
abbrev S100000x256 : Shape := ⟨2, ![100000, 256]⟩
abbrev S256x512 : Shape := ⟨2, ![256, 512]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S20000 : S_.BroadcastsInDim S20000 (![] : Fin 0 → Fin S20000.rank)
  reducesTo_S20000_S_d0 : S20000.ReducesTo [0] S_
  bcast_S_S20000x16 : S_.BroadcastsInDim S20000x16 (![] : Fin 0 → Fin S20000x16.rank)
  reducesTo_S20000x16_S_d0_1 : S20000x16.ReducesTo [0, 1] S_

variable [Facts]

def fn_part1 {F : FTy → Type} [FloatOps F] (main_arg0 : IVec S20000 32) (main_arg1 : IVec S20000x16 32) (main_v13 : IVec S_ 1) (main_v15 : IVec S20000 1) (main_c_5 : IVec S_ 32) : IVec S_ 1 :=
  let main_v16 : IVec S20000 32 := broadcastInDim S20000 ![] bcast_S_S20000 main_c_5
  let main_v17 : IVec S20000 1 := cmpi .slt main_arg0 main_v16
  let main_v18 : IVec S20000 1 := andi main_v15 main_v17
  let main_c_6 : IVec S_ 1 := constantI S_ 1 1#1
  let main_v19 : IVec S_ 1 := (fun x v => Host.reduce IntOp.andi x v reducesTo_S20000_S_d0 h_S_) main_v18 main_c_6
  let main_v20 : IVec S_ 1 := andi main_v13 main_v19
  let main_c_7 : IVec S_ 32 := constantI S_ 32 0#32
  let main_v21 : IVec S20000x16 32 := broadcastInDim S20000x16 ![] bcast_S_S20000x16 main_c_7
  let main_v22 : IVec S20000x16 1 := cmpi .sge main_arg1 main_v21
  let main_c_8 : IVec S_ 32 := constantI S_ 32 100000#32
  let main_v23 : IVec S20000x16 32 := broadcastInDim S20000x16 ![] bcast_S_S20000x16 main_c_8
  let main_v24 : IVec S20000x16 1 := cmpi .slt main_arg1 main_v23
  let main_v25 : IVec S20000x16 1 := andi main_v22 main_v24
  let main_c_9 : IVec S_ 1 := constantI S_ 1 1#1
  let main_v26 : IVec S_ 1 := (fun x v => Host.reduce IntOp.andi x v reducesTo_S20000x16_S_d0_1 h_S_) main_v25 main_c_9
  let main_v27 : IVec S_ 1 := andi main_v20 main_v26
  main_v27

def fn {F : FTy → Type} [FloatOps F] (main_arg0 : IVec S20000 32) (main_arg1 : IVec S20000x16 32) (main_arg2 : FVec F S100000x256 .f32) (main_arg3 : FVec F S256x512 .f32) (main_arg4 : FVec F S256x512 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_c_4 : IVec S_ 32 := constantI S_ 32 0#32
  let main_v14 : IVec S20000 32 := broadcastInDim S20000 ![] bcast_S_S20000 main_c_4
  let main_v15 : IVec S20000 1 := cmpi .sge main_arg0 main_v14
  let main_c_5 : IVec S_ 32 := constantI S_ 32 100000#32
  fn_part1 (F := F) main_arg0 main_arg1 main_v13 main_v15 main_c_5
-- ==== Kernel.lean ====
abbrev S20000 : Shape := ⟨1, ![20000]⟩
abbrev S20000x16 : Shape := ⟨2, ![20000, 16]⟩
abbrev S100000x256 : Shape := ⟨2, ![100000, 256]⟩
abbrev S256x512 : Shape := ⟨2, ![256, 512]⟩
abbrev S20000x1 : Shape := ⟨2, ![20000, 1]⟩
abbrev S20000x256 : Shape := ⟨2, ![20000, 256]⟩
abbrev S8x1 : Shape := ⟨2, ![8, 1]⟩
abbrev S8x16 : Shape := ⟨2, ![8, 16]⟩
abbrev S8x256 : Shape := ⟨2, ![8, 256]⟩
abbrev S2x256 : Shape := ⟨2, ![2, 256]⟩
abbrev S2 : Shape := ⟨1, ![2]⟩
abbrev S1x1 : Shape := ⟨2, ![1, 1]⟩
abbrev S1 : Shape := ⟨1, ![1]⟩
abbrev S_ : Shape := ⟨0, ![]⟩
abbrev S1x256 : Shape := ⟨2, ![1, 256]⟩
abbrev S256 : Shape := ⟨1, ![256]⟩
abbrev S20000x512 : Shape := ⟨2, ![20000, 512]⟩
abbrev S20480x512 : Shape := ⟨2, ![20480, 512]⟩
abbrev S512x512 : Shape := ⟨2, ![512, 512]⟩
abbrev S512x20480 : Shape := ⟨2, ![512, 20480]⟩
abbrev S4096x512 : Shape := ⟨2, ![4096, 512]⟩
abbrev S512x4096 : Shape := ⟨2, ![512, 4096]⟩
abbrev S512x20000 : Shape := ⟨2, ![512, 20000]⟩
abbrev S256x20000 : Shape := ⟨2, ![256, 20000]⟩

abbrev nBuf : Space → Nat
  | .hbm => 19
  | .vmem => 10
  | .smem => 4
  | _ => 0

abbrev bufTy : (tb : Table) → Fin (tcTables nBuf tb) → BufTy
  | .hbm, ⟨0, _⟩ => ⟨S20000, .i32⟩
  | .hbm, ⟨1, _⟩ => ⟨S20000x16, .i32⟩
  | .hbm, ⟨2, _⟩ => ⟨S100000x256, .f32⟩
  | .hbm, ⟨3, _⟩ => ⟨S256x512, .f32⟩
  | .hbm, ⟨4, _⟩ => ⟨S256x512, .f32⟩
  | .hbm, ⟨5, _⟩ => ⟨S20000x1, .i32⟩
  | .hbm, ⟨6, _⟩ => ⟨S20000x256, .f32⟩
  | .hbm, ⟨7, _⟩ => ⟨S20000x256, .f32⟩
  | .hbm, ⟨8, _⟩ => ⟨S20000x512, .f32⟩
  | .hbm, ⟨9, _⟩ => ⟨S_, .i32⟩
  | .hbm, ⟨10, _⟩ => ⟨S_, .f32⟩
  | .hbm, ⟨11, _⟩ => ⟨S20480x512, .f32⟩
  | .hbm, ⟨12, _⟩ => ⟨S20480x512, .bf16⟩
  | .hbm, ⟨13, _⟩ => ⟨S512x512, .f32⟩
  | .hbm, ⟨14, _⟩ => ⟨S512x512, .bf16⟩
  | .hbm, ⟨15, _⟩ => ⟨S512x20480, .f32⟩
  | .hbm, ⟨16, _⟩ => ⟨S512x20000, .f32⟩
  | .hbm, ⟨17, _⟩ => ⟨S256x20000, .f32⟩
  | .hbm, ⟨18, _⟩ => ⟨S256x20000, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S2x256, .f32⟩
  | .local _ .vmem, ⟨5, _⟩ => ⟨S512x512, .bf16⟩
  | .local _ .vmem, ⟨6, _⟩ => ⟨S4096x512, .bf16⟩
  | .local _ .vmem, ⟨7, _⟩ => ⟨S4096x512, .bf16⟩
  | .local _ .vmem, ⟨8, _⟩ => ⟨S512x4096, .f32⟩
  | .local _ .vmem, ⟨9, _⟩ => ⟨S512x4096, .f32⟩
  | .local _ .smem, ⟨0, _⟩ => ⟨S8x1, .i32⟩
  | .local _ .smem, ⟨1, _⟩ => ⟨S8x1, .i32⟩
  | .local _ .smem, ⟨2, _⟩ => ⟨S8x16, .i32⟩
  | .local _ .smem, ⟨3, _⟩ => ⟨S8x16, .i32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![2500], ![false]⟩

def k0_off1 (v0 : BitVec 32) : Fin 2 → Nat :=
  let c0_i32_3 : BitVec 32 := 0#32
  ![v0.toNat, 0]

def k0_chk1 (v0 : BitVec 32) : Prop :=
  (∀ a, (k0_off1 v0) a + S1x256.size a ≤ S100000x256.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x256.size a ≤ S100000x256.size a := fun v0 k0_hw1 => k0_hw1

def k0_off2 (v14 : BitVec 32) : Fin 2 → Nat :=
  let c0_i32_12 : BitVec 32 := 0#32
  ![v14.toNat, 0]

def k0_chk2 (v14 : BitVec 32) : Prop :=
  (∀ a, (k0_off2 v14) a + S1x256.size a ≤ S100000x256.size a)
instance k0_chk2.dec : ∀ (v14 : BitVec 32), Decidable (k0_chk2 v14) := fun v14 => decidable_of_iff' _ (Iff.of_eq (k0_chk2.eq_1 v14))
theorem k0_off2_inb : ∀ (v14 : BitVec 32) (k0_hw2 : k0_chk2 v14), ∀ a, (k0_off2 v14) a + S1x256.size a ≤ S100000x256.size a := fun v14 k0_hw2 => k0_hw2

def k0_off3 (v31 : BitVec 32) : Fin 2 → Nat :=
  let c0_i32_24 : BitVec 32 := 0#32
  ![v31.toNat, 0]

def k0_chk3 (v31 : BitVec 32) : Prop :=
  (∀ a, (k0_off3 v31) a + S1x256.size a ≤ S100000x256.size a)
instance k0_chk3.dec : ∀ (v31 : BitVec 32), Decidable (k0_chk3 v31) := fun v31 => decidable_of_iff' _ (Iff.of_eq (k0_chk3.eq_1 v31))
theorem k0_off3_inb : ∀ (v31 : BitVec 32) (k0_hw3 : k0_chk3 v31), ∀ a, (k0_off3 v31) a + S1x256.size a ≤ S100000x256.size a := fun v31 k0_hw3 => k0_hw3

def k0_off4 (v48 : BitVec 32) : Fin 2 → Nat :=
  let c0_i32_36 : BitVec 32 := 0#32
  ![v48.toNat, 0]

def k0_chk4 (v48 : BitVec 32) : Prop :=
  (∀ a, (k0_off4 v48) a + S1x256.size a ≤ S100000x256.size a)
instance k0_chk4.dec : ∀ (v48 : BitVec 32), Decidable (k0_chk4 v48) := fun v48 => decidable_of_iff' _ (Iff.of_eq (k0_chk4.eq_1 v48))
theorem k0_off4_inb : ∀ (v48 : BitVec 32) (k0_hw4 : k0_chk4 v48), ∀ a, (k0_off4 v48) a + S1x256.size a ≤ S100000x256.size a := fun v48 k0_hw4 => k0_hw4

def k0_off5 (v65 : BitVec 32) : Fin 2 → Nat :=
  let c0_i32_48 : BitVec 32 := 0#32
  ![v65.toNat, 0]

def k0_chk5 (v65 : BitVec 32) : Prop :=
  (∀ a, (k0_off5 v65) a + S1x256.size a ≤ S100000x256.size a)
instance k0_chk5.dec : ∀ (v65 : BitVec 32), Decidable (k0_chk5 v65) := fun v65 => decidable_of_iff' _ (Iff.of_eq (k0_chk5.eq_1 v65))
theorem k0_off5_inb : ∀ (v65 : BitVec 32) (k0_hw5 : k0_chk5 v65), ∀ a, (k0_off5 v65) a + S1x256.size a ≤ S100000x256.size a := fun v65 k0_hw5 => k0_hw5

def k0_off6 (v82 : BitVec 32) : Fin 2 → Nat :=
  let c0_i32_60 : BitVec 32 := 0#32
  ![v82.toNat, 0]

def k0_chk6 (v82 : BitVec 32) : Prop :=
  (∀ a, (k0_off6 v82) a + S1x256.size a ≤ S100000x256.size a)
instance k0_chk6.dec : ∀ (v82 : BitVec 32), Decidable (k0_chk6 v82) := fun v82 => decidable_of_iff' _ (Iff.of_eq (k0_chk6.eq_1 v82))
theorem k0_off6_inb : ∀ (v82 : BitVec 32) (k0_hw6 : k0_chk6 v82), ∀ a, (k0_off6 v82) a + S1x256.size a ≤ S100000x256.size a := fun v82 k0_hw6 => k0_hw6

def k0_off7 (v99 : BitVec 32) : Fin 2 → Nat :=
  let c0_i32_72 : BitVec 32 := 0#32
  ![v99.toNat, 0]

def k0_chk7 (v99 : BitVec 32) : Prop :=
  (∀ a, (k0_off7 v99) a + S1x256.size a ≤ S100000x256.size a)
instance k0_chk7.dec : ∀ (v99 : BitVec 32), Decidable (k0_chk7 v99) := fun v99 => decidable_of_iff' _ (Iff.of_eq (k0_chk7.eq_1 v99))
theorem k0_off7_inb : ∀ (v99 : BitVec 32) (k0_hw7 : k0_chk7 v99), ∀ a, (k0_off7 v99) a + S1x256.size a ≤ S100000x256.size a := fun v99 k0_hw7 => k0_hw7

def k0_off8 (v116 : BitVec 32) : Fin 2 → Nat :=
  let c0_i32_84 : BitVec 32 := 0#32
  ![v116.toNat, 0]

def k0_chk8 (v116 : BitVec 32) : Prop :=
  (∀ a, (k0_off8 v116) a + S1x256.size a ≤ S100000x256.size a)
instance k0_chk8.dec : ∀ (v116 : BitVec 32), Decidable (k0_chk8 v116) := fun v116 => decidable_of_iff' _ (Iff.of_eq (k0_chk8.eq_1 v116))
theorem k0_off8_inb : ∀ (v116 : BitVec 32) (k0_hw8 : k0_chk8 v116), ∀ a, (k0_off8 v116) a + S1x256.size a ≤ S100000x256.size a := fun v116 k0_hw8 => k0_hw8

def k0_off9 (v133 : BitVec 32) : Fin 2 → Nat :=
  let c0_i32_96 : BitVec 32 := 0#32
  ![v133.toNat, 0]

def k0_chk9 (v133 : BitVec 32) : Prop :=
  (∀ a, (k0_off9 v133) a + S1x256.size a ≤ S100000x256.size a)
instance k0_chk9.dec : ∀ (v133 : BitVec 32), Decidable (k0_chk9 v133) := fun v133 => decidable_of_iff' _ (Iff.of_eq (k0_chk9.eq_1 v133))
theorem k0_off9_inb : ∀ (v133 : BitVec 32) (k0_hw9 : k0_chk9 v133), ∀ a, (k0_off9 v133) a + S1x256.size a ≤ S100000x256.size a := fun v133 k0_hw9 => k0_hw9

def k0_off10 (v150 : BitVec 32) : Fin 2 → Nat :=
  let c0_i32_108 : BitVec 32 := 0#32
  ![v150.toNat, 0]

def k0_chk10 (v150 : BitVec 32) : Prop :=
  (∀ a, (k0_off10 v150) a + S1x256.size a ≤ S100000x256.size a)
instance k0_chk10.dec : ∀ (v150 : BitVec 32), Decidable (k0_chk10 v150) := fun v150 => decidable_of_iff' _ (Iff.of_eq (k0_chk10.eq_1 v150))
theorem k0_off10_inb : ∀ (v150 : BitVec 32) (k0_hw10 : k0_chk10 v150), ∀ a, (k0_off10 v150) a + S1x256.size a ≤ S100000x256.size a := fun v150 k0_hw10 => k0_hw10

def k0_off11 (v167 : BitVec 32) : Fin 2 → Nat :=
  let c0_i32_120 : BitVec 32 := 0#32
  ![v167.toNat, 0]

def k0_chk11 (v167 : BitVec 32) : Prop :=
  (∀ a, (k0_off11 v167) a + S1x256.size a ≤ S100000x256.size a)
instance k0_chk11.dec : ∀ (v167 : BitVec 32), Decidable (k0_chk11 v167) := fun v167 => decidable_of_iff' _ (Iff.of_eq (k0_chk11.eq_1 v167))
theorem k0_off11_inb : ∀ (v167 : BitVec 32) (k0_hw11 : k0_chk11 v167), ∀ a, (k0_off11 v167) a + S1x256.size a ≤ S100000x256.size a := fun v167 k0_hw11 => k0_hw11

def k0_off12 (v184 : BitVec 32) : Fin 2 → Nat :=
  let c0_i32_132 : BitVec 32 := 0#32
  ![v184.toNat, 0]

def k0_chk12 (v184 : BitVec 32) : Prop :=
  (∀ a, (k0_off12 v184) a + S1x256.size a ≤ S100000x256.size a)
instance k0_chk12.dec : ∀ (v184 : BitVec 32), Decidable (k0_chk12 v184) := fun v184 => decidable_of_iff' _ (Iff.of_eq (k0_chk12.eq_1 v184))
theorem k0_off12_inb : ∀ (v184 : BitVec 32) (k0_hw12 : k0_chk12 v184), ∀ a, (k0_off12 v184) a + S1x256.size a ≤ S100000x256.size a := fun v184 k0_hw12 => k0_hw12

def k0_off13 (v201 : BitVec 32) : Fin 2 → Nat :=
  let c0_i32_144 : BitVec 32 := 0#32
  ![v201.toNat, 0]

def k0_chk13 (v201 : BitVec 32) : Prop :=
  (∀ a, (k0_off13 v201) a + S1x256.size a ≤ S100000x256.size a)
instance k0_chk13.dec : ∀ (v201 : BitVec 32), Decidable (k0_chk13 v201) := fun v201 => decidable_of_iff' _ (Iff.of_eq (k0_chk13.eq_1 v201))
theorem k0_off13_inb : ∀ (v201 : BitVec 32) (k0_hw13 : k0_chk13 v201), ∀ a, (k0_off13 v201) a + S1x256.size a ≤ S100000x256.size a := fun v201 k0_hw13 => k0_hw13

def k0_off14 (v218 : BitVec 32) : Fin 2 → Nat :=
  let c0_i32_156 : BitVec 32 := 0#32
  ![v218.toNat, 0]

def k0_chk14 (v218 : BitVec 32) : Prop :=
  (∀ a, (k0_off14 v218) a + S1x256.size a ≤ S100000x256.size a)
instance k0_chk14.dec : ∀ (v218 : BitVec 32), Decidable (k0_chk14 v218) := fun v218 => decidable_of_iff' _ (Iff.of_eq (k0_chk14.eq_1 v218))
theorem k0_off14_inb : ∀ (v218 : BitVec 32) (k0_hw14 : k0_chk14 v218), ∀ a, (k0_off14 v218) a + S1x256.size a ≤ S100000x256.size a := fun v218 k0_hw14 => k0_hw14

def k0_off15 (v235 : BitVec 32) : Fin 2 → Nat :=
  let c0_i32_168 : BitVec 32 := 0#32
  ![v235.toNat, 0]

def k0_chk15 (v235 : BitVec 32) : Prop :=
  (∀ a, (k0_off15 v235) a + S1x256.size a ≤ S100000x256.size a)
instance k0_chk15.dec : ∀ (v235 : BitVec 32), Decidable (k0_chk15 v235) := fun v235 => decidable_of_iff' _ (Iff.of_eq (k0_chk15.eq_1 v235))
theorem k0_off15_inb : ∀ (v235 : BitVec 32) (k0_hw15 : k0_chk15 v235), ∀ a, (k0_off15 v235) a + S1x256.size a ≤ S100000x256.size a := fun v235 k0_hw15 => k0_hw15

def k0_off16 (v252 : BitVec 32) : Fin 2 → Nat :=
  let c0_i32_180 : BitVec 32 := 0#32
  ![v252.toNat, 0]

def k0_chk16 (v252 : BitVec 32) : Prop :=
  (∀ a, (k0_off16 v252) a + S1x256.size a ≤ S100000x256.size a)
instance k0_chk16.dec : ∀ (v252 : BitVec 32), Decidable (k0_chk16 v252) := fun v252 => decidable_of_iff' _ (Iff.of_eq (k0_chk16.eq_1 v252))
theorem k0_off16_inb : ∀ (v252 : BitVec 32) (k0_hw16 : k0_chk16 v252), ∀ a, (k0_off16 v252) a + S1x256.size a ≤ S100000x256.size a := fun v252 k0_hw16 => k0_hw16

def k0_off17 (v269 : BitVec 32) : Fin 2 → Nat :=
  let c0_i32_193 : BitVec 32 := 0#32
  ![v269.toNat, 0]

def k0_chk17 (v269 : BitVec 32) : Prop :=
  (∀ a, (k0_off17 v269) a + S1x256.size a ≤ S100000x256.size a)
instance k0_chk17.dec : ∀ (v269 : BitVec 32), Decidable (k0_chk17 v269) := fun v269 => decidable_of_iff' _ (Iff.of_eq (k0_chk17.eq_1 v269))
theorem k0_off17_inb : ∀ (v269 : BitVec 32) (k0_hw17 : k0_chk17 v269), ∀ a, (k0_off17 v269) a + S1x256.size a ≤ S100000x256.size a := fun v269 k0_hw17 => k0_hw17

def k0_off18 (v286 : BitVec 32) : Fin 2 → Nat :=
  let c0_i32_206 : BitVec 32 := 0#32
  ![v286.toNat, 0]

def k0_chk18 (v286 : BitVec 32) : Prop :=
  (∀ a, (k0_off18 v286) a + S1x256.size a ≤ S100000x256.size a)
instance k0_chk18.dec : ∀ (v286 : BitVec 32), Decidable (k0_chk18 v286) := fun v286 => decidable_of_iff' _ (Iff.of_eq (k0_chk18.eq_1 v286))
theorem k0_off18_inb : ∀ (v286 : BitVec 32) (k0_hw18 : k0_chk18 v286), ∀ a, (k0_off18 v286) a + S1x256.size a ≤ S100000x256.size a := fun v286 k0_hw18 => k0_hw18

def k0_off19 (v313 : BitVec 32) : Fin 2 → Nat :=
  let c0_i32_225 : BitVec 32 := 0#32
  ![v313.toNat, 0]

def k0_chk19 (v313 : BitVec 32) : Prop :=
  (∀ a, (k0_off19 v313) a + S1x256.size a ≤ S100000x256.size a)
instance k0_chk19.dec : ∀ (v313 : BitVec 32), Decidable (k0_chk19 v313) := fun v313 => decidable_of_iff' _ (Iff.of_eq (k0_chk19.eq_1 v313))
theorem k0_off19_inb : ∀ (v313 : BitVec 32) (k0_hw19 : k0_chk19 v313), ∀ a, (k0_off19 v313) a + S1x256.size a ≤ S100000x256.size a := fun v313 k0_hw19 => k0_hw19

def k0_off20 (v330 : BitVec 32) : Fin 2 → Nat :=
  let c0_i32_238 : BitVec 32 := 0#32
  ![v330.toNat, 0]

def k0_chk20 (v330 : BitVec 32) : Prop :=
  (∀ a, (k0_off20 v330) a + S1x256.size a ≤ S100000x256.size a)
instance k0_chk20.dec : ∀ (v330 : BitVec 32), Decidable (k0_chk20 v330) := fun v330 => decidable_of_iff' _ (Iff.of_eq (k0_chk20.eq_1 v330))
theorem k0_off20_inb : ∀ (v330 : BitVec 32) (k0_hw20 : k0_chk20 v330), ∀ a, (k0_off20 v330) a + S1x256.size a ≤ S100000x256.size a := fun v330 k0_hw20 => k0_hw20

def k0_off21 (v347 : BitVec 32) : Fin 2 → Nat :=
  let c0_i32_251 : BitVec 32 := 0#32
  ![v347.toNat, 0]

def k0_chk21 (v347 : BitVec 32) : Prop :=
  (∀ a, (k0_off21 v347) a + S1x256.size a ≤ S100000x256.size a)
instance k0_chk21.dec : ∀ (v347 : BitVec 32), Decidable (k0_chk21 v347) := fun v347 => decidable_of_iff' _ (Iff.of_eq (k0_chk21.eq_1 v347))
theorem k0_off21_inb : ∀ (v347 : BitVec 32) (k0_hw21 : k0_chk21 v347), ∀ a, (k0_off21 v347) a + S1x256.size a ≤ S100000x256.size a := fun v347 k0_hw21 => k0_hw21

def k0_off22 (v364 : BitVec 32) : Fin 2 → Nat :=
  let c0_i32_264 : BitVec 32 := 0#32
  ![v364.toNat, 0]

def k0_chk22 (v364 : BitVec 32) : Prop :=
  (∀ a, (k0_off22 v364) a + S1x256.size a ≤ S100000x256.size a)
instance k0_chk22.dec : ∀ (v364 : BitVec 32), Decidable (k0_chk22 v364) := fun v364 => decidable_of_iff' _ (Iff.of_eq (k0_chk22.eq_1 v364))
theorem k0_off22_inb : ∀ (v364 : BitVec 32) (k0_hw22 : k0_chk22 v364), ∀ a, (k0_off22 v364) a + S1x256.size a ≤ S100000x256.size a := fun v364 k0_hw22 => k0_hw22

def k0_off23 (v381 : BitVec 32) : Fin 2 → Nat :=
  let c0_i32_277 : BitVec 32 := 0#32
  ![v381.toNat, 0]

def k0_chk23 (v381 : BitVec 32) : Prop :=
  (∀ a, (k0_off23 v381) a + S1x256.size a ≤ S100000x256.size a)
instance k0_chk23.dec : ∀ (v381 : BitVec 32), Decidable (k0_chk23 v381) := fun v381 => decidable_of_iff' _ (Iff.of_eq (k0_chk23.eq_1 v381))
theorem k0_off23_inb : ∀ (v381 : BitVec 32) (k0_hw23 : k0_chk23 v381), ∀ a, (k0_off23 v381) a + S1x256.size a ≤ S100000x256.size a := fun v381 k0_hw23 => k0_hw23

def k0_off24 (v398 : BitVec 32) : Fin 2 → Nat :=
  let c0_i32_290 : BitVec 32 := 0#32
  ![v398.toNat, 0]

def k0_chk24 (v398 : BitVec 32) : Prop :=
  (∀ a, (k0_off24 v398) a + S1x256.size a ≤ S100000x256.size a)
instance k0_chk24.dec : ∀ (v398 : BitVec 32), Decidable (k0_chk24 v398) := fun v398 => decidable_of_iff' _ (Iff.of_eq (k0_chk24.eq_1 v398))
theorem k0_off24_inb : ∀ (v398 : BitVec 32) (k0_hw24 : k0_chk24 v398), ∀ a, (k0_off24 v398) a + S1x256.size a ≤ S100000x256.size a := fun v398 k0_hw24 => k0_hw24

def k0_off25 (v415 : BitVec 32) : Fin 2 → Nat :=
  let c0_i32_303 : BitVec 32 := 0#32
  ![v415.toNat, 0]

def k0_chk25 (v415 : BitVec 32) : Prop :=
  (∀ a, (k0_off25 v415) a + S1x256.size a ≤ S100000x256.size a)
instance k0_chk25.dec : ∀ (v415 : BitVec 32), Decidable (k0_chk25 v415) := fun v415 => decidable_of_iff' _ (Iff.of_eq (k0_chk25.eq_1 v415))
theorem k0_off25_inb : ∀ (v415 : BitVec 32) (k0_hw25 : k0_chk25 v415), ∀ a, (k0_off25 v415) a + S1x256.size a ≤ S100000x256.size a := fun v415 k0_hw25 => k0_hw25

def k0_off26 (v432 : BitVec 32) : Fin 2 → Nat :=
  let c0_i32_316 : BitVec 32 := 0#32
  ![v432.toNat, 0]

def k0_chk26 (v432 : BitVec 32) : Prop :=
  (∀ a, (k0_off26 v432) a + S1x256.size a ≤ S100000x256.size a)
instance k0_chk26.dec : ∀ (v432 : BitVec 32), Decidable (k0_chk26 v432) := fun v432 => decidable_of_iff' _ (Iff.of_eq (k0_chk26.eq_1 v432))
theorem k0_off26_inb : ∀ (v432 : BitVec 32) (k0_hw26 : k0_chk26 v432), ∀ a, (k0_off26 v432) a + S1x256.size a ≤ S100000x256.size a := fun v432 k0_hw26 => k0_hw26

def k0_off27 (v449 : BitVec 32) : Fin 2 → Nat :=
  let c0_i32_329 : BitVec 32 := 0#32
  ![v449.toNat, 0]

def k0_chk27 (v449 : BitVec 32) : Prop :=
  (∀ a, (k0_off27 v449) a + S1x256.size a ≤ S100000x256.size a)
instance k0_chk27.dec : ∀ (v449 : BitVec 32), Decidable (k0_chk27 v449) := fun v449 => decidable_of_iff' _ (Iff.of_eq (k0_chk27.eq_1 v449))
theorem k0_off27_inb : ∀ (v449 : BitVec 32) (k0_hw27 : k0_chk27 v449), ∀ a, (k0_off27 v449) a + S1x256.size a ≤ S100000x256.size a := fun v449 k0_hw27 => k0_hw27

def k0_off28 (v466 : BitVec 32) : Fin 2 → Nat :=
  let c0_i32_342 : BitVec 32 := 0#32
  ![v466.toNat, 0]

def k0_chk28 (v466 : BitVec 32) : Prop :=
  (∀ a, (k0_off28 v466) a + S1x256.size a ≤ S100000x256.size a)
instance k0_chk28.dec : ∀ (v466 : BitVec 32), Decidable (k0_chk28 v466) := fun v466 => decidable_of_iff' _ (Iff.of_eq (k0_chk28.eq_1 v466))
theorem k0_off28_inb : ∀ (v466 : BitVec 32) (k0_hw28 : k0_chk28 v466), ∀ a, (k0_off28 v466) a + S1x256.size a ≤ S100000x256.size a := fun v466 k0_hw28 => k0_hw28

def k0_off29 (v483 : BitVec 32) : Fin 2 → Nat :=
  let c0_i32_355 : BitVec 32 := 0#32
  ![v483.toNat, 0]

def k0_chk29 (v483 : BitVec 32) : Prop :=
  (∀ a, (k0_off29 v483) a + S1x256.size a ≤ S100000x256.size a)
instance k0_chk29.dec : ∀ (v483 : BitVec 32), Decidable (k0_chk29 v483) := fun v483 => decidable_of_iff' _ (Iff.of_eq (k0_chk29.eq_1 v483))
theorem k0_off29_inb : ∀ (v483 : BitVec 32) (k0_hw29 : k0_chk29 v483), ∀ a, (k0_off29 v483) a + S1x256.size a ≤ S100000x256.size a := fun v483 k0_hw29 => k0_hw29

def k0_off30 (v500 : BitVec 32) : Fin 2 → Nat :=
  let c0_i32_368 : BitVec 32 := 0#32
  ![v500.toNat, 0]

def k0_chk30 (v500 : BitVec 32) : Prop :=
  (∀ a, (k0_off30 v500) a + S1x256.size a ≤ S100000x256.size a)
instance k0_chk30.dec : ∀ (v500 : BitVec 32), Decidable (k0_chk30 v500) := fun v500 => decidable_of_iff' _ (Iff.of_eq (k0_chk30.eq_1 v500))
theorem k0_off30_inb : ∀ (v500 : BitVec 32) (k0_hw30 : k0_chk30 v500), ∀ a, (k0_off30 v500) a + S1x256.size a ≤ S100000x256.size a := fun v500 k0_hw30 => k0_hw30

def k0_off31 (v517 : BitVec 32) : Fin 2 → Nat :=
  let c0_i32_381 : BitVec 32 := 0#32
  ![v517.toNat, 0]

def k0_chk31 (v517 : BitVec 32) : Prop :=
  (∀ a, (k0_off31 v517) a + S1x256.size a ≤ S100000x256.size a)
instance k0_chk31.dec : ∀ (v517 : BitVec 32), Decidable (k0_chk31 v517) := fun v517 => decidable_of_iff' _ (Iff.of_eq (k0_chk31.eq_1 v517))
theorem k0_off31_inb : ∀ (v517 : BitVec 32) (k0_hw31 : k0_chk31 v517), ∀ a, (k0_off31 v517) a + S1x256.size a ≤ S100000x256.size a := fun v517 k0_hw31 => k0_hw31

def k0_off32 (v534 : BitVec 32) : Fin 2 → Nat :=
  let c0_i32_394 : BitVec 32 := 0#32
  ![v534.toNat, 0]

def k0_chk32 (v534 : BitVec 32) : Prop :=
  (∀ a, (k0_off32 v534) a + S1x256.size a ≤ S100000x256.size a)
instance k0_chk32.dec : ∀ (v534 : BitVec 32), Decidable (k0_chk32 v534) := fun v534 => decidable_of_iff' _ (Iff.of_eq (k0_chk32.eq_1 v534))
theorem k0_off32_inb : ∀ (v534 : BitVec 32) (k0_hw32 : k0_chk32 v534), ∀ a, (k0_off32 v534) a + S1x256.size a ≤ S100000x256.size a := fun v534 k0_hw32 => k0_hw32

def k0_off33 (v551 : BitVec 32) : Fin 2 → Nat :=
  let c0_i32_407 : BitVec 32 := 0#32
  ![v551.toNat, 0]

def k0_chk33 (v551 : BitVec 32) : Prop :=
  (∀ a, (k0_off33 v551) a + S1x256.size a ≤ S100000x256.size a)
instance k0_chk33.dec : ∀ (v551 : BitVec 32), Decidable (k0_chk33 v551) := fun v551 => decidable_of_iff' _ (Iff.of_eq (k0_chk33.eq_1 v551))
theorem k0_off33_inb : ∀ (v551 : BitVec 32) (k0_hw33 : k0_chk33 v551), ∀ a, (k0_off33 v551) a + S1x256.size a ≤ S100000x256.size a := fun v551 k0_hw33 => k0_hw33

def k0_off34 (v568 : BitVec 32) : Fin 2 → Nat :=
  let c0_i32_420 : BitVec 32 := 0#32
  ![v568.toNat, 0]

def k0_chk34 (v568 : BitVec 32) : Prop :=
  (∀ a, (k0_off34 v568) a + S1x256.size a ≤ S100000x256.size a)
instance k0_chk34.dec : ∀ (v568 : BitVec 32), Decidable (k0_chk34 v568) := fun v568 => decidable_of_iff' _ (Iff.of_eq (k0_chk34.eq_1 v568))
theorem k0_off34_inb : ∀ (v568 : BitVec 32) (k0_hw34 : k0_chk34 v568), ∀ a, (k0_off34 v568) a + S1x256.size a ≤ S100000x256.size a := fun v568 k0_hw34 => k0_hw34

def k0_off35 (v585 : BitVec 32) : Fin 2 → Nat :=
  let c0_i32_433 : BitVec 32 := 0#32
  ![v585.toNat, 0]

def k0_chk35 (v585 : BitVec 32) : Prop :=
  (∀ a, (k0_off35 v585) a + S1x256.size a ≤ S100000x256.size a)
instance k0_chk35.dec : ∀ (v585 : BitVec 32), Decidable (k0_chk35 v585) := fun v585 => decidable_of_iff' _ (Iff.of_eq (k0_chk35.eq_1 v585))
theorem k0_off35_inb : ∀ (v585 : BitVec 32) (k0_hw35 : k0_chk35 v585), ∀ a, (k0_off35 v585) a + S1x256.size a ≤ S100000x256.size a := fun v585 k0_hw35 => k0_hw35

def k0_off36 (v612 : BitVec 32) : Fin 2 → Nat :=
  let c0_i32_452 : BitVec 32 := 0#32
  ![v612.toNat, 0]

def k0_chk36 (v612 : BitVec 32) : Prop :=
  (∀ a, (k0_off36 v612) a + S1x256.size a ≤ S100000x256.size a)
instance k0_chk36.dec : ∀ (v612 : BitVec 32), Decidable (k0_chk36 v612) := fun v612 => decidable_of_iff' _ (Iff.of_eq (k0_chk36.eq_1 v612))
theorem k0_off36_inb : ∀ (v612 : BitVec 32) (k0_hw36 : k0_chk36 v612), ∀ a, (k0_off36 v612) a + S1x256.size a ≤ S100000x256.size a := fun v612 k0_hw36 => k0_hw36

def k0_off37 (v629 : BitVec 32) : Fin 2 → Nat :=
  let c0_i32_465 : BitVec 32 := 0#32
  ![v629.toNat, 0]

def k0_chk37 (v629 : BitVec 32) : Prop :=
  (∀ a, (k0_off37 v629) a + S1x256.size a ≤ S100000x256.size a)
instance k0_chk37.dec : ∀ (v629 : BitVec 32), Decidable (k0_chk37 v629) := fun v629 => decidable_of_iff' _ (Iff.of_eq (k0_chk37.eq_1 v629))
theorem k0_off37_inb : ∀ (v629 : BitVec 32) (k0_hw37 : k0_chk37 v629), ∀ a, (k0_off37 v629) a + S1x256.size a ≤ S100000x256.size a := fun v629 k0_hw37 => k0_hw37

def k0_off38 (v646 : BitVec 32) : Fin 2 → Nat :=
  let c0_i32_478 : BitVec 32 := 0#32
  ![v646.toNat, 0]

def k0_chk38 (v646 : BitVec 32) : Prop :=
  (∀ a, (k0_off38 v646) a + S1x256.size a ≤ S100000x256.size a)
instance k0_chk38.dec : ∀ (v646 : BitVec 32), Decidable (k0_chk38 v646) := fun v646 => decidable_of_iff' _ (Iff.of_eq (k0_chk38.eq_1 v646))
theorem k0_off38_inb : ∀ (v646 : BitVec 32) (k0_hw38 : k0_chk38 v646), ∀ a, (k0_off38 v646) a + S1x256.size a ≤ S100000x256.size a := fun v646 k0_hw38 => k0_hw38

def k0_off39 (v663 : BitVec 32) : Fin 2 → Nat :=
  let c0_i32_491 : BitVec 32 := 0#32
  ![v663.toNat, 0]

def k0_chk39 (v663 : BitVec 32) : Prop :=
  (∀ a, (k0_off39 v663) a + S1x256.size a ≤ S100000x256.size a)
instance k0_chk39.dec : ∀ (v663 : BitVec 32), Decidable (k0_chk39 v663) := fun v663 => decidable_of_iff' _ (Iff.of_eq (k0_chk39.eq_1 v663))
theorem k0_off39_inb : ∀ (v663 : BitVec 32) (k0_hw39 : k0_chk39 v663), ∀ a, (k0_off39 v663) a + S1x256.size a ≤ S100000x256.size a := fun v663 k0_hw39 => k0_hw39

def k0_off40 (v680 : BitVec 32) : Fin 2 → Nat :=
  let c0_i32_504 : BitVec 32 := 0#32
  ![v680.toNat, 0]

def k0_chk40 (v680 : BitVec 32) : Prop :=
  (∀ a, (k0_off40 v680) a + S1x256.size a ≤ S100000x256.size a)
instance k0_chk40.dec : ∀ (v680 : BitVec 32), Decidable (k0_chk40 v680) := fun v680 => decidable_of_iff' _ (Iff.of_eq (k0_chk40.eq_1 v680))
theorem k0_off40_inb : ∀ (v680 : BitVec 32) (k0_hw40 : k0_chk40 v680), ∀ a, (k0_off40 v680) a + S1x256.size a ≤ S100000x256.size a := fun v680 k0_hw40 => k0_hw40

def k0_off41 (v697 : BitVec 32) : Fin 2 → Nat :=
  let c0_i32_517 : BitVec 32 := 0#32
  ![v697.toNat, 0]

def k0_chk41 (v697 : BitVec 32) : Prop :=
  (∀ a, (k0_off41 v697) a + S1x256.size a ≤ S100000x256.size a)
instance k0_chk41.dec : ∀ (v697 : BitVec 32), Decidable (k0_chk41 v697) := fun v697 => decidable_of_iff' _ (Iff.of_eq (k0_chk41.eq_1 v697))
theorem k0_off41_inb : ∀ (v697 : BitVec 32) (k0_hw41 : k0_chk41 v697), ∀ a, (k0_off41 v697) a + S1x256.size a ≤ S100000x256.size a := fun v697 k0_hw41 => k0_hw41

def k0_off42 (v714 : BitVec 32) : Fin 2 → Nat :=
  let c0_i32_530 : BitVec 32 := 0#32
  ![v714.toNat, 0]

def k0_chk42 (v714 : BitVec 32) : Prop :=
  (∀ a, (k0_off42 v714) a + S1x256.size a ≤ S100000x256.size a)
instance k0_chk42.dec : ∀ (v714 : BitVec 32), Decidable (k0_chk42 v714) := fun v714 => decidable_of_iff' _ (Iff.of_eq (k0_chk42.eq_1 v714))
theorem k0_off42_inb : ∀ (v714 : BitVec 32) (k0_hw42 : k0_chk42 v714), ∀ a, (k0_off42 v714) a + S1x256.size a ≤ S100000x256.size a := fun v714 k0_hw42 => k0_hw42

def k0_off43 (v731 : BitVec 32) : Fin 2 → Nat :=
  let c0_i32_543 : BitVec 32 := 0#32
  ![v731.toNat, 0]

def k0_chk43 (v731 : BitVec 32) : Prop :=
  (∀ a, (k0_off43 v731) a + S1x256.size a ≤ S100000x256.size a)
instance k0_chk43.dec : ∀ (v731 : BitVec 32), Decidable (k0_chk43 v731) := fun v731 => decidable_of_iff' _ (Iff.of_eq (k0_chk43.eq_1 v731))
theorem k0_off43_inb : ∀ (v731 : BitVec 32) (k0_hw43 : k0_chk43 v731), ∀ a, (k0_off43 v731) a + S1x256.size a ≤ S100000x256.size a := fun v731 k0_hw43 => k0_hw43

def k0_off44 (v748 : BitVec 32) : Fin 2 → Nat :=
  let c0_i32_556 : BitVec 32 := 0#32
  ![v748.toNat, 0]

def k0_chk44 (v748 : BitVec 32) : Prop :=
  (∀ a, (k0_off44 v748) a + S1x256.size a ≤ S100000x256.size a)
instance k0_chk44.dec : ∀ (v748 : BitVec 32), Decidable (k0_chk44 v748) := fun v748 => decidable_of_iff' _ (Iff.of_eq (k0_chk44.eq_1 v748))
theorem k0_off44_inb : ∀ (v748 : BitVec 32) (k0_hw44 : k0_chk44 v748), ∀ a, (k0_off44 v748) a + S1x256.size a ≤ S100000x256.size a := fun v748 k0_hw44 => k0_hw44

def k0_off45 (v765 : BitVec 32) : Fin 2 → Nat :=
  let c0_i32_569 : BitVec 32 := 0#32
  ![v765.toNat, 0]

def k0_chk45 (v765 : BitVec 32) : Prop :=
  (∀ a, (k0_off45 v765) a + S1x256.size a ≤ S100000x256.size a)
instance k0_chk45.dec : ∀ (v765 : BitVec 32), Decidable (k0_chk45 v765) := fun v765 => decidable_of_iff' _ (Iff.of_eq (k0_chk45.eq_1 v765))
theorem k0_off45_inb : ∀ (v765 : BitVec 32) (k0_hw45 : k0_chk45 v765), ∀ a, (k0_off45 v765) a + S1x256.size a ≤ S100000x256.size a := fun v765 k0_hw45 => k0_hw45

def k0_off46 (v782 : BitVec 32) : Fin 2 → Nat :=
  let c0_i32_582 : BitVec 32 := 0#32
  ![v782.toNat, 0]

def k0_chk46 (v782 : BitVec 32) : Prop :=
  (∀ a, (k0_off46 v782) a + S1x256.size a ≤ S100000x256.size a)
instance k0_chk46.dec : ∀ (v782 : BitVec 32), Decidable (k0_chk46 v782) := fun v782 => decidable_of_iff' _ (Iff.of_eq (k0_chk46.eq_1 v782))
theorem k0_off46_inb : ∀ (v782 : BitVec 32) (k0_hw46 : k0_chk46 v782), ∀ a, (k0_off46 v782) a + S1x256.size a ≤ S100000x256.size a := fun v782 k0_hw46 => k0_hw46

def k0_off47 (v799 : BitVec 32) : Fin 2 → Nat :=
  let c0_i32_595 : BitVec 32 := 0#32
  ![v799.toNat, 0]

def k0_chk47 (v799 : BitVec 32) : Prop :=
  (∀ a, (k0_off47 v799) a + S1x256.size a ≤ S100000x256.size a)
instance k0_chk47.dec : ∀ (v799 : BitVec 32), Decidable (k0_chk47 v799) := fun v799 => decidable_of_iff' _ (Iff.of_eq (k0_chk47.eq_1 v799))
theorem k0_off47_inb : ∀ (v799 : BitVec 32) (k0_hw47 : k0_chk47 v799), ∀ a, (k0_off47 v799) a + S1x256.size a ≤ S100000x256.size a := fun v799 k0_hw47 => k0_hw47

def k0_off48 (v816 : BitVec 32) : Fin 2 → Nat :=
  let c0_i32_608 : BitVec 32 := 0#32
  ![v816.toNat, 0]

def k0_chk48 (v816 : BitVec 32) : Prop :=
  (∀ a, (k0_off48 v816) a + S1x256.size a ≤ S100000x256.size a)
instance k0_chk48.dec : ∀ (v816 : BitVec 32), Decidable (k0_chk48 v816) := fun v816 => decidable_of_iff' _ (Iff.of_eq (k0_chk48.eq_1 v816))
theorem k0_off48_inb : ∀ (v816 : BitVec 32) (k0_hw48 : k0_chk48 v816), ∀ a, (k0_off48 v816) a + S1x256.size a ≤ S100000x256.size a := fun v816 k0_hw48 => k0_hw48

def k0_off49 (v833 : BitVec 32) : Fin 2 → Nat :=
  let c0_i32_621 : BitVec 32 := 0#32
  ![v833.toNat, 0]

def k0_chk49 (v833 : BitVec 32) : Prop :=
  (∀ a, (k0_off49 v833) a + S1x256.size a ≤ S100000x256.size a)
instance k0_chk49.dec : ∀ (v833 : BitVec 32), Decidable (k0_chk49 v833) := fun v833 => decidable_of_iff' _ (Iff.of_eq (k0_chk49.eq_1 v833))
theorem k0_off49_inb : ∀ (v833 : BitVec 32) (k0_hw49 : k0_chk49 v833), ∀ a, (k0_off49 v833) a + S1x256.size a ≤ S100000x256.size a := fun v833 k0_hw49 => k0_hw49

def k0_off50 (v850 : BitVec 32) : Fin 2 → Nat :=
  let c0_i32_634 : BitVec 32 := 0#32
  ![v850.toNat, 0]

def k0_chk50 (v850 : BitVec 32) : Prop :=
  (∀ a, (k0_off50 v850) a + S1x256.size a ≤ S100000x256.size a)
instance k0_chk50.dec : ∀ (v850 : BitVec 32), Decidable (k0_chk50 v850) := fun v850 => decidable_of_iff' _ (Iff.of_eq (k0_chk50.eq_1 v850))
theorem k0_off50_inb : ∀ (v850 : BitVec 32) (k0_hw50 : k0_chk50 v850), ∀ a, (k0_off50 v850) a + S1x256.size a ≤ S100000x256.size a := fun v850 k0_hw50 => k0_hw50

def k0_off51 (v867 : BitVec 32) : Fin 2 → Nat :=
  let c0_i32_647 : BitVec 32 := 0#32
  ![v867.toNat, 0]

def k0_chk51 (v867 : BitVec 32) : Prop :=
  (∀ a, (k0_off51 v867) a + S1x256.size a ≤ S100000x256.size a)
instance k0_chk51.dec : ∀ (v867 : BitVec 32), Decidable (k0_chk51 v867) := fun v867 => decidable_of_iff' _ (Iff.of_eq (k0_chk51.eq_1 v867))
theorem k0_off51_inb : ∀ (v867 : BitVec 32) (k0_hw51 : k0_chk51 v867), ∀ a, (k0_off51 v867) a + S1x256.size a ≤ S100000x256.size a := fun v867 k0_hw51 => k0_hw51

def k0_off52 (v884 : BitVec 32) : Fin 2 → Nat :=
  let c0_i32_660 : BitVec 32 := 0#32
  ![v884.toNat, 0]

def k0_chk52 (v884 : BitVec 32) : Prop :=
  (∀ a, (k0_off52 v884) a + S1x256.size a ≤ S100000x256.size a)
instance k0_chk52.dec : ∀ (v884 : BitVec 32), Decidable (k0_chk52 v884) := fun v884 => decidable_of_iff' _ (Iff.of_eq (k0_chk52.eq_1 v884))
theorem k0_off52_inb : ∀ (v884 : BitVec 32) (k0_hw52 : k0_chk52 v884), ∀ a, (k0_off52 v884) a + S1x256.size a ≤ S100000x256.size a := fun v884 k0_hw52 => k0_hw52

def k0_off53 (v911 : BitVec 32) : Fin 2 → Nat :=
  let c0_i32_679 : BitVec 32 := 0#32
  ![v911.toNat, 0]

def k0_chk53 (v911 : BitVec 32) : Prop :=
  (∀ a, (k0_off53 v911) a + S1x256.size a ≤ S100000x256.size a)
instance k0_chk53.dec : ∀ (v911 : BitVec 32), Decidable (k0_chk53 v911) := fun v911 => decidable_of_iff' _ (Iff.of_eq (k0_chk53.eq_1 v911))
theorem k0_off53_inb : ∀ (v911 : BitVec 32) (k0_hw53 : k0_chk53 v911), ∀ a, (k0_off53 v911) a + S1x256.size a ≤ S100000x256.size a := fun v911 k0_hw53 => k0_hw53

def k0_off54 (v928 : BitVec 32) : Fin 2 → Nat :=
  let c0_i32_692 : BitVec 32 := 0#32
  ![v928.toNat, 0]

def k0_chk54 (v928 : BitVec 32) : Prop :=
  (∀ a, (k0_off54 v928) a + S1x256.size a ≤ S100000x256.size a)
instance k0_chk54.dec : ∀ (v928 : BitVec 32), Decidable (k0_chk54 v928) := fun v928 => decidable_of_iff' _ (Iff.of_eq (k0_chk54.eq_1 v928))
theorem k0_off54_inb : ∀ (v928 : BitVec 32) (k0_hw54 : k0_chk54 v928), ∀ a, (k0_off54 v928) a + S1x256.size a ≤ S100000x256.size a := fun v928 k0_hw54 => k0_hw54

def k0_off55 (v945 : BitVec 32) : Fin 2 → Nat :=
  let c0_i32_705 : BitVec 32 := 0#32
  ![v945.toNat, 0]

def k0_chk55 (v945 : BitVec 32) : Prop :=
  (∀ a, (k0_off55 v945) a + S1x256.size a ≤ S100000x256.size a)
instance k0_chk55.dec : ∀ (v945 : BitVec 32), Decidable (k0_chk55 v945) := fun v945 => decidable_of_iff' _ (Iff.of_eq (k0_chk55.eq_1 v945))
theorem k0_off55_inb : ∀ (v945 : BitVec 32) (k0_hw55 : k0_chk55 v945), ∀ a, (k0_off55 v945) a + S1x256.size a ≤ S100000x256.size a := fun v945 k0_hw55 => k0_hw55

def k0_off56 (v962 : BitVec 32) : Fin 2 → Nat :=
  let c0_i32_718 : BitVec 32 := 0#32
  ![v962.toNat, 0]

def k0_chk56 (v962 : BitVec 32) : Prop :=
  (∀ a, (k0_off56 v962) a + S1x256.size a ≤ S100000x256.size a)
instance k0_chk56.dec : ∀ (v962 : BitVec 32), Decidable (k0_chk56 v962) := fun v962 => decidable_of_iff' _ (Iff.of_eq (k0_chk56.eq_1 v962))
theorem k0_off56_inb : ∀ (v962 : BitVec 32) (k0_hw56 : k0_chk56 v962), ∀ a, (k0_off56 v962) a + S1x256.size a ≤ S100000x256.size a := fun v962 k0_hw56 => k0_hw56

def k0_off57 (v979 : BitVec 32) : Fin 2 → Nat :=
  let c0_i32_731 : BitVec 32 := 0#32
  ![v979.toNat, 0]

def k0_chk57 (v979 : BitVec 32) : Prop :=
  (∀ a, (k0_off57 v979) a + S1x256.size a ≤ S100000x256.size a)
instance k0_chk57.dec : ∀ (v979 : BitVec 32), Decidable (k0_chk57 v979) := fun v979 => decidable_of_iff' _ (Iff.of_eq (k0_chk57.eq_1 v979))
theorem k0_off57_inb : ∀ (v979 : BitVec 32) (k0_hw57 : k0_chk57 v979), ∀ a, (k0_off57 v979) a + S1x256.size a ≤ S100000x256.size a := fun v979 k0_hw57 => k0_hw57

def k0_off58 (v996 : BitVec 32) : Fin 2 → Nat :=
  let c0_i32_744 : BitVec 32 := 0#32
  ![v996.toNat, 0]

def k0_chk58 (v996 : BitVec 32) : Prop :=
  (∀ a, (k0_off58 v996) a + S1x256.size a ≤ S100000x256.size a)
instance k0_chk58.dec : ∀ (v996 : BitVec 32), Decidable (k0_chk58 v996) := fun v996 => decidable_of_iff' _ (Iff.of_eq (k0_chk58.eq_1 v996))
theorem k0_off58_inb : ∀ (v996 : BitVec 32) (k0_hw58 : k0_chk58 v996), ∀ a, (k0_off58 v996) a + S1x256.size a ≤ S100000x256.size a := fun v996 k0_hw58 => k0_hw58

def k0_off59 (v1013 : BitVec 32) : Fin 2 → Nat :=
  let c0_i32_757 : BitVec 32 := 0#32
  ![v1013.toNat, 0]

def k0_chk59 (v1013 : BitVec 32) : Prop :=
  (∀ a, (k0_off59 v1013) a + S1x256.size a ≤ S100000x256.size a)
instance k0_chk59.dec : ∀ (v1013 : BitVec 32), Decidable (k0_chk59 v1013) := fun v1013 => decidable_of_iff' _ (Iff.of_eq (k0_chk59.eq_1 v1013))
theorem k0_off59_inb : ∀ (v1013 : BitVec 32) (k0_hw59 : k0_chk59 v1013), ∀ a, (k0_off59 v1013) a + S1x256.size a ≤ S100000x256.size a := fun v1013 k0_hw59 => k0_hw59

def k0_off60 (v1030 : BitVec 32) : Fin 2 → Nat :=
  let c0_i32_770 : BitVec 32 := 0#32
  ![v1030.toNat, 0]

def k0_chk60 (v1030 : BitVec 32) : Prop :=
  (∀ a, (k0_off60 v1030) a + S1x256.size a ≤ S100000x256.size a)
instance k0_chk60.dec : ∀ (v1030 : BitVec 32), Decidable (k0_chk60 v1030) := fun v1030 => decidable_of_iff' _ (Iff.of_eq (k0_chk60.eq_1 v1030))
theorem k0_off60_inb : ∀ (v1030 : BitVec 32) (k0_hw60 : k0_chk60 v1030), ∀ a, (k0_off60 v1030) a + S1x256.size a ≤ S100000x256.size a := fun v1030 k0_hw60 => k0_hw60

def k0_off61 (v1047 : BitVec 32) : Fin 2 → Nat :=
  let c0_i32_783 : BitVec 32 := 0#32
  ![v1047.toNat, 0]

def k0_chk61 (v1047 : BitVec 32) : Prop :=
  (∀ a, (k0_off61 v1047) a + S1x256.size a ≤ S100000x256.size a)
instance k0_chk61.dec : ∀ (v1047 : BitVec 32), Decidable (k0_chk61 v1047) := fun v1047 => decidable_of_iff' _ (Iff.of_eq (k0_chk61.eq_1 v1047))
theorem k0_off61_inb : ∀ (v1047 : BitVec 32) (k0_hw61 : k0_chk61 v1047), ∀ a, (k0_off61 v1047) a + S1x256.size a ≤ S100000x256.size a := fun v1047 k0_hw61 => k0_hw61

def k0_off62 (v1064 : BitVec 32) : Fin 2 → Nat :=
  let c0_i32_796 : BitVec 32 := 0#32
  ![v1064.toNat, 0]

def k0_chk62 (v1064 : BitVec 32) : Prop :=
  (∀ a, (k0_off62 v1064) a + S1x256.size a ≤ S100000x256.size a)
instance k0_chk62.dec : ∀ (v1064 : BitVec 32), Decidable (k0_chk62 v1064) := fun v1064 => decidable_of_iff' _ (Iff.of_eq (k0_chk62.eq_1 v1064))
theorem k0_off62_inb : ∀ (v1064 : BitVec 32) (k0_hw62 : k0_chk62 v1064), ∀ a, (k0_off62 v1064) a + S1x256.size a ≤ S100000x256.size a := fun v1064 k0_hw62 => k0_hw62

def k0_off63 (v1081 : BitVec 32) : Fin 2 → Nat :=
  let c0_i32_809 : BitVec 32 := 0#32
  ![v1081.toNat, 0]

def k0_chk63 (v1081 : BitVec 32) : Prop :=
  (∀ a, (k0_off63 v1081) a + S1x256.size a ≤ S100000x256.size a)
instance k0_chk63.dec : ∀ (v1081 : BitVec 32), Decidable (k0_chk63 v1081) := fun v1081 => decidable_of_iff' _ (Iff.of_eq (k0_chk63.eq_1 v1081))
theorem k0_off63_inb : ∀ (v1081 : BitVec 32) (k0_hw63 : k0_chk63 v1081), ∀ a, (k0_off63 v1081) a + S1x256.size a ≤ S100000x256.size a := fun v1081 k0_hw63 => k0_hw63

def k0_off64 (v1098 : BitVec 32) : Fin 2 → Nat :=
  let c0_i32_822 : BitVec 32 := 0#32
  ![v1098.toNat, 0]

def k0_chk64 (v1098 : BitVec 32) : Prop :=
  (∀ a, (k0_off64 v1098) a + S1x256.size a ≤ S100000x256.size a)
instance k0_chk64.dec : ∀ (v1098 : BitVec 32), Decidable (k0_chk64 v1098) := fun v1098 => decidable_of_iff' _ (Iff.of_eq (k0_chk64.eq_1 v1098))
theorem k0_off64_inb : ∀ (v1098 : BitVec 32) (k0_hw64 : k0_chk64 v1098), ∀ a, (k0_off64 v1098) a + S1x256.size a ≤ S100000x256.size a := fun v1098 k0_hw64 => k0_hw64

def k0_off65 (v1115 : BitVec 32) : Fin 2 → Nat :=
  let c0_i32_835 : BitVec 32 := 0#32
  ![v1115.toNat, 0]

def k0_chk65 (v1115 : BitVec 32) : Prop :=
  (∀ a, (k0_off65 v1115) a + S1x256.size a ≤ S100000x256.size a)
instance k0_chk65.dec : ∀ (v1115 : BitVec 32), Decidable (k0_chk65 v1115) := fun v1115 => decidable_of_iff' _ (Iff.of_eq (k0_chk65.eq_1 v1115))
theorem k0_off65_inb : ∀ (v1115 : BitVec 32) (k0_hw65 : k0_chk65 v1115), ∀ a, (k0_off65 v1115) a + S1x256.size a ≤ S100000x256.size a := fun v1115 k0_hw65 => k0_hw65

def k0_off66 (v1132 : BitVec 32) : Fin 2 → Nat :=
  let c0_i32_848 : BitVec 32 := 0#32
  ![v1132.toNat, 0]

def k0_chk66 (v1132 : BitVec 32) : Prop :=
  (∀ a, (k0_off66 v1132) a + S1x256.size a ≤ S100000x256.size a)
instance k0_chk66.dec : ∀ (v1132 : BitVec 32), Decidable (k0_chk66 v1132) := fun v1132 => decidable_of_iff' _ (Iff.of_eq (k0_chk66.eq_1 v1132))
theorem k0_off66_inb : ∀ (v1132 : BitVec 32) (k0_hw66 : k0_chk66 v1132), ∀ a, (k0_off66 v1132) a + S1x256.size a ≤ S100000x256.size a := fun v1132 k0_hw66 => k0_hw66

def k0_off67 (v1149 : BitVec 32) : Fin 2 → Nat :=
  let c0_i32_861 : BitVec 32 := 0#32
  ![v1149.toNat, 0]

def k0_chk67 (v1149 : BitVec 32) : Prop :=
  (∀ a, (k0_off67 v1149) a + S1x256.size a ≤ S100000x256.size a)
instance k0_chk67.dec : ∀ (v1149 : BitVec 32), Decidable (k0_chk67 v1149) := fun v1149 => decidable_of_iff' _ (Iff.of_eq (k0_chk67.eq_1 v1149))
theorem k0_off67_inb : ∀ (v1149 : BitVec 32) (k0_hw67 : k0_chk67 v1149), ∀ a, (k0_off67 v1149) a + S1x256.size a ≤ S100000x256.size a := fun v1149 k0_hw67 => k0_hw67

def k0_off68 (v1166 : BitVec 32) : Fin 2 → Nat :=
  let c0_i32_874 : BitVec 32 := 0#32
  ![v1166.toNat, 0]

def k0_chk68 (v1166 : BitVec 32) : Prop :=
  (∀ a, (k0_off68 v1166) a + S1x256.size a ≤ S100000x256.size a)
instance k0_chk68.dec : ∀ (v1166 : BitVec 32), Decidable (k0_chk68 v1166) := fun v1166 => decidable_of_iff' _ (Iff.of_eq (k0_chk68.eq_1 v1166))
theorem k0_off68_inb : ∀ (v1166 : BitVec 32) (k0_hw68 : k0_chk68 v1166), ∀ a, (k0_off68 v1166) a + S1x256.size a ≤ S100000x256.size a := fun v1166 k0_hw68 => k0_hw68

def k0_off69 (v1183 : BitVec 32) : Fin 2 → Nat :=
  let c0_i32_887 : BitVec 32 := 0#32
  ![v1183.toNat, 0]

def k0_chk69 (v1183 : BitVec 32) : Prop :=
  (∀ a, (k0_off69 v1183) a + S1x256.size a ≤ S100000x256.size a)
instance k0_chk69.dec : ∀ (v1183 : BitVec 32), Decidable (k0_chk69 v1183) := fun v1183 => decidable_of_iff' _ (Iff.of_eq (k0_chk69.eq_1 v1183))
theorem k0_off69_inb : ∀ (v1183 : BitVec 32) (k0_hw69 : k0_chk69 v1183), ∀ a, (k0_off69 v1183) a + S1x256.size a ≤ S100000x256.size a := fun v1183 k0_hw69 => k0_hw69

def k0_off70 (v1210 : BitVec 32) : Fin 2 → Nat :=
  let c0_i32_906 : BitVec 32 := 0#32
  ![v1210.toNat, 0]

def k0_chk70 (v1210 : BitVec 32) : Prop :=
  (∀ a, (k0_off70 v1210) a + S1x256.size a ≤ S100000x256.size a)
instance k0_chk70.dec : ∀ (v1210 : BitVec 32), Decidable (k0_chk70 v1210) := fun v1210 => decidable_of_iff' _ (Iff.of_eq (k0_chk70.eq_1 v1210))
theorem k0_off70_inb : ∀ (v1210 : BitVec 32) (k0_hw70 : k0_chk70 v1210), ∀ a, (k0_off70 v1210) a + S1x256.size a ≤ S100000x256.size a := fun v1210 k0_hw70 => k0_hw70

def k0_off71 (v1227 : BitVec 32) : Fin 2 → Nat :=
  let c0_i32_919 : BitVec 32 := 0#32
  ![v1227.toNat, 0]

def k0_chk71 (v1227 : BitVec 32) : Prop :=
  (∀ a, (k0_off71 v1227) a + S1x256.size a ≤ S100000x256.size a)
instance k0_chk71.dec : ∀ (v1227 : BitVec 32), Decidable (k0_chk71 v1227) := fun v1227 => decidable_of_iff' _ (Iff.of_eq (k0_chk71.eq_1 v1227))
theorem k0_off71_inb : ∀ (v1227 : BitVec 32) (k0_hw71 : k0_chk71 v1227), ∀ a, (k0_off71 v1227) a + S1x256.size a ≤ S100000x256.size a := fun v1227 k0_hw71 => k0_hw71

def k0_off72 (v1244 : BitVec 32) : Fin 2 → Nat :=
  let c0_i32_932 : BitVec 32 := 0#32
  ![v1244.toNat, 0]

def k0_chk72 (v1244 : BitVec 32) : Prop :=
  (∀ a, (k0_off72 v1244) a + S1x256.size a ≤ S100000x256.size a)
instance k0_chk72.dec : ∀ (v1244 : BitVec 32), Decidable (k0_chk72 v1244) := fun v1244 => decidable_of_iff' _ (Iff.of_eq (k0_chk72.eq_1 v1244))
theorem k0_off72_inb : ∀ (v1244 : BitVec 32) (k0_hw72 : k0_chk72 v1244), ∀ a, (k0_off72 v1244) a + S1x256.size a ≤ S100000x256.size a := fun v1244 k0_hw72 => k0_hw72

def k0_off73 (v1261 : BitVec 32) : Fin 2 → Nat :=
  let c0_i32_945 : BitVec 32 := 0#32
  ![v1261.toNat, 0]

def k0_chk73 (v1261 : BitVec 32) : Prop :=
  (∀ a, (k0_off73 v1261) a + S1x256.size a ≤ S100000x256.size a)
instance k0_chk73.dec : ∀ (v1261 : BitVec 32), Decidable (k0_chk73 v1261) := fun v1261 => decidable_of_iff' _ (Iff.of_eq (k0_chk73.eq_1 v1261))
theorem k0_off73_inb : ∀ (v1261 : BitVec 32) (k0_hw73 : k0_chk73 v1261), ∀ a, (k0_off73 v1261) a + S1x256.size a ≤ S100000x256.size a := fun v1261 k0_hw73 => k0_hw73

def k0_off74 (v1278 : BitVec 32) : Fin 2 → Nat :=
  let c0_i32_958 : BitVec 32 := 0#32
  ![v1278.toNat, 0]

def k0_chk74 (v1278 : BitVec 32) : Prop :=
  (∀ a, (k0_off74 v1278) a + S1x256.size a ≤ S100000x256.size a)
instance k0_chk74.dec : ∀ (v1278 : BitVec 32), Decidable (k0_chk74 v1278) := fun v1278 => decidable_of_iff' _ (Iff.of_eq (k0_chk74.eq_1 v1278))
theorem k0_off74_inb : ∀ (v1278 : BitVec 32) (k0_hw74 : k0_chk74 v1278), ∀ a, (k0_off74 v1278) a + S1x256.size a ≤ S100000x256.size a := fun v1278 k0_hw74 => k0_hw74

def k0_off75 (v1295 : BitVec 32) : Fin 2 → Nat :=
  let c0_i32_971 : BitVec 32 := 0#32
  ![v1295.toNat, 0]

def k0_chk75 (v1295 : BitVec 32) : Prop :=
  (∀ a, (k0_off75 v1295) a + S1x256.size a ≤ S100000x256.size a)
instance k0_chk75.dec : ∀ (v1295 : BitVec 32), Decidable (k0_chk75 v1295) := fun v1295 => decidable_of_iff' _ (Iff.of_eq (k0_chk75.eq_1 v1295))
theorem k0_off75_inb : ∀ (v1295 : BitVec 32) (k0_hw75 : k0_chk75 v1295), ∀ a, (k0_off75 v1295) a + S1x256.size a ≤ S100000x256.size a := fun v1295 k0_hw75 => k0_hw75

def k0_off76 (v1312 : BitVec 32) : Fin 2 → Nat :=
  let c0_i32_984 : BitVec 32 := 0#32
  ![v1312.toNat, 0]

def k0_chk76 (v1312 : BitVec 32) : Prop :=
  (∀ a, (k0_off76 v1312) a + S1x256.size a ≤ S100000x256.size a)
instance k0_chk76.dec : ∀ (v1312 : BitVec 32), Decidable (k0_chk76 v1312) := fun v1312 => decidable_of_iff' _ (Iff.of_eq (k0_chk76.eq_1 v1312))
theorem k0_off76_inb : ∀ (v1312 : BitVec 32) (k0_hw76 : k0_chk76 v1312), ∀ a, (k0_off76 v1312) a + S1x256.size a ≤ S100000x256.size a := fun v1312 k0_hw76 => k0_hw76

def k0_off77 (v1329 : BitVec 32) : Fin 2 → Nat :=
  let c0_i32_997 : BitVec 32 := 0#32
  ![v1329.toNat, 0]

def k0_chk77 (v1329 : BitVec 32) : Prop :=
  (∀ a, (k0_off77 v1329) a + S1x256.size a ≤ S100000x256.size a)
instance k0_chk77.dec : ∀ (v1329 : BitVec 32), Decidable (k0_chk77 v1329) := fun v1329 => decidable_of_iff' _ (Iff.of_eq (k0_chk77.eq_1 v1329))
theorem k0_off77_inb : ∀ (v1329 : BitVec 32) (k0_hw77 : k0_chk77 v1329), ∀ a, (k0_off77 v1329) a + S1x256.size a ≤ S100000x256.size a := fun v1329 k0_hw77 => k0_hw77

def k0_off78 (v1346 : BitVec 32) : Fin 2 → Nat :=
  let c0_i32_1010 : BitVec 32 := 0#32
  ![v1346.toNat, 0]

def k0_chk78 (v1346 : BitVec 32) : Prop :=
  (∀ a, (k0_off78 v1346) a + S1x256.size a ≤ S100000x256.size a)
instance k0_chk78.dec : ∀ (v1346 : BitVec 32), Decidable (k0_chk78 v1346) := fun v1346 => decidable_of_iff' _ (Iff.of_eq (k0_chk78.eq_1 v1346))
theorem k0_off78_inb : ∀ (v1346 : BitVec 32) (k0_hw78 : k0_chk78 v1346), ∀ a, (k0_off78 v1346) a + S1x256.size a ≤ S100000x256.size a := fun v1346 k0_hw78 => k0_hw78

def k0_off79 (v1363 : BitVec 32) : Fin 2 → Nat :=
  let c0_i32_1023 : BitVec 32 := 0#32
  ![v1363.toNat, 0]

def k0_chk79 (v1363 : BitVec 32) : Prop :=
  (∀ a, (k0_off79 v1363) a + S1x256.size a ≤ S100000x256.size a)
instance k0_chk79.dec : ∀ (v1363 : BitVec 32), Decidable (k0_chk79 v1363) := fun v1363 => decidable_of_iff' _ (Iff.of_eq (k0_chk79.eq_1 v1363))
theorem k0_off79_inb : ∀ (v1363 : BitVec 32) (k0_hw79 : k0_chk79 v1363), ∀ a, (k0_off79 v1363) a + S1x256.size a ≤ S100000x256.size a := fun v1363 k0_hw79 => k0_hw79

def k0_off80 (v1380 : BitVec 32) : Fin 2 → Nat :=
  let c0_i32_1036 : BitVec 32 := 0#32
  ![v1380.toNat, 0]

def k0_chk80 (v1380 : BitVec 32) : Prop :=
  (∀ a, (k0_off80 v1380) a + S1x256.size a ≤ S100000x256.size a)
instance k0_chk80.dec : ∀ (v1380 : BitVec 32), Decidable (k0_chk80 v1380) := fun v1380 => decidable_of_iff' _ (Iff.of_eq (k0_chk80.eq_1 v1380))
theorem k0_off80_inb : ∀ (v1380 : BitVec 32) (k0_hw80 : k0_chk80 v1380), ∀ a, (k0_off80 v1380) a + S1x256.size a ≤ S100000x256.size a := fun v1380 k0_hw80 => k0_hw80

def k0_off81 (v1397 : BitVec 32) : Fin 2 → Nat :=
  let c0_i32_1049 : BitVec 32 := 0#32
  ![v1397.toNat, 0]

def k0_chk81 (v1397 : BitVec 32) : Prop :=
  (∀ a, (k0_off81 v1397) a + S1x256.size a ≤ S100000x256.size a)
instance k0_chk81.dec : ∀ (v1397 : BitVec 32), Decidable (k0_chk81 v1397) := fun v1397 => decidable_of_iff' _ (Iff.of_eq (k0_chk81.eq_1 v1397))
theorem k0_off81_inb : ∀ (v1397 : BitVec 32) (k0_hw81 : k0_chk81 v1397), ∀ a, (k0_off81 v1397) a + S1x256.size a ≤ S100000x256.size a := fun v1397 k0_hw81 => k0_hw81

def k0_off82 (v1414 : BitVec 32) : Fin 2 → Nat :=
  let c0_i32_1062 : BitVec 32 := 0#32
  ![v1414.toNat, 0]

def k0_chk82 (v1414 : BitVec 32) : Prop :=
  (∀ a, (k0_off82 v1414) a + S1x256.size a ≤ S100000x256.size a)
instance k0_chk82.dec : ∀ (v1414 : BitVec 32), Decidable (k0_chk82 v1414) := fun v1414 => decidable_of_iff' _ (Iff.of_eq (k0_chk82.eq_1 v1414))
theorem k0_off82_inb : ∀ (v1414 : BitVec 32) (k0_hw82 : k0_chk82 v1414), ∀ a, (k0_off82 v1414) a + S1x256.size a ≤ S100000x256.size a := fun v1414 k0_hw82 => k0_hw82

def k0_off83 (v1431 : BitVec 32) : Fin 2 → Nat :=
  let c0_i32_1075 : BitVec 32 := 0#32
  ![v1431.toNat, 0]

def k0_chk83 (v1431 : BitVec 32) : Prop :=
  (∀ a, (k0_off83 v1431) a + S1x256.size a ≤ S100000x256.size a)
instance k0_chk83.dec : ∀ (v1431 : BitVec 32), Decidable (k0_chk83 v1431) := fun v1431 => decidable_of_iff' _ (Iff.of_eq (k0_chk83.eq_1 v1431))
theorem k0_off83_inb : ∀ (v1431 : BitVec 32) (k0_hw83 : k0_chk83 v1431), ∀ a, (k0_off83 v1431) a + S1x256.size a ≤ S100000x256.size a := fun v1431 k0_hw83 => k0_hw83

def k0_off84 (v1448 : BitVec 32) : Fin 2 → Nat :=
  let c0_i32_1088 : BitVec 32 := 0#32
  ![v1448.toNat, 0]

def k0_chk84 (v1448 : BitVec 32) : Prop :=
  (∀ a, (k0_off84 v1448) a + S1x256.size a ≤ S100000x256.size a)
instance k0_chk84.dec : ∀ (v1448 : BitVec 32), Decidable (k0_chk84 v1448) := fun v1448 => decidable_of_iff' _ (Iff.of_eq (k0_chk84.eq_1 v1448))
theorem k0_off84_inb : ∀ (v1448 : BitVec 32) (k0_hw84 : k0_chk84 v1448), ∀ a, (k0_off84 v1448) a + S1x256.size a ≤ S100000x256.size a := fun v1448 k0_hw84 => k0_hw84

def k0_off85 (v1465 : BitVec 32) : Fin 2 → Nat :=
  let c0_i32_1101 : BitVec 32 := 0#32
  ![v1465.toNat, 0]

def k0_chk85 (v1465 : BitVec 32) : Prop :=
  (∀ a, (k0_off85 v1465) a + S1x256.size a ≤ S100000x256.size a)
instance k0_chk85.dec : ∀ (v1465 : BitVec 32), Decidable (k0_chk85 v1465) := fun v1465 => decidable_of_iff' _ (Iff.of_eq (k0_chk85.eq_1 v1465))
theorem k0_off85_inb : ∀ (v1465 : BitVec 32) (k0_hw85 : k0_chk85 v1465), ∀ a, (k0_off85 v1465) a + S1x256.size a ≤ S100000x256.size a := fun v1465 k0_hw85 => k0_hw85

def k0_off86 (v1482 : BitVec 32) : Fin 2 → Nat :=
  let c0_i32_1114 : BitVec 32 := 0#32
  ![v1482.toNat, 0]

def k0_chk86 (v1482 : BitVec 32) : Prop :=
  (∀ a, (k0_off86 v1482) a + S1x256.size a ≤ S100000x256.size a)
instance k0_chk86.dec : ∀ (v1482 : BitVec 32), Decidable (k0_chk86 v1482) := fun v1482 => decidable_of_iff' _ (Iff.of_eq (k0_chk86.eq_1 v1482))
theorem k0_off86_inb : ∀ (v1482 : BitVec 32) (k0_hw86 : k0_chk86 v1482), ∀ a, (k0_off86 v1482) a + S1x256.size a ≤ S100000x256.size a := fun v1482 k0_hw86 => k0_hw86

def k0_off87 (v1509 : BitVec 32) : Fin 2 → Nat :=
  let c0_i32_1133 : BitVec 32 := 0#32
  ![v1509.toNat, 0]

def k0_chk87 (v1509 : BitVec 32) : Prop :=
  (∀ a, (k0_off87 v1509) a + S1x256.size a ≤ S100000x256.size a)
instance k0_chk87.dec : ∀ (v1509 : BitVec 32), Decidable (k0_chk87 v1509) := fun v1509 => decidable_of_iff' _ (Iff.of_eq (k0_chk87.eq_1 v1509))
theorem k0_off87_inb : ∀ (v1509 : BitVec 32) (k0_hw87 : k0_chk87 v1509), ∀ a, (k0_off87 v1509) a + S1x256.size a ≤ S100000x256.size a := fun v1509 k0_hw87 => k0_hw87

def k0_off88 (v1526 : BitVec 32) : Fin 2 → Nat :=
  let c0_i32_1146 : BitVec 32 := 0#32
  ![v1526.toNat, 0]

def k0_chk88 (v1526 : BitVec 32) : Prop :=
  (∀ a, (k0_off88 v1526) a + S1x256.size a ≤ S100000x256.size a)
instance k0_chk88.dec : ∀ (v1526 : BitVec 32), Decidable (k0_chk88 v1526) := fun v1526 => decidable_of_iff' _ (Iff.of_eq (k0_chk88.eq_1 v1526))
theorem k0_off88_inb : ∀ (v1526 : BitVec 32) (k0_hw88 : k0_chk88 v1526), ∀ a, (k0_off88 v1526) a + S1x256.size a ≤ S100000x256.size a := fun v1526 k0_hw88 => k0_hw88

def k0_off89 (v1543 : BitVec 32) : Fin 2 → Nat :=
  let c0_i32_1159 : BitVec 32 := 0#32
  ![v1543.toNat, 0]

def k0_chk89 (v1543 : BitVec 32) : Prop :=
  (∀ a, (k0_off89 v1543) a + S1x256.size a ≤ S100000x256.size a)
instance k0_chk89.dec : ∀ (v1543 : BitVec 32), Decidable (k0_chk89 v1543) := fun v1543 => decidable_of_iff' _ (Iff.of_eq (k0_chk89.eq_1 v1543))
theorem k0_off89_inb : ∀ (v1543 : BitVec 32) (k0_hw89 : k0_chk89 v1543), ∀ a, (k0_off89 v1543) a + S1x256.size a ≤ S100000x256.size a := fun v1543 k0_hw89 => k0_hw89

def k0_off90 (v1560 : BitVec 32) : Fin 2 → Nat :=
  let c0_i32_1172 : BitVec 32 := 0#32
  ![v1560.toNat, 0]

def k0_chk90 (v1560 : BitVec 32) : Prop :=
  (∀ a, (k0_off90 v1560) a + S1x256.size a ≤ S100000x256.size a)
instance k0_chk90.dec : ∀ (v1560 : BitVec 32), Decidable (k0_chk90 v1560) := fun v1560 => decidable_of_iff' _ (Iff.of_eq (k0_chk90.eq_1 v1560))
theorem k0_off90_inb : ∀ (v1560 : BitVec 32) (k0_hw90 : k0_chk90 v1560), ∀ a, (k0_off90 v1560) a + S1x256.size a ≤ S100000x256.size a := fun v1560 k0_hw90 => k0_hw90

def k0_off91 (v1577 : BitVec 32) : Fin 2 → Nat :=
  let c0_i32_1185 : BitVec 32 := 0#32
  ![v1577.toNat, 0]

def k0_chk91 (v1577 : BitVec 32) : Prop :=
  (∀ a, (k0_off91 v1577) a + S1x256.size a ≤ S100000x256.size a)
instance k0_chk91.dec : ∀ (v1577 : BitVec 32), Decidable (k0_chk91 v1577) := fun v1577 => decidable_of_iff' _ (Iff.of_eq (k0_chk91.eq_1 v1577))
theorem k0_off91_inb : ∀ (v1577 : BitVec 32) (k0_hw91 : k0_chk91 v1577), ∀ a, (k0_off91 v1577) a + S1x256.size a ≤ S100000x256.size a := fun v1577 k0_hw91 => k0_hw91

def k0_off92 (v1594 : BitVec 32) : Fin 2 → Nat :=
  let c0_i32_1198 : BitVec 32 := 0#32
  ![v1594.toNat, 0]

def k0_chk92 (v1594 : BitVec 32) : Prop :=
  (∀ a, (k0_off92 v1594) a + S1x256.size a ≤ S100000x256.size a)
instance k0_chk92.dec : ∀ (v1594 : BitVec 32), Decidable (k0_chk92 v1594) := fun v1594 => decidable_of_iff' _ (Iff.of_eq (k0_chk92.eq_1 v1594))
theorem k0_off92_inb : ∀ (v1594 : BitVec 32) (k0_hw92 : k0_chk92 v1594), ∀ a, (k0_off92 v1594) a + S1x256.size a ≤ S100000x256.size a := fun v1594 k0_hw92 => k0_hw92

def k0_off93 (v1611 : BitVec 32) : Fin 2 → Nat :=
  let c0_i32_1211 : BitVec 32 := 0#32
  ![v1611.toNat, 0]

def k0_chk93 (v1611 : BitVec 32) : Prop :=
  (∀ a, (k0_off93 v1611) a + S1x256.size a ≤ S100000x256.size a)
instance k0_chk93.dec : ∀ (v1611 : BitVec 32), Decidable (k0_chk93 v1611) := fun v1611 => decidable_of_iff' _ (Iff.of_eq (k0_chk93.eq_1 v1611))
theorem k0_off93_inb : ∀ (v1611 : BitVec 32) (k0_hw93 : k0_chk93 v1611), ∀ a, (k0_off93 v1611) a + S1x256.size a ≤ S100000x256.size a := fun v1611 k0_hw93 => k0_hw93

def k0_off94 (v1628 : BitVec 32) : Fin 2 → Nat :=
  let c0_i32_1224 : BitVec 32 := 0#32
  ![v1628.toNat, 0]

def k0_chk94 (v1628 : BitVec 32) : Prop :=
  (∀ a, (k0_off94 v1628) a + S1x256.size a ≤ S100000x256.size a)
instance k0_chk94.dec : ∀ (v1628 : BitVec 32), Decidable (k0_chk94 v1628) := fun v1628 => decidable_of_iff' _ (Iff.of_eq (k0_chk94.eq_1 v1628))
theorem k0_off94_inb : ∀ (v1628 : BitVec 32) (k0_hw94 : k0_chk94 v1628), ∀ a, (k0_off94 v1628) a + S1x256.size a ≤ S100000x256.size a := fun v1628 k0_hw94 => k0_hw94

def k0_off95 (v1645 : BitVec 32) : Fin 2 → Nat :=
  let c0_i32_1237 : BitVec 32 := 0#32
  ![v1645.toNat, 0]

def k0_chk95 (v1645 : BitVec 32) : Prop :=
  (∀ a, (k0_off95 v1645) a + S1x256.size a ≤ S100000x256.size a)
instance k0_chk95.dec : ∀ (v1645 : BitVec 32), Decidable (k0_chk95 v1645) := fun v1645 => decidable_of_iff' _ (Iff.of_eq (k0_chk95.eq_1 v1645))
theorem k0_off95_inb : ∀ (v1645 : BitVec 32) (k0_hw95 : k0_chk95 v1645), ∀ a, (k0_off95 v1645) a + S1x256.size a ≤ S100000x256.size a := fun v1645 k0_hw95 => k0_hw95

def k0_off96 (v1662 : BitVec 32) : Fin 2 → Nat :=
  let c0_i32_1250 : BitVec 32 := 0#32
  ![v1662.toNat, 0]

def k0_chk96 (v1662 : BitVec 32) : Prop :=
  (∀ a, (k0_off96 v1662) a + S1x256.size a ≤ S100000x256.size a)
instance k0_chk96.dec : ∀ (v1662 : BitVec 32), Decidable (k0_chk96 v1662) := fun v1662 => decidable_of_iff' _ (Iff.of_eq (k0_chk96.eq_1 v1662))
theorem k0_off96_inb : ∀ (v1662 : BitVec 32) (k0_hw96 : k0_chk96 v1662), ∀ a, (k0_off96 v1662) a + S1x256.size a ≤ S100000x256.size a := fun v1662 k0_hw96 => k0_hw96

def k0_off97 (v1679 : BitVec 32) : Fin 2 → Nat :=
  let c0_i32_1263 : BitVec 32 := 0#32
  ![v1679.toNat, 0]

def k0_chk97 (v1679 : BitVec 32) : Prop :=
  (∀ a, (k0_off97 v1679) a + S1x256.size a ≤ S100000x256.size a)
instance k0_chk97.dec : ∀ (v1679 : BitVec 32), Decidable (k0_chk97 v1679) := fun v1679 => decidable_of_iff' _ (Iff.of_eq (k0_chk97.eq_1 v1679))
theorem k0_off97_inb : ∀ (v1679 : BitVec 32) (k0_hw97 : k0_chk97 v1679), ∀ a, (k0_off97 v1679) a + S1x256.size a ≤ S100000x256.size a := fun v1679 k0_hw97 => k0_hw97

def k0_off98 (v1696 : BitVec 32) : Fin 2 → Nat :=
  let c0_i32_1276 : BitVec 32 := 0#32
  ![v1696.toNat, 0]

def k0_chk98 (v1696 : BitVec 32) : Prop :=
  (∀ a, (k0_off98 v1696) a + S1x256.size a ≤ S100000x256.size a)
instance k0_chk98.dec : ∀ (v1696 : BitVec 32), Decidable (k0_chk98 v1696) := fun v1696 => decidable_of_iff' _ (Iff.of_eq (k0_chk98.eq_1 v1696))
theorem k0_off98_inb : ∀ (v1696 : BitVec 32) (k0_hw98 : k0_chk98 v1696), ∀ a, (k0_off98 v1696) a + S1x256.size a ≤ S100000x256.size a := fun v1696 k0_hw98 => k0_hw98

def k0_off99 (v1713 : BitVec 32) : Fin 2 → Nat :=
  let c0_i32_1289 : BitVec 32 := 0#32
  ![v1713.toNat, 0]

def k0_chk99 (v1713 : BitVec 32) : Prop :=
  (∀ a, (k0_off99 v1713) a + S1x256.size a ≤ S100000x256.size a)
instance k0_chk99.dec : ∀ (v1713 : BitVec 32), Decidable (k0_chk99 v1713) := fun v1713 => decidable_of_iff' _ (Iff.of_eq (k0_chk99.eq_1 v1713))
theorem k0_off99_inb : ∀ (v1713 : BitVec 32) (k0_hw99 : k0_chk99 v1713), ∀ a, (k0_off99 v1713) a + S1x256.size a ≤ S100000x256.size a := fun v1713 k0_hw99 => k0_hw99

def k0_off100 (v1730 : BitVec 32) : Fin 2 → Nat :=
  let c0_i32_1302 : BitVec 32 := 0#32
  ![v1730.toNat, 0]

def k0_chk100 (v1730 : BitVec 32) : Prop :=
  (∀ a, (k0_off100 v1730) a + S1x256.size a ≤ S100000x256.size a)
instance k0_chk100.dec : ∀ (v1730 : BitVec 32), Decidable (k0_chk100 v1730) := fun v1730 => decidable_of_iff' _ (Iff.of_eq (k0_chk100.eq_1 v1730))
theorem k0_off100_inb : ∀ (v1730 : BitVec 32) (k0_hw100 : k0_chk100 v1730), ∀ a, (k0_off100 v1730) a + S1x256.size a ≤ S100000x256.size a := fun v1730 k0_hw100 => k0_hw100

def k0_off101 (v1747 : BitVec 32) : Fin 2 → Nat :=
  let c0_i32_1315 : BitVec 32 := 0#32
  ![v1747.toNat, 0]

def k0_chk101 (v1747 : BitVec 32) : Prop :=
  (∀ a, (k0_off101 v1747) a + S1x256.size a ≤ S100000x256.size a)
instance k0_chk101.dec : ∀ (v1747 : BitVec 32), Decidable (k0_chk101 v1747) := fun v1747 => decidable_of_iff' _ (Iff.of_eq (k0_chk101.eq_1 v1747))
theorem k0_off101_inb : ∀ (v1747 : BitVec 32) (k0_hw101 : k0_chk101 v1747), ∀ a, (k0_off101 v1747) a + S1x256.size a ≤ S100000x256.size a := fun v1747 k0_hw101 => k0_hw101

def k0_off102 (v1764 : BitVec 32) : Fin 2 → Nat :=
  let c0_i32_1328 : BitVec 32 := 0#32
  ![v1764.toNat, 0]

def k0_chk102 (v1764 : BitVec 32) : Prop :=
  (∀ a, (k0_off102 v1764) a + S1x256.size a ≤ S100000x256.size a)
instance k0_chk102.dec : ∀ (v1764 : BitVec 32), Decidable (k0_chk102 v1764) := fun v1764 => decidable_of_iff' _ (Iff.of_eq (k0_chk102.eq_1 v1764))
theorem k0_off102_inb : ∀ (v1764 : BitVec 32) (k0_hw102 : k0_chk102 v1764), ∀ a, (k0_off102 v1764) a + S1x256.size a ≤ S100000x256.size a := fun v1764 k0_hw102 => k0_hw102

def k0_off103 (v1781 : BitVec 32) : Fin 2 → Nat :=
  let c0_i32_1341 : BitVec 32 := 0#32
  ![v1781.toNat, 0]

def k0_chk103 (v1781 : BitVec 32) : Prop :=
  (∀ a, (k0_off103 v1781) a + S1x256.size a ≤ S100000x256.size a)
instance k0_chk103.dec : ∀ (v1781 : BitVec 32), Decidable (k0_chk103 v1781) := fun v1781 => decidable_of_iff' _ (Iff.of_eq (k0_chk103.eq_1 v1781))
theorem k0_off103_inb : ∀ (v1781 : BitVec 32) (k0_hw103 : k0_chk103 v1781), ∀ a, (k0_off103 v1781) a + S1x256.size a ≤ S100000x256.size a := fun v1781 k0_hw103 => k0_hw103

def k0_off104 (v1808 : BitVec 32) : Fin 2 → Nat :=
  let c0_i32_1360 : BitVec 32 := 0#32
  ![v1808.toNat, 0]

def k0_chk104 (v1808 : BitVec 32) : Prop :=
  (∀ a, (k0_off104 v1808) a + S1x256.size a ≤ S100000x256.size a)
instance k0_chk104.dec : ∀ (v1808 : BitVec 32), Decidable (k0_chk104 v1808) := fun v1808 => decidable_of_iff' _ (Iff.of_eq (k0_chk104.eq_1 v1808))
theorem k0_off104_inb : ∀ (v1808 : BitVec 32) (k0_hw104 : k0_chk104 v1808), ∀ a, (k0_off104 v1808) a + S1x256.size a ≤ S100000x256.size a := fun v1808 k0_hw104 => k0_hw104

def k0_off105 (v1825 : BitVec 32) : Fin 2 → Nat :=
  let c0_i32_1373 : BitVec 32 := 0#32
  ![v1825.toNat, 0]

def k0_chk105 (v1825 : BitVec 32) : Prop :=
  (∀ a, (k0_off105 v1825) a + S1x256.size a ≤ S100000x256.size a)
instance k0_chk105.dec : ∀ (v1825 : BitVec 32), Decidable (k0_chk105 v1825) := fun v1825 => decidable_of_iff' _ (Iff.of_eq (k0_chk105.eq_1 v1825))
theorem k0_off105_inb : ∀ (v1825 : BitVec 32) (k0_hw105 : k0_chk105 v1825), ∀ a, (k0_off105 v1825) a + S1x256.size a ≤ S100000x256.size a := fun v1825 k0_hw105 => k0_hw105

def k0_off106 (v1842 : BitVec 32) : Fin 2 → Nat :=
  let c0_i32_1386 : BitVec 32 := 0#32
  ![v1842.toNat, 0]

def k0_chk106 (v1842 : BitVec 32) : Prop :=
  (∀ a, (k0_off106 v1842) a + S1x256.size a ≤ S100000x256.size a)
instance k0_chk106.dec : ∀ (v1842 : BitVec 32), Decidable (k0_chk106 v1842) := fun v1842 => decidable_of_iff' _ (Iff.of_eq (k0_chk106.eq_1 v1842))
theorem k0_off106_inb : ∀ (v1842 : BitVec 32) (k0_hw106 : k0_chk106 v1842), ∀ a, (k0_off106 v1842) a + S1x256.size a ≤ S100000x256.size a := fun v1842 k0_hw106 => k0_hw106

def k0_off107 (v1859 : BitVec 32) : Fin 2 → Nat :=
  let c0_i32_1399 : BitVec 32 := 0#32
  ![v1859.toNat, 0]

def k0_chk107 (v1859 : BitVec 32) : Prop :=
  (∀ a, (k0_off107 v1859) a + S1x256.size a ≤ S100000x256.size a)
instance k0_chk107.dec : ∀ (v1859 : BitVec 32), Decidable (k0_chk107 v1859) := fun v1859 => decidable_of_iff' _ (Iff.of_eq (k0_chk107.eq_1 v1859))
theorem k0_off107_inb : ∀ (v1859 : BitVec 32) (k0_hw107 : k0_chk107 v1859), ∀ a, (k0_off107 v1859) a + S1x256.size a ≤ S100000x256.size a := fun v1859 k0_hw107 => k0_hw107

def k0_off108 (v1876 : BitVec 32) : Fin 2 → Nat :=
  let c0_i32_1412 : BitVec 32 := 0#32
  ![v1876.toNat, 0]

def k0_chk108 (v1876 : BitVec 32) : Prop :=
  (∀ a, (k0_off108 v1876) a + S1x256.size a ≤ S100000x256.size a)
instance k0_chk108.dec : ∀ (v1876 : BitVec 32), Decidable (k0_chk108 v1876) := fun v1876 => decidable_of_iff' _ (Iff.of_eq (k0_chk108.eq_1 v1876))
theorem k0_off108_inb : ∀ (v1876 : BitVec 32) (k0_hw108 : k0_chk108 v1876), ∀ a, (k0_off108 v1876) a + S1x256.size a ≤ S100000x256.size a := fun v1876 k0_hw108 => k0_hw108

def k0_off109 (v1893 : BitVec 32) : Fin 2 → Nat :=
  let c0_i32_1425 : BitVec 32 := 0#32
  ![v1893.toNat, 0]

def k0_chk109 (v1893 : BitVec 32) : Prop :=
  (∀ a, (k0_off109 v1893) a + S1x256.size a ≤ S100000x256.size a)
instance k0_chk109.dec : ∀ (v1893 : BitVec 32), Decidable (k0_chk109 v1893) := fun v1893 => decidable_of_iff' _ (Iff.of_eq (k0_chk109.eq_1 v1893))
theorem k0_off109_inb : ∀ (v1893 : BitVec 32) (k0_hw109 : k0_chk109 v1893), ∀ a, (k0_off109 v1893) a + S1x256.size a ≤ S100000x256.size a := fun v1893 k0_hw109 => k0_hw109

def k0_off110 (v1910 : BitVec 32) : Fin 2 → Nat :=
  let c0_i32_1438 : BitVec 32 := 0#32
  ![v1910.toNat, 0]

def k0_chk110 (v1910 : BitVec 32) : Prop :=
  (∀ a, (k0_off110 v1910) a + S1x256.size a ≤ S100000x256.size a)
instance k0_chk110.dec : ∀ (v1910 : BitVec 32), Decidable (k0_chk110 v1910) := fun v1910 => decidable_of_iff' _ (Iff.of_eq (k0_chk110.eq_1 v1910))
theorem k0_off110_inb : ∀ (v1910 : BitVec 32) (k0_hw110 : k0_chk110 v1910), ∀ a, (k0_off110 v1910) a + S1x256.size a ≤ S100000x256.size a := fun v1910 k0_hw110 => k0_hw110

def k0_off111 (v1927 : BitVec 32) : Fin 2 → Nat :=
  let c0_i32_1451 : BitVec 32 := 0#32
  ![v1927.toNat, 0]

def k0_chk111 (v1927 : BitVec 32) : Prop :=
  (∀ a, (k0_off111 v1927) a + S1x256.size a ≤ S100000x256.size a)
instance k0_chk111.dec : ∀ (v1927 : BitVec 32), Decidable (k0_chk111 v1927) := fun v1927 => decidable_of_iff' _ (Iff.of_eq (k0_chk111.eq_1 v1927))
theorem k0_off111_inb : ∀ (v1927 : BitVec 32) (k0_hw111 : k0_chk111 v1927), ∀ a, (k0_off111 v1927) a + S1x256.size a ≤ S100000x256.size a := fun v1927 k0_hw111 => k0_hw111

def k0_off112 (v1944 : BitVec 32) : Fin 2 → Nat :=
  let c0_i32_1464 : BitVec 32 := 0#32
  ![v1944.toNat, 0]

def k0_chk112 (v1944 : BitVec 32) : Prop :=
  (∀ a, (k0_off112 v1944) a + S1x256.size a ≤ S100000x256.size a)
instance k0_chk112.dec : ∀ (v1944 : BitVec 32), Decidable (k0_chk112 v1944) := fun v1944 => decidable_of_iff' _ (Iff.of_eq (k0_chk112.eq_1 v1944))
theorem k0_off112_inb : ∀ (v1944 : BitVec 32) (k0_hw112 : k0_chk112 v1944), ∀ a, (k0_off112 v1944) a + S1x256.size a ≤ S100000x256.size a := fun v1944 k0_hw112 => k0_hw112

def k0_off113 (v1961 : BitVec 32) : Fin 2 → Nat :=
  let c0_i32_1477 : BitVec 32 := 0#32
  ![v1961.toNat, 0]

def k0_chk113 (v1961 : BitVec 32) : Prop :=
  (∀ a, (k0_off113 v1961) a + S1x256.size a ≤ S100000x256.size a)
instance k0_chk113.dec : ∀ (v1961 : BitVec 32), Decidable (k0_chk113 v1961) := fun v1961 => decidable_of_iff' _ (Iff.of_eq (k0_chk113.eq_1 v1961))
theorem k0_off113_inb : ∀ (v1961 : BitVec 32) (k0_hw113 : k0_chk113 v1961), ∀ a, (k0_off113 v1961) a + S1x256.size a ≤ S100000x256.size a := fun v1961 k0_hw113 => k0_hw113

def k0_off114 (v1978 : BitVec 32) : Fin 2 → Nat :=
  let c0_i32_1490 : BitVec 32 := 0#32
  ![v1978.toNat, 0]

def k0_chk114 (v1978 : BitVec 32) : Prop :=
  (∀ a, (k0_off114 v1978) a + S1x256.size a ≤ S100000x256.size a)
instance k0_chk114.dec : ∀ (v1978 : BitVec 32), Decidable (k0_chk114 v1978) := fun v1978 => decidable_of_iff' _ (Iff.of_eq (k0_chk114.eq_1 v1978))
theorem k0_off114_inb : ∀ (v1978 : BitVec 32) (k0_hw114 : k0_chk114 v1978), ∀ a, (k0_off114 v1978) a + S1x256.size a ≤ S100000x256.size a := fun v1978 k0_hw114 => k0_hw114

def k0_off115 (v1995 : BitVec 32) : Fin 2 → Nat :=
  let c0_i32_1503 : BitVec 32 := 0#32
  ![v1995.toNat, 0]

def k0_chk115 (v1995 : BitVec 32) : Prop :=
  (∀ a, (k0_off115 v1995) a + S1x256.size a ≤ S100000x256.size a)
instance k0_chk115.dec : ∀ (v1995 : BitVec 32), Decidable (k0_chk115 v1995) := fun v1995 => decidable_of_iff' _ (Iff.of_eq (k0_chk115.eq_1 v1995))
theorem k0_off115_inb : ∀ (v1995 : BitVec 32) (k0_hw115 : k0_chk115 v1995), ∀ a, (k0_off115 v1995) a + S1x256.size a ≤ S100000x256.size a := fun v1995 k0_hw115 => k0_hw115

def k0_off116 (v2012 : BitVec 32) : Fin 2 → Nat :=
  let c0_i32_1516 : BitVec 32 := 0#32
  ![v2012.toNat, 0]

def k0_chk116 (v2012 : BitVec 32) : Prop :=
  (∀ a, (k0_off116 v2012) a + S1x256.size a ≤ S100000x256.size a)
instance k0_chk116.dec : ∀ (v2012 : BitVec 32), Decidable (k0_chk116 v2012) := fun v2012 => decidable_of_iff' _ (Iff.of_eq (k0_chk116.eq_1 v2012))
theorem k0_off116_inb : ∀ (v2012 : BitVec 32) (k0_hw116 : k0_chk116 v2012), ∀ a, (k0_off116 v2012) a + S1x256.size a ≤ S100000x256.size a := fun v2012 k0_hw116 => k0_hw116

def k0_off117 (v2029 : BitVec 32) : Fin 2 → Nat :=
  let c0_i32_1529 : BitVec 32 := 0#32
  ![v2029.toNat, 0]

def k0_chk117 (v2029 : BitVec 32) : Prop :=
  (∀ a, (k0_off117 v2029) a + S1x256.size a ≤ S100000x256.size a)
instance k0_chk117.dec : ∀ (v2029 : BitVec 32), Decidable (k0_chk117 v2029) := fun v2029 => decidable_of_iff' _ (Iff.of_eq (k0_chk117.eq_1 v2029))
theorem k0_off117_inb : ∀ (v2029 : BitVec 32) (k0_hw117 : k0_chk117 v2029), ∀ a, (k0_off117 v2029) a + S1x256.size a ≤ S100000x256.size a := fun v2029 k0_hw117 => k0_hw117

def k0_off118 (v2046 : BitVec 32) : Fin 2 → Nat :=
  let c0_i32_1542 : BitVec 32 := 0#32
  ![v2046.toNat, 0]

def k0_chk118 (v2046 : BitVec 32) : Prop :=
  (∀ a, (k0_off118 v2046) a + S1x256.size a ≤ S100000x256.size a)
instance k0_chk118.dec : ∀ (v2046 : BitVec 32), Decidable (k0_chk118 v2046) := fun v2046 => decidable_of_iff' _ (Iff.of_eq (k0_chk118.eq_1 v2046))
theorem k0_off118_inb : ∀ (v2046 : BitVec 32) (k0_hw118 : k0_chk118 v2046), ∀ a, (k0_off118 v2046) a + S1x256.size a ≤ S100000x256.size a := fun v2046 k0_hw118 => k0_hw118

def k0_off119 (v2063 : BitVec 32) : Fin 2 → Nat :=
  let c0_i32_1555 : BitVec 32 := 0#32
  ![v2063.toNat, 0]

def k0_chk119 (v2063 : BitVec 32) : Prop :=
  (∀ a, (k0_off119 v2063) a + S1x256.size a ≤ S100000x256.size a)
instance k0_chk119.dec : ∀ (v2063 : BitVec 32), Decidable (k0_chk119 v2063) := fun v2063 => decidable_of_iff' _ (Iff.of_eq (k0_chk119.eq_1 v2063))
theorem k0_off119_inb : ∀ (v2063 : BitVec 32) (k0_hw119 : k0_chk119 v2063), ∀ a, (k0_off119 v2063) a + S1x256.size a ≤ S100000x256.size a := fun v2063 k0_hw119 => k0_hw119

def k0_off120 (v2080 : BitVec 32) : Fin 2 → Nat :=
  let c0_i32_1568 : BitVec 32 := 0#32
  ![v2080.toNat, 0]

def k0_chk120 (v2080 : BitVec 32) : Prop :=
  (∀ a, (k0_off120 v2080) a + S1x256.size a ≤ S100000x256.size a)
instance k0_chk120.dec : ∀ (v2080 : BitVec 32), Decidable (k0_chk120 v2080) := fun v2080 => decidable_of_iff' _ (Iff.of_eq (k0_chk120.eq_1 v2080))
theorem k0_off120_inb : ∀ (v2080 : BitVec 32) (k0_hw120 : k0_chk120 v2080), ∀ a, (k0_off120 v2080) a + S1x256.size a ≤ S100000x256.size a := fun v2080 k0_hw120 => k0_hw120

def k0_off121 (v2107 : BitVec 32) : Fin 2 → Nat :=
  let c0_i32_1587 : BitVec 32 := 0#32
  ![v2107.toNat, 0]

def k0_chk121 (v2107 : BitVec 32) : Prop :=
  (∀ a, (k0_off121 v2107) a + S1x256.size a ≤ S100000x256.size a)
instance k0_chk121.dec : ∀ (v2107 : BitVec 32), Decidable (k0_chk121 v2107) := fun v2107 => decidable_of_iff' _ (Iff.of_eq (k0_chk121.eq_1 v2107))
theorem k0_off121_inb : ∀ (v2107 : BitVec 32) (k0_hw121 : k0_chk121 v2107), ∀ a, (k0_off121 v2107) a + S1x256.size a ≤ S100000x256.size a := fun v2107 k0_hw121 => k0_hw121

def k0_off122 (v2124 : BitVec 32) : Fin 2 → Nat :=
  let c0_i32_1600 : BitVec 32 := 0#32
  ![v2124.toNat, 0]

def k0_chk122 (v2124 : BitVec 32) : Prop :=
  (∀ a, (k0_off122 v2124) a + S1x256.size a ≤ S100000x256.size a)
instance k0_chk122.dec : ∀ (v2124 : BitVec 32), Decidable (k0_chk122 v2124) := fun v2124 => decidable_of_iff' _ (Iff.of_eq (k0_chk122.eq_1 v2124))
theorem k0_off122_inb : ∀ (v2124 : BitVec 32) (k0_hw122 : k0_chk122 v2124), ∀ a, (k0_off122 v2124) a + S1x256.size a ≤ S100000x256.size a := fun v2124 k0_hw122 => k0_hw122

def k0_off123 (v2141 : BitVec 32) : Fin 2 → Nat :=
  let c0_i32_1613 : BitVec 32 := 0#32
  ![v2141.toNat, 0]

def k0_chk123 (v2141 : BitVec 32) : Prop :=
  (∀ a, (k0_off123 v2141) a + S1x256.size a ≤ S100000x256.size a)
instance k0_chk123.dec : ∀ (v2141 : BitVec 32), Decidable (k0_chk123 v2141) := fun v2141 => decidable_of_iff' _ (Iff.of_eq (k0_chk123.eq_1 v2141))
theorem k0_off123_inb : ∀ (v2141 : BitVec 32) (k0_hw123 : k0_chk123 v2141), ∀ a, (k0_off123 v2141) a + S1x256.size a ≤ S100000x256.size a := fun v2141 k0_hw123 => k0_hw123

def k0_off124 (v2158 : BitVec 32) : Fin 2 → Nat :=
  let c0_i32_1626 : BitVec 32 := 0#32
  ![v2158.toNat, 0]

def k0_chk124 (v2158 : BitVec 32) : Prop :=
  (∀ a, (k0_off124 v2158) a + S1x256.size a ≤ S100000x256.size a)
instance k0_chk124.dec : ∀ (v2158 : BitVec 32), Decidable (k0_chk124 v2158) := fun v2158 => decidable_of_iff' _ (Iff.of_eq (k0_chk124.eq_1 v2158))
theorem k0_off124_inb : ∀ (v2158 : BitVec 32) (k0_hw124 : k0_chk124 v2158), ∀ a, (k0_off124 v2158) a + S1x256.size a ≤ S100000x256.size a := fun v2158 k0_hw124 => k0_hw124

def k0_off125 (v2175 : BitVec 32) : Fin 2 → Nat :=
  let c0_i32_1639 : BitVec 32 := 0#32
  ![v2175.toNat, 0]

def k0_chk125 (v2175 : BitVec 32) : Prop :=
  (∀ a, (k0_off125 v2175) a + S1x256.size a ≤ S100000x256.size a)
instance k0_chk125.dec : ∀ (v2175 : BitVec 32), Decidable (k0_chk125 v2175) := fun v2175 => decidable_of_iff' _ (Iff.of_eq (k0_chk125.eq_1 v2175))
theorem k0_off125_inb : ∀ (v2175 : BitVec 32) (k0_hw125 : k0_chk125 v2175), ∀ a, (k0_off125 v2175) a + S1x256.size a ≤ S100000x256.size a := fun v2175 k0_hw125 => k0_hw125

def k0_off126 (v2192 : BitVec 32) : Fin 2 → Nat :=
  let c0_i32_1652 : BitVec 32 := 0#32
  ![v2192.toNat, 0]

def k0_chk126 (v2192 : BitVec 32) : Prop :=
  (∀ a, (k0_off126 v2192) a + S1x256.size a ≤ S100000x256.size a)
instance k0_chk126.dec : ∀ (v2192 : BitVec 32), Decidable (k0_chk126 v2192) := fun v2192 => decidable_of_iff' _ (Iff.of_eq (k0_chk126.eq_1 v2192))
theorem k0_off126_inb : ∀ (v2192 : BitVec 32) (k0_hw126 : k0_chk126 v2192), ∀ a, (k0_off126 v2192) a + S1x256.size a ≤ S100000x256.size a := fun v2192 k0_hw126 => k0_hw126

def k0_off127 (v2209 : BitVec 32) : Fin 2 → Nat :=
  let c0_i32_1665 : BitVec 32 := 0#32
  ![v2209.toNat, 0]

def k0_chk127 (v2209 : BitVec 32) : Prop :=
  (∀ a, (k0_off127 v2209) a + S1x256.size a ≤ S100000x256.size a)
instance k0_chk127.dec : ∀ (v2209 : BitVec 32), Decidable (k0_chk127 v2209) := fun v2209 => decidable_of_iff' _ (Iff.of_eq (k0_chk127.eq_1 v2209))
theorem k0_off127_inb : ∀ (v2209 : BitVec 32) (k0_hw127 : k0_chk127 v2209), ∀ a, (k0_off127 v2209) a + S1x256.size a ≤ S100000x256.size a := fun v2209 k0_hw127 => k0_hw127

def k0_off128 (v2226 : BitVec 32) : Fin 2 → Nat :=
  let c0_i32_1678 : BitVec 32 := 0#32
  ![v2226.toNat, 0]

def k0_chk128 (v2226 : BitVec 32) : Prop :=
  (∀ a, (k0_off128 v2226) a + S1x256.size a ≤ S100000x256.size a)
instance k0_chk128.dec : ∀ (v2226 : BitVec 32), Decidable (k0_chk128 v2226) := fun v2226 => decidable_of_iff' _ (Iff.of_eq (k0_chk128.eq_1 v2226))
theorem k0_off128_inb : ∀ (v2226 : BitVec 32) (k0_hw128 : k0_chk128 v2226), ∀ a, (k0_off128 v2226) a + S1x256.size a ≤ S100000x256.size a := fun v2226 k0_hw128 => k0_hw128

def k0_off129 (v2243 : BitVec 32) : Fin 2 → Nat :=
  let c0_i32_1691 : BitVec 32 := 0#32
  ![v2243.toNat, 0]

def k0_chk129 (v2243 : BitVec 32) : Prop :=
  (∀ a, (k0_off129 v2243) a + S1x256.size a ≤ S100000x256.size a)
instance k0_chk129.dec : ∀ (v2243 : BitVec 32), Decidable (k0_chk129 v2243) := fun v2243 => decidable_of_iff' _ (Iff.of_eq (k0_chk129.eq_1 v2243))
theorem k0_off129_inb : ∀ (v2243 : BitVec 32) (k0_hw129 : k0_chk129 v2243), ∀ a, (k0_off129 v2243) a + S1x256.size a ≤ S100000x256.size a := fun v2243 k0_hw129 => k0_hw129

def k0_off130 (v2260 : BitVec 32) : Fin 2 → Nat :=
  let c0_i32_1704 : BitVec 32 := 0#32
  ![v2260.toNat, 0]

def k0_chk130 (v2260 : BitVec 32) : Prop :=
  (∀ a, (k0_off130 v2260) a + S1x256.size a ≤ S100000x256.size a)
instance k0_chk130.dec : ∀ (v2260 : BitVec 32), Decidable (k0_chk130 v2260) := fun v2260 => decidable_of_iff' _ (Iff.of_eq (k0_chk130.eq_1 v2260))
theorem k0_off130_inb : ∀ (v2260 : BitVec 32) (k0_hw130 : k0_chk130 v2260), ∀ a, (k0_off130 v2260) a + S1x256.size a ≤ S100000x256.size a := fun v2260 k0_hw130 => k0_hw130

def k0_off131 (v2277 : BitVec 32) : Fin 2 → Nat :=
  let c0_i32_1717 : BitVec 32 := 0#32
  ![v2277.toNat, 0]

def k0_chk131 (v2277 : BitVec 32) : Prop :=
  (∀ a, (k0_off131 v2277) a + S1x256.size a ≤ S100000x256.size a)
instance k0_chk131.dec : ∀ (v2277 : BitVec 32), Decidable (k0_chk131 v2277) := fun v2277 => decidable_of_iff' _ (Iff.of_eq (k0_chk131.eq_1 v2277))
theorem k0_off131_inb : ∀ (v2277 : BitVec 32) (k0_hw131 : k0_chk131 v2277), ∀ a, (k0_off131 v2277) a + S1x256.size a ≤ S100000x256.size a := fun v2277 k0_hw131 => k0_hw131

def k0_off132 (v2294 : BitVec 32) : Fin 2 → Nat :=
  let c0_i32_1730 : BitVec 32 := 0#32
  ![v2294.toNat, 0]

def k0_chk132 (v2294 : BitVec 32) : Prop :=
  (∀ a, (k0_off132 v2294) a + S1x256.size a ≤ S100000x256.size a)
instance k0_chk132.dec : ∀ (v2294 : BitVec 32), Decidable (k0_chk132 v2294) := fun v2294 => decidable_of_iff' _ (Iff.of_eq (k0_chk132.eq_1 v2294))
theorem k0_off132_inb : ∀ (v2294 : BitVec 32) (k0_hw132 : k0_chk132 v2294), ∀ a, (k0_off132 v2294) a + S1x256.size a ≤ S100000x256.size a := fun v2294 k0_hw132 => k0_hw132

def k0_off133 (v2311 : BitVec 32) : Fin 2 → Nat :=
  let c0_i32_1743 : BitVec 32 := 0#32
  ![v2311.toNat, 0]

def k0_chk133 (v2311 : BitVec 32) : Prop :=
  (∀ a, (k0_off133 v2311) a + S1x256.size a ≤ S100000x256.size a)
instance k0_chk133.dec : ∀ (v2311 : BitVec 32), Decidable (k0_chk133 v2311) := fun v2311 => decidable_of_iff' _ (Iff.of_eq (k0_chk133.eq_1 v2311))
theorem k0_off133_inb : ∀ (v2311 : BitVec 32) (k0_hw133 : k0_chk133 v2311), ∀ a, (k0_off133 v2311) a + S1x256.size a ≤ S100000x256.size a := fun v2311 k0_hw133 => k0_hw133

def k0_off134 (v2328 : BitVec 32) : Fin 2 → Nat :=
  let c0_i32_1756 : BitVec 32 := 0#32
  ![v2328.toNat, 0]

def k0_chk134 (v2328 : BitVec 32) : Prop :=
  (∀ a, (k0_off134 v2328) a + S1x256.size a ≤ S100000x256.size a)
instance k0_chk134.dec : ∀ (v2328 : BitVec 32), Decidable (k0_chk134 v2328) := fun v2328 => decidable_of_iff' _ (Iff.of_eq (k0_chk134.eq_1 v2328))
theorem k0_off134_inb : ∀ (v2328 : BitVec 32) (k0_hw134 : k0_chk134 v2328), ∀ a, (k0_off134 v2328) a + S1x256.size a ≤ S100000x256.size a := fun v2328 k0_hw134 => k0_hw134

def k0_off135 (v2345 : BitVec 32) : Fin 2 → Nat :=
  let c0_i32_1769 : BitVec 32 := 0#32
  ![v2345.toNat, 0]

def k0_chk135 (v2345 : BitVec 32) : Prop :=
  (∀ a, (k0_off135 v2345) a + S1x256.size a ≤ S100000x256.size a)
instance k0_chk135.dec : ∀ (v2345 : BitVec 32), Decidable (k0_chk135 v2345) := fun v2345 => decidable_of_iff' _ (Iff.of_eq (k0_chk135.eq_1 v2345))
theorem k0_off135_inb : ∀ (v2345 : BitVec 32) (k0_hw135 : k0_chk135 v2345), ∀ a, (k0_off135 v2345) a + S1x256.size a ≤ S100000x256.size a := fun v2345 k0_hw135 => k0_hw135

def k0_off136 (v2362 : BitVec 32) : Fin 2 → Nat :=
  let c0_i32_1782 : BitVec 32 := 0#32
  ![v2362.toNat, 0]

def k0_chk136 (v2362 : BitVec 32) : Prop :=
  (∀ a, (k0_off136 v2362) a + S1x256.size a ≤ S100000x256.size a)
instance k0_chk136.dec : ∀ (v2362 : BitVec 32), Decidable (k0_chk136 v2362) := fun v2362 => decidable_of_iff' _ (Iff.of_eq (k0_chk136.eq_1 v2362))
theorem k0_off136_inb : ∀ (v2362 : BitVec 32) (k0_hw136 : k0_chk136 v2362), ∀ a, (k0_off136 v2362) a + S1x256.size a ≤ S100000x256.size a := fun v2362 k0_hw136 => k0_hw136

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S8x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S8x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S20000_S20000x1 : S20000.ShapeCasts S20000x1
  inb_S8x16_S1x1_0_0 : ∀ a, (![0, 0] : Fin 2 → Nat) a + S1x1.size a ≤ S8x16.size a
  numel1_S1x1 : S1x1.numel = 1
  inb_S2_S1_0 : ∀ a, (![0] : Fin 1 → Nat) a + S1.size a ≤ S2.size a
  squeezes_S1_S_ : S1.Squeezes S_
  inb_S2x256_S1x256_0_0 : ∀ a, (![0, 0] : Fin 2 → Nat) a + S1x256.size a ≤ S2x256.size a
  squeezes_S1x256_S256 : S1x256.Squeezes S256
  inb_S100000x256_S1x256_0_0 : ∀ a, (![0, 0] : Fin 2 → Nat) a + S1x256.size a ≤ S100000x256.size a
  inb_S8x16_S1x1_0_1 : ∀ a, (![0, 1] : Fin 2 → Nat) a + S1x1.size a ≤ S8x16.size a
  inb_S2_S1_1 : ∀ a, (![1] : Fin 1 → Nat) a + S1.size a ≤ S2.size a
  inb_S2x256_S1x256_1_0 : ∀ a, (![1, 0] : Fin 2 → Nat) a + S1x256.size a ≤ S2x256.size a
  h_S1x256 : 0 < S1x256.numel
  shapeCasts_S1x256_S256 : S1x256.ShapeCasts S256
  shapeCasts_S256_S1x256 : S256.ShapeCasts S1x256
  inb_S8x16_S1x1_0_2 : ∀ a, (![0, 2] : Fin 2 → Nat) a + S1x1.size a ≤ S8x16.size a
  inb_S8x16_S1x1_0_3 : ∀ a, (![0, 3] : Fin 2 → Nat) a + S1x1.size a ≤ S8x16.size a
  inb_S8x16_S1x1_0_4 : ∀ a, (![0, 4] : Fin 2 → Nat) a + S1x1.size a ≤ S8x16.size a
  inb_S8x16_S1x1_0_5 : ∀ a, (![0, 5] : Fin 2 → Nat) a + S1x1.size a ≤ S8x16.size a
  inb_S8x16_S1x1_0_6 : ∀ a, (![0, 6] : Fin 2 → Nat) a + S1x1.size a ≤ S8x16.size a
  inb_S8x16_S1x1_0_7 : ∀ a, (![0, 7] : Fin 2 → Nat) a + S1x1.size a ≤ S8x16.size a
  inb_S8x16_S1x1_0_8 : ∀ a, (![0, 8] : Fin 2 → Nat) a + S1x1.size a ≤ S8x16.size a
  inb_S8x16_S1x1_0_9 : ∀ a, (![0, 9] : Fin 2 → Nat) a + S1x1.size a ≤ S8x16.size a
  inb_S8x16_S1x1_0_10 : ∀ a, (![0, 10] : Fin 2 → Nat) a + S1x1.size a ≤ S8x16.size a
  inb_S8x16_S1x1_0_11 : ∀ a, (![0, 11] : Fin 2 → Nat) a + S1x1.size a ≤ S8x16.size a
  inb_S8x16_S1x1_0_12 : ∀ a, (![0, 12] : Fin 2 → Nat) a + S1x1.size a ≤ S8x16.size a
  inb_S8x16_S1x1_0_13 : ∀ a, (![0, 13] : Fin 2 → Nat) a + S1x1.size a ≤ S8x16.size a
  inb_S8x16_S1x1_0_14 : ∀ a, (![0, 14] : Fin 2 → Nat) a + S1x1.size a ≤ S8x16.size a
  inb_S8x16_S1x1_0_15 : ∀ a, (![0, 15] : Fin 2 → Nat) a + S1x1.size a ≤ S8x16.size a
  inb_S8x1_S1x1_0_0 : ∀ a, (![0, 0] : Fin 2 → Nat) a + S1x1.size a ≤ S8x1.size a
  inb_S8x16_S1x1_1_0 : ∀ a, (![1, 0] : Fin 2 → Nat) a + S1x1.size a ≤ S8x16.size a
  inb_S8x256_S1x256_0_0 : ∀ a, (![0, 0] : Fin 2 → Nat) a + S1x256.size a ≤ S8x256.size a
  inb_S8x16_S1x1_1_1 : ∀ a, (![1, 1] : Fin 2 → Nat) a + S1x1.size a ≤ S8x16.size a
  inb_S8x16_S1x1_1_2 : ∀ a, (![1, 2] : Fin 2 → Nat) a + S1x1.size a ≤ S8x16.size a
  inb_S8x16_S1x1_1_3 : ∀ a, (![1, 3] : Fin 2 → Nat) a + S1x1.size a ≤ S8x16.size a
  inb_S8x16_S1x1_1_4 : ∀ a, (![1, 4] : Fin 2 → Nat) a + S1x1.size a ≤ S8x16.size a
  inb_S8x16_S1x1_1_5 : ∀ a, (![1, 5] : Fin 2 → Nat) a + S1x1.size a ≤ S8x16.size a
  inb_S8x16_S1x1_1_6 : ∀ a, (![1, 6] : Fin 2 → Nat) a + S1x1.size a ≤ S8x16.size a
  inb_S8x16_S1x1_1_7 : ∀ a, (![1, 7] : Fin 2 → Nat) a + S1x1.size a ≤ S8x16.size a
  inb_S8x16_S1x1_1_8 : ∀ a, (![1, 8] : Fin 2 → Nat) a + S1x1.size a ≤ S8x16.size a
  inb_S8x16_S1x1_1_9 : ∀ a, (![1, 9] : Fin 2 → Nat) a + S1x1.size a ≤ S8x16.size a
  inb_S8x16_S1x1_1_10 : ∀ a, (![1, 10] : Fin 2 → Nat) a + S1x1.size a ≤ S8x16.size a
  inb_S8x16_S1x1_1_11 : ∀ a, (![1, 11] : Fin 2 → Nat) a + S1x1.size a ≤ S8x16.size a
  inb_S8x16_S1x1_1_12 : ∀ a, (![1, 12] : Fin 2 → Nat) a + S1x1.size a ≤ S8x16.size a
  inb_S8x16_S1x1_1_13 : ∀ a, (![1, 13] : Fin 2 → Nat) a + S1x1.size a ≤ S8x16.size a
  inb_S8x16_S1x1_1_14 : ∀ a, (![1, 14] : Fin 2 → Nat) a + S1x1.size a ≤ S8x16.size a
  inb_S8x16_S1x1_1_15 : ∀ a, (![1, 15] : Fin 2 → Nat) a + S1x1.size a ≤ S8x16.size a
  inb_S8x1_S1x1_1_0 : ∀ a, (![1, 0] : Fin 2 → Nat) a + S1x1.size a ≤ S8x1.size a
  inb_S8x16_S1x1_2_0 : ∀ a, (![2, 0] : Fin 2 → Nat) a + S1x1.size a ≤ S8x16.size a
  inb_S8x256_S1x256_1_0 : ∀ a, (![1, 0] : Fin 2 → Nat) a + S1x256.size a ≤ S8x256.size a
  inb_S8x16_S1x1_2_1 : ∀ a, (![2, 1] : Fin 2 → Nat) a + S1x1.size a ≤ S8x16.size a
  inb_S8x16_S1x1_2_2 : ∀ a, (![2, 2] : Fin 2 → Nat) a + S1x1.size a ≤ S8x16.size a
  inb_S8x16_S1x1_2_3 : ∀ a, (![2, 3] : Fin 2 → Nat) a + S1x1.size a ≤ S8x16.size a
  inb_S8x16_S1x1_2_4 : ∀ a, (![2, 4] : Fin 2 → Nat) a + S1x1.size a ≤ S8x16.size a
  inb_S8x16_S1x1_2_5 : ∀ a, (![2, 5] : Fin 2 → Nat) a + S1x1.size a ≤ S8x16.size a
  inb_S8x16_S1x1_2_6 : ∀ a, (![2, 6] : Fin 2 → Nat) a + S1x1.size a ≤ S8x16.size a
  inb_S8x16_S1x1_2_7 : ∀ a, (![2, 7] : Fin 2 → Nat) a + S1x1.size a ≤ S8x16.size a
  inb_S8x16_S1x1_2_8 : ∀ a, (![2, 8] : Fin 2 → Nat) a + S1x1.size a ≤ S8x16.size a
  inb_S8x16_S1x1_2_9 : ∀ a, (![2, 9] : Fin 2 → Nat) a + S1x1.size a ≤ S8x16.size a
  inb_S8x16_S1x1_2_10 : ∀ a, (![2, 10] : Fin 2 → Nat) a + S1x1.size a ≤ S8x16.size a
  inb_S8x16_S1x1_2_11 : ∀ a, (![2, 11] : Fin 2 → Nat) a + S1x1.size a ≤ S8x16.size a
  inb_S8x16_S1x1_2_12 : ∀ a, (![2, 12] : Fin 2 → Nat) a + S1x1.size a ≤ S8x16.size a
  inb_S8x16_S1x1_2_13 : ∀ a, (![2, 13] : Fin 2 → Nat) a + S1x1.size a ≤ S8x16.size a
  inb_S8x16_S1x1_2_14 : ∀ a, (![2, 14] : Fin 2 → Nat) a + S1x1.size a ≤ S8x16.size a
  inb_S8x16_S1x1_2_15 : ∀ a, (![2, 15] : Fin 2 → Nat) a + S1x1.size a ≤ S8x16.size a
  inb_S8x1_S1x1_2_0 : ∀ a, (![2, 0] : Fin 2 → Nat) a + S1x1.size a ≤ S8x1.size a
  inb_S8x16_S1x1_3_0 : ∀ a, (![3, 0] : Fin 2 → Nat) a + S1x1.size a ≤ S8x16.size a
  inb_S8x256_S1x256_2_0 : ∀ a, (![2, 0] : Fin 2 → Nat) a + S1x256.size a ≤ S8x256.size a
  inb_S8x16_S1x1_3_1 : ∀ a, (![3, 1] : Fin 2 → Nat) a + S1x1.size a ≤ S8x16.size a
  inb_S8x16_S1x1_3_2 : ∀ a, (![3, 2] : Fin 2 → Nat) a + S1x1.size a ≤ S8x16.size a
  inb_S8x16_S1x1_3_3 : ∀ a, (![3, 3] : Fin 2 → Nat) a + S1x1.size a ≤ S8x16.size a
  inb_S8x16_S1x1_3_4 : ∀ a, (![3, 4] : Fin 2 → Nat) a + S1x1.size a ≤ S8x16.size a
  inb_S8x16_S1x1_3_5 : ∀ a, (![3, 5] : Fin 2 → Nat) a + S1x1.size a ≤ S8x16.size a
  inb_S8x16_S1x1_3_6 : ∀ a, (![3, 6] : Fin 2 → Nat) a + S1x1.size a ≤ S8x16.size a
  inb_S8x16_S1x1_3_7 : ∀ a, (![3, 7] : Fin 2 → Nat) a + S1x1.size a ≤ S8x16.size a
  inb_S8x16_S1x1_3_8 : ∀ a, (![3, 8] : Fin 2 → Nat) a + S1x1.size a ≤ S8x16.size a
  inb_S8x16_S1x1_3_9 : ∀ a, (![3, 9] : Fin 2 → Nat) a + S1x1.size a ≤ S8x16.size a
  inb_S8x16_S1x1_3_10 : ∀ a, (![3, 10] : Fin 2 → Nat) a + S1x1.size a ≤ S8x16.size a
  inb_S8x16_S1x1_3_11 : ∀ a, (![3, 11] : Fin 2 → Nat) a + S1x1.size a ≤ S8x16.size a
  inb_S8x16_S1x1_3_12 : ∀ a, (![3, 12] : Fin 2 → Nat) a + S1x1.size a ≤ S8x16.size a
  inb_S8x16_S1x1_3_13 : ∀ a, (![3, 13] : Fin 2 → Nat) a + S1x1.size a ≤ S8x16.size a
  inb_S8x16_S1x1_3_14 : ∀ a, (![3, 14] : Fin 2 → Nat) a + S1x1.size a ≤ S8x16.size a
  inb_S8x16_S1x1_3_15 : ∀ a, (![3, 15] : Fin 2 → Nat) a + S1x1.size a ≤ S8x16.size a
  inb_S8x1_S1x1_3_0 : ∀ a, (![3, 0] : Fin 2 → Nat) a + S1x1.size a ≤ S8x1.size a
  inb_S8x16_S1x1_4_0 : ∀ a, (![4, 0] : Fin 2 → Nat) a + S1x1.size a ≤ S8x16.size a
  inb_S8x256_S1x256_3_0 : ∀ a, (![3, 0] : Fin 2 → Nat) a + S1x256.size a ≤ S8x256.size a
  inb_S8x16_S1x1_4_1 : ∀ a, (![4, 1] : Fin 2 → Nat) a + S1x1.size a ≤ S8x16.size a
  inb_S8x16_S1x1_4_2 : ∀ a, (![4, 2] : Fin 2 → Nat) a + S1x1.size a ≤ S8x16.size a
  inb_S8x16_S1x1_4_3 : ∀ a, (![4, 3] : Fin 2 → Nat) a + S1x1.size a ≤ S8x16.size a
  inb_S8x16_S1x1_4_4 : ∀ a, (![4, 4] : Fin 2 → Nat) a + S1x1.size a ≤ S8x16.size a
  inb_S8x16_S1x1_4_5 : ∀ a, (![4, 5] : Fin 2 → Nat) a + S1x1.size a ≤ S8x16.size a
  inb_S8x16_S1x1_4_6 : ∀ a, (![4, 6] : Fin 2 → Nat) a + S1x1.size a ≤ S8x16.size a
  inb_S8x16_S1x1_4_7 : ∀ a, (![4, 7] : Fin 2 → Nat) a + S1x1.size a ≤ S8x16.size a
  inb_S8x16_S1x1_4_8 : ∀ a, (![4, 8] : Fin 2 → Nat) a + S1x1.size a ≤ S8x16.size a
  inb_S8x16_S1x1_4_9 : ∀ a, (![4, 9] : Fin 2 → Nat) a + S1x1.size a ≤ S8x16.size a
  inb_S8x16_S1x1_4_10 : ∀ a, (![4, 10] : Fin 2 → Nat) a + S1x1.size a ≤ S8x16.size a
  inb_S8x16_S1x1_4_11 : ∀ a, (![4, 11] : Fin 2 → Nat) a + S1x1.size a ≤ S8x16.size a
  inb_S8x16_S1x1_4_12 : ∀ a, (![4, 12] : Fin 2 → Nat) a + S1x1.size a ≤ S8x16.size a
  inb_S8x16_S1x1_4_13 : ∀ a, (![4, 13] : Fin 2 → Nat) a + S1x1.size a ≤ S8x16.size a
  inb_S8x16_S1x1_4_14 : ∀ a, (![4, 14] : Fin 2 → Nat) a + S1x1.size a ≤ S8x16.size a
  inb_S8x16_S1x1_4_15 : ∀ a, (![4, 15] : Fin 2 → Nat) a + S1x1.size a ≤ S8x16.size a
  inb_S8x1_S1x1_4_0 : ∀ a, (![4, 0] : Fin 2 → Nat) a + S1x1.size a ≤ S8x1.size a
  inb_S8x16_S1x1_5_0 : ∀ a, (![5, 0] : Fin 2 → Nat) a + S1x1.size a ≤ S8x16.size a
  inb_S8x256_S1x256_4_0 : ∀ a, (![4, 0] : Fin 2 → Nat) a + S1x256.size a ≤ S8x256.size a
  inb_S8x16_S1x1_5_1 : ∀ a, (![5, 1] : Fin 2 → Nat) a + S1x1.size a ≤ S8x16.size a
  inb_S8x16_S1x1_5_2 : ∀ a, (![5, 2] : Fin 2 → Nat) a + S1x1.size a ≤ S8x16.size a
  inb_S8x16_S1x1_5_3 : ∀ a, (![5, 3] : Fin 2 → Nat) a + S1x1.size a ≤ S8x16.size a
  inb_S8x16_S1x1_5_4 : ∀ a, (![5, 4] : Fin 2 → Nat) a + S1x1.size a ≤ S8x16.size a
  inb_S8x16_S1x1_5_5 : ∀ a, (![5, 5] : Fin 2 → Nat) a + S1x1.size a ≤ S8x16.size a
  inb_S8x16_S1x1_5_6 : ∀ a, (![5, 6] : Fin 2 → Nat) a + S1x1.size a ≤ S8x16.size a
  inb_S8x16_S1x1_5_7 : ∀ a, (![5, 7] : Fin 2 → Nat) a + S1x1.size a ≤ S8x16.size a
  inb_S8x16_S1x1_5_8 : ∀ a, (![5, 8] : Fin 2 → Nat) a + S1x1.size a ≤ S8x16.size a
  inb_S8x16_S1x1_5_9 : ∀ a, (![5, 9] : Fin 2 → Nat) a + S1x1.size a ≤ S8x16.size a
  inb_S8x16_S1x1_5_10 : ∀ a, (![5, 10] : Fin 2 → Nat) a + S1x1.size a ≤ S8x16.size a
  inb_S8x16_S1x1_5_11 : ∀ a, (![5, 11] : Fin 2 → Nat) a + S1x1.size a ≤ S8x16.size a
  inb_S8x16_S1x1_5_12 : ∀ a, (![5, 12] : Fin 2 → Nat) a + S1x1.size a ≤ S8x16.size a
  inb_S8x16_S1x1_5_13 : ∀ a, (![5, 13] : Fin 2 → Nat) a + S1x1.size a ≤ S8x16.size a
  inb_S8x16_S1x1_5_14 : ∀ a, (![5, 14] : Fin 2 → Nat) a + S1x1.size a ≤ S8x16.size a
  inb_S8x16_S1x1_5_15 : ∀ a, (![5, 15] : Fin 2 → Nat) a + S1x1.size a ≤ S8x16.size a
  inb_S8x1_S1x1_5_0 : ∀ a, (![5, 0] : Fin 2 → Nat) a + S1x1.size a ≤ S8x1.size a
  inb_S8x16_S1x1_6_0 : ∀ a, (![6, 0] : Fin 2 → Nat) a + S1x1.size a ≤ S8x16.size a
  inb_S8x256_S1x256_5_0 : ∀ a, (![5, 0] : Fin 2 → Nat) a + S1x256.size a ≤ S8x256.size a
  inb_S8x16_S1x1_6_1 : ∀ a, (![6, 1] : Fin 2 → Nat) a + S1x1.size a ≤ S8x16.size a
  inb_S8x16_S1x1_6_2 : ∀ a, (![6, 2] : Fin 2 → Nat) a + S1x1.size a ≤ S8x16.size a
  inb_S8x16_S1x1_6_3 : ∀ a, (![6, 3] : Fin 2 → Nat) a + S1x1.size a ≤ S8x16.size a
  inb_S8x16_S1x1_6_4 : ∀ a, (![6, 4] : Fin 2 → Nat) a + S1x1.size a ≤ S8x16.size a
  inb_S8x16_S1x1_6_5 : ∀ a, (![6, 5] : Fin 2 → Nat) a + S1x1.size a ≤ S8x16.size a
  inb_S8x16_S1x1_6_6 : ∀ a, (![6, 6] : Fin 2 → Nat) a + S1x1.size a ≤ S8x16.size a
  inb_S8x16_S1x1_6_7 : ∀ a, (![6, 7] : Fin 2 → Nat) a + S1x1.size a ≤ S8x16.size a
  inb_S8x16_S1x1_6_8 : ∀ a, (![6, 8] : Fin 2 → Nat) a + S1x1.size a ≤ S8x16.size a
  inb_S8x16_S1x1_6_9 : ∀ a, (![6, 9] : Fin 2 → Nat) a + S1x1.size a ≤ S8x16.size a
  inb_S8x16_S1x1_6_10 : ∀ a, (![6, 10] : Fin 2 → Nat) a + S1x1.size a ≤ S8x16.size a
  inb_S8x16_S1x1_6_11 : ∀ a, (![6, 11] : Fin 2 → Nat) a + S1x1.size a ≤ S8x16.size a
  inb_S8x16_S1x1_6_12 : ∀ a, (![6, 12] : Fin 2 → Nat) a + S1x1.size a ≤ S8x16.size a
  inb_S8x16_S1x1_6_13 : ∀ a, (![6, 13] : Fin 2 → Nat) a + S1x1.size a ≤ S8x16.size a
  inb_S8x16_S1x1_6_14 : ∀ a, (![6, 14] : Fin 2 → Nat) a + S1x1.size a ≤ S8x16.size a
  inb_S8x16_S1x1_6_15 : ∀ a, (![6, 15] : Fin 2 → Nat) a + S1x1.size a ≤ S8x16.size a
  inb_S8x1_S1x1_6_0 : ∀ a, (![6, 0] : Fin 2 → Nat) a + S1x1.size a ≤ S8x1.size a
  inb_S8x16_S1x1_7_0 : ∀ a, (![7, 0] : Fin 2 → Nat) a + S1x1.size a ≤ S8x16.size a
  inb_S8x256_S1x256_6_0 : ∀ a, (![6, 0] : Fin 2 → Nat) a + S1x256.size a ≤ S8x256.size a
  inb_S8x16_S1x1_7_1 : ∀ a, (![7, 1] : Fin 2 → Nat) a + S1x1.size a ≤ S8x16.size a
  inb_S8x16_S1x1_7_2 : ∀ a, (![7, 2] : Fin 2 → Nat) a + S1x1.size a ≤ S8x16.size a
  inb_S8x16_S1x1_7_3 : ∀ a, (![7, 3] : Fin 2 → Nat) a + S1x1.size a ≤ S8x16.size a
  inb_S8x16_S1x1_7_4 : ∀ a, (![7, 4] : Fin 2 → Nat) a + S1x1.size a ≤ S8x16.size a
  inb_S8x16_S1x1_7_5 : ∀ a, (![7, 5] : Fin 2 → Nat) a + S1x1.size a ≤ S8x16.size a
  inb_S8x16_S1x1_7_6 : ∀ a, (![7, 6] : Fin 2 → Nat) a + S1x1.size a ≤ S8x16.size a
  inb_S8x16_S1x1_7_7 : ∀ a, (![7, 7] : Fin 2 → Nat) a + S1x1.size a ≤ S8x16.size a
  inb_S8x16_S1x1_7_8 : ∀ a, (![7, 8] : Fin 2 → Nat) a + S1x1.size a ≤ S8x16.size a
  inb_S8x16_S1x1_7_9 : ∀ a, (![7, 9] : Fin 2 → Nat) a + S1x1.size a ≤ S8x16.size a
  inb_S8x16_S1x1_7_10 : ∀ a, (![7, 10] : Fin 2 → Nat) a + S1x1.size a ≤ S8x16.size a
  inb_S8x16_S1x1_7_11 : ∀ a, (![7, 11] : Fin 2 → Nat) a + S1x1.size a ≤ S8x16.size a
  inb_S8x16_S1x1_7_12 : ∀ a, (![7, 12] : Fin 2 → Nat) a + S1x1.size a ≤ S8x16.size a
  inb_S8x16_S1x1_7_13 : ∀ a, (![7, 13] : Fin 2 → Nat) a + S1x1.size a ≤ S8x16.size a
  inb_S8x16_S1x1_7_14 : ∀ a, (![7, 14] : Fin 2 → Nat) a + S1x1.size a ≤ S8x16.size a
  inb_S8x16_S1x1_7_15 : ∀ a, (![7, 15] : Fin 2 → Nat) a + S1x1.size a ≤ S8x16.size a
  inb_S8x1_S1x1_7_0 : ∀ a, (![7, 0] : Fin 2 → Nat) a + S1x1.size a ≤ S8x1.size a
  inb_S8x256_S1x256_7_0 : ∀ a, (![7, 0] : Fin 2 → Nat) a + S1x256.size a ≤ S8x256.size a
  concatenates_S20000x256_S20000x256_S20000x512_d1 : Shape.Concatenates [S20000x256, S20000x256] S20000x512 1
  pads_S20000x512_S20480x512_04800_000 : S20000x512.Pads (![0, 0] : Fin 2 → Nat) ![480, 0] ![0, 0] S20480x512
  h_S_ : 0 < S_.numel
  bitsLt_bf16_f32 : FTy.bits .bf16 < FTy.bits .f32
  concatenates_S256x512_S256x512_S512x512_d0 : Shape.Concatenates [S256x512, S256x512] S512x512 0
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  transposes_S4096x512_p1_0_S512x4096 : S4096x512.Transposes [1, 0] S512x4096
  inb_S512x4096_S512x4096_0_0 : ∀ a, (![0, 0] : Fin 2 → Nat) a + S512x4096.size a ≤ S512x4096.size a
  h_S512x4096 : 0 < S512x4096.numel
  slices_S512x20480_S512x20000_0_0 : S512x20480.Slices ![0, 0] S512x20000
  slices_S512x20000_S256x20000_0_0 : S512x20000.Slices ![0, 0] S256x20000
  slices_S512x20000_S256x20000_256_0 : S512x20000.Slices ![256, 0] S256x20000
  dot_S512x512_S512x4096_S512x4096_1_0_0_1_n_n_wf : DotDims.WF S512x512 S512x4096 S512x4096 [1] [0] [0] [1] [] []
  hcc0_scratch1 : 8 + S2.numel ≤ 15
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S20000x1.size a
  hwx0_0 : ∀ i : grid0.Coords, EltTy.bits .i32 = 32 ∨ (Rect.block (s := S20000x1) S8x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S20000x16.size a
  hwx0_1 : ∀ i : grid0.Coords, EltTy.bits .i32 = 32 ∨ (Rect.block (s := S20000x16) S8x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S8x256.size a ≤ S20000x256.size a
  hwx0_2 : ∀ i : grid0.Coords, EltTy.bits .f32 = 32 ∨ (Rect.block (s := S20000x256) S8x256.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S8x256.size a ≤ S20000x256.size a
  hwx0_3 : ∀ i : grid0.Coords, EltTy.bits .f32 = 32 ∨ (Rect.block (s := S20000x256) S8x256.size (cc0_transform_4 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .bf16 = 32 ∨ (Rect.block (s := S512x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S20480x512.size a
  hwx1_1 : ∀ i : grid1.Coords, EltTy.bits .bf16 = 32 ∨ (Rect.block (s := S20480x512) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S512x20480.size a
  hwx1_2 : ∀ i : grid1.Coords, EltTy.bits .f32 = 32 ∨ (Rect.block (s := S512x20480) S512x4096.size (cc1_transform_2 i) (hinb1_2 i)).WholeWords (EltTy.packing .f32)

variable [Facts₀]

abbrev cc0_scratch1 : DmaSems sig S2 := SemArray.consecutive 8 S2 hcc0_scratch1
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v0) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x256.size cc0_transform_3 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x256.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S20000 : Shape := ⟨1, ![20000]⟩
abbrev S20000x16 : Shape := ⟨2, ![20000, 16]⟩
abbrev S100000x256 : Shape := ⟨2, ![100000, 256]⟩
abbrev S256x512 : Shape := ⟨2, ![256, 512]⟩
abbrev S_ : Shape := ⟨0, ![]⟩
abbrev S20000x16x1 : Shape := ⟨3, ![20000, 16, 1]⟩
abbrev S20000x16x256 : Shape := ⟨3, ![20000, 16, 256]⟩
abbrev S20000x256 : Shape := ⟨2, ![20000, 256]⟩
abbrev S20000x1 : Shape := ⟨2, ![20000, 1]⟩
abbrev S20000x512 : Shape := ⟨2, ![20000, 512]⟩
abbrev S256x20000 : Shape := ⟨2, ![256, 20000]⟩

abbrev nBuf : Space → Nat
  | .hbm => 61
  | .vmem => 0
  | .smem => 0
  | _ => 0

abbrev bufTy : (tb : Table) → Fin (tcTables nBuf tb) → BufTy
  | .hbm, ⟨0, _⟩ => ⟨S20000, .i32⟩
  | .hbm, ⟨1, _⟩ => ⟨S20000x16, .i32⟩
  | .hbm, ⟨2, _⟩ => ⟨S100000x256, .f32⟩
  | .hbm, ⟨3, _⟩ => ⟨S256x512, .f32⟩
  | .hbm, ⟨4, _⟩ => ⟨S256x512, .f32⟩
  | .hbm, ⟨5, _⟩ => ⟨S_, .i32⟩
  | .hbm, ⟨6, _⟩ => ⟨S20000x16, .i32⟩
  | .hbm, ⟨7, _⟩ => ⟨S20000x16, .i1⟩
  | .hbm, ⟨8, _⟩ => ⟨S_, .i32⟩
  | .hbm, ⟨9, _⟩ => ⟨S20000x16, .i32⟩
  | .hbm, ⟨10, _⟩ => ⟨S20000x16, .i32⟩
  | .hbm, ⟨11, _⟩ => ⟨S20000x16, .i32⟩
  | .hbm, ⟨12, _⟩ => ⟨S20000x16x1, .i32⟩
  | .hbm, ⟨13, _⟩ => ⟨S20000x16x256, .f32⟩
  | .hbm, ⟨14, _⟩ => ⟨S_, .f32⟩
  | .hbm, ⟨15, _⟩ => ⟨S20000x256, .f32⟩
  | .hbm, ⟨16, _⟩ => ⟨S_, .f32⟩
  | .hbm, ⟨17, _⟩ => ⟨S20000x256, .f32⟩
  | .hbm, ⟨18, _⟩ => ⟨S20000x256, .f32⟩
  | .hbm, ⟨19, _⟩ => ⟨S_, .i32⟩
  | .hbm, ⟨20, _⟩ => ⟨S20000, .i32⟩
  | .hbm, ⟨21, _⟩ => ⟨S20000, .i1⟩
  | .hbm, ⟨22, _⟩ => ⟨S_, .i32⟩
  | .hbm, ⟨23, _⟩ => ⟨S20000, .i32⟩
  | .hbm, ⟨24, _⟩ => ⟨S20000, .i32⟩
  | .hbm, ⟨25, _⟩ => ⟨S20000, .i32⟩
  | .hbm, ⟨26, _⟩ => ⟨S20000x1, .i32⟩
  | .hbm, ⟨27, _⟩ => ⟨S20000x256, .f32⟩
  | .hbm, ⟨28, _⟩ => ⟨S20000x512, .f32⟩
  | .hbm, ⟨29, _⟩ => ⟨S256x20000, .f32⟩
  | .hbm, ⟨30, _⟩ => ⟨S_, .f32⟩
  | .hbm, ⟨31, _⟩ => ⟨S256x20000, .f32⟩
  | .hbm, ⟨32, _⟩ => ⟨S256x20000, .f32⟩
  | .hbm, ⟨33, _⟩ => ⟨S_, .i32⟩
  | .hbm, ⟨34, _⟩ => ⟨S20000x16, .i32⟩
  | .hbm, ⟨35, _⟩ => ⟨S20000x16, .i1⟩
  | .hbm, ⟨36, _⟩ => ⟨S_, .i32⟩
  | .hbm, ⟨37, _⟩ => ⟨S20000x16, .i32⟩
  | .hbm, ⟨38, _⟩ => ⟨S20000x16, .i32⟩
  | .hbm, ⟨39, _⟩ => ⟨S20000x16, .i32⟩
  | .hbm, ⟨40, _⟩ => ⟨S20000x16x1, .i32⟩
  | .hbm, ⟨41, _⟩ => ⟨S20000x16x256, .f32⟩
  | .hbm, ⟨42, _⟩ => ⟨S_, .f32⟩
  | .hbm, ⟨43, _⟩ => ⟨S20000x256, .f32⟩
  | .hbm, ⟨44, _⟩ => ⟨S_, .f32⟩
  | .hbm, ⟨45, _⟩ => ⟨S20000x256, .f32⟩
  | .hbm, ⟨46, _⟩ => ⟨S20000x256, .f32⟩
  | .hbm, ⟨47, _⟩ => ⟨S_, .i32⟩
  | .hbm, ⟨48, _⟩ => ⟨S20000, .i32⟩
  | .hbm, ⟨49, _⟩ => ⟨S20000, .i1⟩
  | .hbm, ⟨50, _⟩ => ⟨S_, .i32⟩
  | .hbm, ⟨51, _⟩ => ⟨S20000, .i32⟩
  | .hbm, ⟨52, _⟩ => ⟨S20000, .i32⟩
  | .hbm, ⟨53, _⟩ => ⟨S20000, .i32⟩
  | .hbm, ⟨54, _⟩ => ⟨S20000x1, .i32⟩
  | .hbm, ⟨55, _⟩ => ⟨S20000x256, .f32⟩
  | .hbm, ⟨56, _⟩ => ⟨S20000x512, .f32⟩
  | .hbm, ⟨57, _⟩ => ⟨S256x20000, .f32⟩
  | .hbm, ⟨58, _⟩ => ⟨S_, .f32⟩
  | .hbm, ⟨59, _⟩ => ⟨S256x20000, .f32⟩
  | .hbm, ⟨60, _⟩ => ⟨S256x20000, .f32⟩
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S_S20000x16 : S_.BroadcastsInDim S20000x16 (![] : Fin 0 → Fin S20000x16.rank)
  bcast_S20000x16_S20000x16x1_0_1 : S20000x16.BroadcastsInDim S20000x16x1 (![0, 1] : Fin 2 → Fin S20000x16x1.rank)
  reducesTo_S20000x16x256_S20000x256_d1 : S20000x16x256.ReducesTo [1] S20000x256
  h_S_ : 0 < S_.numel
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  concatenates_S20000x256_S20000x256_S20000x512_d1 : Shape.Concatenates [S20000x256, S20000x256] S20000x512 1
  bcast_S_S256x20000 : S_.BroadcastsInDim S256x20000 (![] : Fin 0 → Fin S256x20000.rank)
  gather_S100000x256_S20000x16x1_S20000x16x256_2_0_n_n_0_2_1256_wf : GatherDims.WF S100000x256 S20000x16x1 S20000x16x256 [2] [0] [] [0] [] 2 ![1, 256]
  gather_S100000x256_S20000x1_S20000x256_1_0_n_n_0_1_1256_wf : GatherDims.WF S100000x256 S20000x1 S20000x256 [1] [0] [] [0] [] 1 ![1, 256]
  dot_S256x512_S20000x512_S256x20000_1_1_0_0_n_n_wf : DotDims.WF S256x512 S20000x512 S256x20000 [1] [1] [0] [0] [] []

variable [Facts₀]

def gather_S100000x256_S20000x16x1_S20000x16x256_2_0_n_n_0_2_1256 : GatherDims S100000x256 S20000x16x1 S20000x16x256 where
  offsetDims := [2]
  collapsedSliceDims := [0]
  operandBatchingDims := []
  startIndicesBatchingDims := []
  startIndexMap := [0]
  indexVectorDim := 2
  sliceSizes := ![1, 256]
  wf := gather_S100000x256_S20000x16x1_S20000x16x256_2_0_n_n_0_2_1256_wf
def gather_S100000x256_S20000x1_S20000x256_1_0_n_n_0_1_1256 : GatherDims S100000x256 S20000x1 S20000x256 where
  offsetDims := [1]
  collapsedSliceDims := [0]
  operandBatchingDims := []
  startIndicesBatchingDims := []
  startIndexMap := [0]
  indexVectorDim := 1
  sliceSizes := ![1, 256]
  wf := gather_S100000x256_S20000x1_S20000x256_1_0_n_n_0_1_1256_wf
def dot_S256x512_S20000x512_S256x20000_1_1_0_0_n_n : DotDims S256x512 S20000x512 S256x20000 where
  lhsContracting := [1]
  rhsContracting := [1]
  lhsNonContracting := [0]
  rhsNonContracting := [0]
  lhsBatch := []
  rhsBatch := []
  wf := dot_S256x512_S20000x512_S256x20000_1_1_0_0_n_n_wf

class Facts : Prop extends Facts₀ where

variable [Facts]
-- ==== Proof.PreIdx.lean ====
/-
  The index bounds carried by the precondition. The predicate is a conjunction of five
  reductions by `and` over all axes; its last two say that every word of the two integer arguments, read
  signed, lies in [0, 100000). A word in that range reads the same unsigned, so each word, read
  unsigned, is below 100000.
-/
import proofs.«402250_j36103495090682_1_alg».proof.Pre_finite_inputs
import proofs.«402250_j36103495090682_1_alg».proof.Proof.Gen.Pre_finite_inputs
import Idealize.ShloMosaic.Lib.ReduceAll
import Idealize.ShloMosaic.Lib.ValueIdx

namespace Cert.PreIdx

open Idealize.ShloMosaic

/-- The scalar shape has exactly one index. -/
instance : Subsingleton Cert.Pre_finite_inputs.S_.Idx := ⟨fun a b => funext fun d => d.elim0⟩

/-- A 32-bit word that tests signed `≥ 0` and signed `< 100000` reads, unsigned, below 100000. -/
theorem word_lt (w : BitVec 32)
    (h : IntOp.andi (IntOp.cmpi .sge w 0#32) (IntOp.cmpi .slt w 100000#32) = 1#1) : w.toNat < 100000 := by
  obtain ⟨hge, hlt⟩ := IntOp.andi_eq_one.1 h
  rw [IntOp.cmpi_sge] at hge
  rw [IntOp.cmpi_slt] at hlt
  have h0 : (0#32 : BitVec 32).toInt = 0 := by decide
  have h1 : (100000#32 : BitVec 32).toInt = 100000 := by decide
  rw [h0] at hge
  rw [h1] at hlt
  have hw := w.isLt
  rw [BitVec.toInt_eq_toNat_cond] at hge hlt
  split at hge <;> omega

theorem idx_lt {F : FTy → Type} [FloatOps F] [Cert.Pre_finite_inputs.Facts]
    (a0 : IVec Cert.Pre_finite_inputs.S20000 32) (a1 : IVec Cert.Pre_finite_inputs.S20000x16 32)
    (a2 : FVec F Cert.Pre_finite_inputs.S100000x256 .f32) (a3 a4 : FVec F Cert.Pre_finite_inputs.S256x512 .f32)
    (h : Cert.Pre_finite_inputs.fn (F := F) a0 a1 a2 a3 a4 = (fun _ => 1#1)) :
    (∀ i, (a0 i).toNat < 100000) ∧ (∀ i, (a1 i).toNat < 100000) := by
  have e := congrFun h ValueIdx.ix0
  dsimp only [Cert.Pre_finite_inputs.fn, Cert.Pre_finite_inputs.fn_part1] at e
  -- the conjunction at the scalar index: keep its last two conjuncts, the two integer ones
  obtain ⟨e', e1⟩ := IntOp.andi_eq_one.1 e
  obtain ⟨_, e0⟩ := IntOp.andi_eq_one.1 e'
  -- a reduction by `and` over all axes that is 1 met a 1 at every index; there the word is compared
  -- with the broadcast constants 0 and 100000
  exact ⟨fun i => word_lt (a0 i) (Host.reduce_andi_all _ _ _ _ ValueIdx.ix0 e0 i),
    fun i => word_lt (a1 i) (Host.reduce_andi_all _ _ _ _ ValueIdx.ix0 e1 i)⟩

end Cert.PreIdx
-- ==== Proof.Spec.lean ====
/-
  What both programs compute, as one function of the argument arrays over the extended reals.

  For batch row `b`: the own feature row `feat[nodes[b]]` and the mean of the sixteen neighbour rows
  `(∑ k, feat[neigh[b, k]]) · (1/16)`, laid side by side as one row of 512 entries; encoder `W` (256 × 512) maps it to
  `max (∑ j, W[o, j] · row_b[j]) 0` at output (o, b).  A row number is a 32-bit word read signed and clamped into the
  table, which is the word itself when it is below 100000.
-/
import Idealize.ShloMosaic.Lib.ValueIdx
import Idealize.ShloMosaic.PureOps.Ideal.Laws

noncomputable section

open scoped BigOperators

namespace Cert.Spec

open Idealize.ShloMosaic Idealize.ShloMosaic.ValueIdx

abbrev T20000 : Shape := ⟨1, ![20000]⟩
abbrev T20000x16 : Shape := ⟨2, ![20000, 16]⟩
abbrev T100000x256 : Shape := ⟨2, ![100000, 256]⟩
abbrev T256x512 : Shape := ⟨2, ![256, 512]⟩
abbrev T256x20000 : Shape := ⟨2, ![256, 20000]⟩

/-- The table row a start-index word names: the word read signed, clamped into [0, 99999]. -/
def rowOf (w : BitVec 32) : Fin 100000 := ⟨min w.toInt.toNat 99999, by omega⟩

/-- A word below 100000 names its own row. -/
theorem rowOf_val_of_lt (w : BitVec 32) (h : w.toNat < 100000) : (rowOf w).val = w.toNat := by
  have h31 : w.toNat < 2 ^ 31 := by omega
  have : w.toInt = (w.toNat : Int) := by
    rw [BitVec.toInt_eq_toNat_cond]; simp; omega
  show min w.toInt.toNat 99999 = w.toNat
  rw [this, Int.toNat_natCast]; omega

variable (nodes : IVec T20000 32) (neigh : IVec T20000x16 32) (feat : T100000x256.Idx → EReal)

/-- The own feature row of batch row `b`. -/
def selfRow (b : Fin 20000) (d : Fin 256) : EReal := feat (ix2 (rowOf (nodes (ix1 b))) d)

/-- The sum of the sixteen neighbour rows of batch row `b`. -/
def neighSum (b : Fin 20000) (d : Fin 256) : EReal := ∑ k : Fin 16, feat (ix2 (rowOf (neigh (ix2 b k))) d)

/-- Batch row `b` of the encoders' input: the own row, then the neighbours' mean. -/
def comb (b : Fin 20000) (j : Fin 512) : EReal :=
  if h : j.val < 256 then selfRow nodes feat b ⟨j.val, h⟩
  else neighSum neigh feat b ⟨j.val - 256, by have := j.isLt; omega⟩ * ((1 / 16 : ℝ) : EReal)

/-- One encoder's output: `max (W · rowᵀ) 0`. -/
def G (W : T256x512.Idx → EReal) : T256x20000.Idx → EReal := fun i =>
  max (∑ j : Fin 512, W (ix2 (i 0) j) * comb nodes neigh feat (i 1) j) 0

end Cert.Spec

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.LibGather3.lean ====
/-
  ROWS READ THROUGH A TABLE OF ROW NUMBERS. A host `stablehlo.gather` of an [N × D] operand whose start indices are an
  [n × k × 1] array of row numbers — operand axis 0 collapsed and start-indexed, operand axis 1 whole and read by the
  result's offset axis 2, the index vector on axis 2 — reads, at result element (e, c, j), the operand's element (r, j),
  where r is start index (e, c) read signed and clamped into the operand (`gather_rows3`).
-/
import Idealize.ShloMosaic.Lib.ValueIdx
import Idealize.ShloMosaic.PureOps.Ideal.Laws

open scoped BigOperators

namespace Idealize.ShloMosaic.RowOps3

open Idealize.ShloMosaic Idealize.ShloMosaic.ValueIdx

/-- Entry (e, c) of an [n, k, 1] array of start indices, read signed and clamped into [0, N-1]. -/
def clampRow3 {n k w : Nat} (N : Nat) (hN : 0 < N) (idx : IVec ⟨3, ![n, k, 1]⟩ w) (e : Fin n) (c : Fin k) : Fin N :=
  ⟨min (idx (ix3 e c (0 : Fin 1))).toInt.toNat (N - 1), by omega⟩

/-- Every element of a one-element list is that element. -/
private theorem getElem_singleton_of_eq {β : Type} {l : List β} {b : β} (h : l = [b]) (i : Nat) (hi : i < l.length) :
    l[i] = b :=
  List.mem_singleton.1 (h ▸ List.getElem_mem hi)

/-- The two elements of a two-element list, by position. -/
private theorem getElem_pair_of_eq {β : Type} {l : List β} {a b : β} (h : l = [a, b]) (i : Nat) (hi : i < l.length) :
    (i = 0 → l[i] = a) ∧ (i = 1 → l[i] = b) := by
  subst h
  constructor
  · intro h0; subst h0; rfl
  · intro h1; subst h1; rfl

/-- THE ROW TAKE THROUGH A TABLE. A `stablehlo.gather` of an [N × D] operand whose start indices are an [n × k × 1]
    array of row numbers: operand axis 0 collapsed and start-indexed, operand axis 1 whole (slice sizes [1, D]) and read
    by the result's offset axis 2, no batching axes, the index vector on axis 2. Result element (e, c, j) is the
    operand's element (r, j), r the start index at (e, c) read signed and clamped into [0, N − 1]. -/
theorem gather_rows3 {α : Type} {N D n k w : Nat} (d : GatherDims ⟨2, ![N, D]⟩ ⟨3, ![n, k, 1]⟩ ⟨3, ![n, k, D]⟩)
    (hoff : d.offsetDims = [2]) (hcoll : d.collapsedSliceDims = [0]) (hob : d.operandBatchingDims = [])
    (hsim : d.startIndexMap = [0]) (hivd : d.indexVectorDim = 2) (hss : d.sliceSizes = ![1, D])
    (x : (⟨2, ![N, D]⟩ : Shape).Idx → α) (idx : IVec ⟨3, ![n, k, 1]⟩ w) (e : Fin n) (c : Fin k) (j : Fin D)
    (hN : 0 < N) :
    Host.gather d x idx (ix3 e c j) = x (ix2 (clampRow3 N hN idx e c) j) := by
  have hb : ∀ a : Fin 2, a ∉ d.operandBatchingDims := fun a => by rw [hob]; exact List.not_mem_nil
  -- the result's batch axes: the two axes that are not the offset axis
  have hbd : d.batchDims = [0, 1] := by
    show Shape.kept _ d.offsetDims = [0, 1]
    rw [hoff]
    show (List.finRange 3).filter (fun a : Fin 3 => a ∉ [(2 : Fin 3)]) = [0, 1]
    decide
  -- the start indices' axes but the index vector's
  have hsk : d.siKept = [0, 1] := by
    show (List.finRange 3).filter (fun b : Fin 3 => b.val ≠ d.indexVectorDim) = [0, 1]
    rw [hivd]
    decide
  -- axis 0: collapsed and start-indexed, the clamped start alone
  have h0 : (d.operandIdx (ix3 e c j) idx (0 : Fin 2)).val = (clampRow3 N hN idx e c).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix3 e c j) idx 0 + d.batchCoord (ix3 e c j) 0 + d.offCoord (ix3 e c j) 0
      = min (idx (ix3 e c (0 : Fin 1))).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix3 e c (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 3, X = 0 → ((ix3 e c j : (⟨3, ![n, k, D]⟩ : Shape).Idx) X).val = e.val :=
        fun X hX => by subst hX; rfl
      exact he _ ((getElem_pair_of_eq hbd _ _).1 (by rw [hsk]; rfl))
    | ⟨1, _⟩ =>
      unfold GatherDims.siIdx
      rw [dif_neg (by rw [hivd]; simp)]
      unfold GatherDims.siCoord
      apply Fin.ext
      simp only [Fin.val_cast]
      have he : ∀ X : Fin 3, X = 1 → ((ix3 e c j : (⟨3, ![n, k, D]⟩ : Shape).Idx) X).val = c.val :=
        fun X hX => by subst hX; rfl
      exact he _ ((getElem_pair_of_eq hbd _ _).2 (by rw [hsk]; rfl))
    | ⟨2, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix3 e c j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix3 e c j) idx 1 + d.batchCoord (ix3 e c j) 1 + d.offCoord (ix3 e c j) 1 = j.val
    rw [GatherDims.batchCoord_eq_zero _ _ _ (hb 1), Nat.add_zero]
    unfold GatherDims.start GatherDims.offCoord
    rw [dif_neg hm, dif_pos hk, Nat.zero_add]
    have hj : ∀ X : Fin 3, X = 2 → ((ix3 e c j : (⟨3, ![n, k, D]⟩ : Shape).Idx) X).val = j.val :=
      fun X hX => by subst hX; rfl
    exact hj _ (getElem_singleton_of_eq hoff _ _)
  unfold Host.gather
  congr 1
  funext a
  apply Fin.ext
  match a with
  | ⟨0, _⟩ => exact h0
  | ⟨1, _⟩ => exact h1

end Idealize.ShloMosaic.RowOps3
-- ==== Proof.Ref.lean ====
/-
  The reference program's result, read back index by index: each encoder's output is the specification's `G`.

  At output (o, b) the program's term is `max (∑ j, W[o, j] · row_b[j]) 0`, where `row_b` is the concatenation of the
  gathered own row and the gathered neighbour rows' sum divided by 16. The index normalisation
  `select (idx < 0) (idx + 100000) idx` returns `idx` for a word below 100000, and each gather reads the table row the
  word names.
-/
import proofs.«402250_j36103495090682_1_alg».proof.Proof.Gen.ReferenceIdeal.Run
import proofs.«402250_j36103495090682_1_alg».proof.Proof.Gen.ReferenceIdeal.Read
import proofs.«402250_j36103495090682_1_alg».proof.Proof.Spec
import proofs.«402250_j36103495090682_1_alg».proof.Proof.LibGatherScatter
import proofs.«402250_j36103495090682_1_alg».proof.Proof.LibGather3
import Idealize.ShloMosaic.Lib.StableHlo.Predicate
import Idealize.ShloMosaic.Lib.Pipeline.Value
import Idealize.ShloMosaic.Lib.IdealHost

noncomputable section

open scoped BigOperators

namespace Cert.RefValue

open Idealize.ShloMosaic Idealize.SL.Sem Cert.ReferenceIdeal Cert.ReferenceIdeal.Gen Cert.ReferenceIdeal.Read
open Idealize.ShloMosaic.ValueIdx Idealize.ShloMosaic.StableHlo.Predicate

/-! ## Words and constants -/

/-- A word below 100000 is not negative read signed, so the index normalisation returns it. -/
theorem normIdx (w : BitVec 32) (h : w.toNat < 100000) :
    Scalar.select (IntOp.cmpi .slt w 0#32) (IntOp.addi w 100000#32) w = w := by
  have hn : ¬ IntOp.cmpi .slt w 0#32 = 1#1 := by
    rw [slt_iff_toNat (by omega) (by decide)]
    simp
  rw [eq_zero_of_ne_one hn, select_zero]

/-- The pattern `0x41800000` denotes the real 16. -/
theorem ofBits_16 : Ideal.ofBits .f32 0x41800000#32 = ((16 : ℝ) : EReal) := by
  simp [Ideal.ofBits, Ideal.ieee, -EReal.coe_mul]; norm_num

/-! ## The index normalisations -/

theorem v14_eq (x0 : (⟨S20000, .i32⟩ : BufTy).Contents (Elt Ideal)) (h0 : ∀ i : S20000.Idx, (x0 i).toNat < 100000)
    (i : S20000.Idx) : val_main_v14 (F := Ideal) x0 i = x0 i := by
  rw [val_main_v14_apply, val_main_v11_apply, val_main_v13_apply, val_main_v10_apply, val_main_c_2_apply,
    val_main_v12_apply, val_main_c_3_apply]
  exact normIdx _ (h0 i)

theorem v4_eq (x1 : (⟨S20000x16, .i32⟩ : BufTy).Contents (Elt Ideal)) (h1 : ∀ i : S20000x16.Idx, (x1 i).toNat < 100000)
    (i : S20000x16.Idx) : val_main_v4 (F := Ideal) x1 i = x1 i := by
  rw [val_main_v4_apply, val_main_v1_apply, val_main_v3_apply, val_main_v0_apply, val_main_c_apply,
    val_main_v2_apply, val_main_c_0_apply]
  exact normIdx _ (h1 i)

/-! ## The gathers -/

/-- The own-row gather reads the table row the node's word names. -/
theorem v16_eq (x0 : (⟨S20000, .i32⟩ : BufTy).Contents (Elt Ideal)) (x2 : (⟨S100000x256, .f32⟩ : BufTy).Contents (Elt Ideal))
    (h0 : ∀ i : S20000.Idx, (x0 i).toNat < 100000) (b : Fin 20000) (d : Fin 256) :
    val_main_v16 (F := Ideal) x0 x2 (ix2 b d) = x2 (ix2 (Cert.Spec.rowOf (x0 (ix1 b))) d) := by
  unfold val_main_v16
  refine (RowOps.gather_rows (N := 100000) (D := 256) (n := 20000)
    gather_S100000x256_S20000x1_S20000x256_1_0_n_n_0_1_1256 rfl rfl rfl rfl rfl rfl x2
    (val_main_v15 (F := Ideal) x0) b d (by decide)).trans ?_
  congr 2
  apply Fin.ext
  show min (val_main_v15 (F := Ideal) x0 (ixP b)).toInt.toNat (100000 - 1) = min (x0 (ix1 b)).toInt.toNat 99999
  rw [val_main_v15_apply,
    show idx_main_v15 (ixP b) = ix1 b from funext fun a => by match a with | ⟨0, _⟩ => rfl,
    v14_eq x0 h0]

/-- The neighbour-row gather reads the table row the neighbour's word names. -/
theorem v6_eq (x1 : (⟨S20000x16, .i32⟩ : BufTy).Contents (Elt Ideal)) (x2 : (⟨S100000x256, .f32⟩ : BufTy).Contents (Elt Ideal))
    (h1 : ∀ i : S20000x16.Idx, (x1 i).toNat < 100000) (b : Fin 20000) (k : Fin 16) (d : Fin 256) :
    val_main_v6 (F := Ideal) x1 x2 (ix3 b k d) = x2 (ix2 (Cert.Spec.rowOf (x1 (ix2 b k))) d) := by
  unfold val_main_v6
  refine (RowOps3.gather_rows3 (N := 100000) (D := 256) (n := 20000) (k := 16)
    gather_S100000x256_S20000x16x1_S20000x16x256_2_0_n_n_0_2_1256 rfl rfl rfl rfl rfl rfl x2
    (val_main_v5 (F := Ideal) x1) b k d (by decide)).trans ?_
  congr 2
  apply Fin.ext
  show min (val_main_v5 (F := Ideal) x1 (ix3 b k (0 : Fin 1))).toInt.toNat (100000 - 1)
    = min (x1 (ix2 b k)).toInt.toNat 99999
  rw [val_main_v5_apply,
    show idx_main_v5 (ix3 b k (0 : Fin 1)) = ix2 b k from funext fun a => by
      match a with
      | ⟨0, _⟩ => rfl
      | ⟨1, _⟩ => rfl,
    v4_eq x1 h1]

/-! ## The neighbours' mean -/

theorem v9_eq (x1 : (⟨S20000x16, .i32⟩ : BufTy).Contents (Elt Ideal)) (x2 : (⟨S100000x256, .f32⟩ : BufTy).Contents (Elt Ideal))
    (h1 : ∀ i : S20000x16.Idx, (x1 i).toNat < 100000) (b : Fin 20000) (d : Fin 256) :
    val_main_v9 (F := Ideal) x1 x2 (ix2 b d) = Cert.Spec.neighSum x1 x2 b d * ((1 / 16 : ℝ) : EReal) := by
  rw [val_main_v9_apply, val_main_v8_apply, val_main_cst_1_apply, val_main_v7_apply, val_main_cst_apply,
    Ideal.hostDivf_def, Ideal.ofBits_def, Ideal.ofBits_def, ofBits_16, Ideal.ofBits_zero_f32, zero_add,
    Ideal.div_coe (by norm_num)]
  congr 1
  unfold Cert.Spec.neighSum
  refine Finset.sum_congr rfl fun k _ => ?_
  rw [show idx_main_v7 (ix2 b d) k = ix3 b k d from funext fun a => by
      match a with
      | ⟨0, _⟩ => rfl
      | ⟨1, _⟩ => rfl
      | ⟨2, _⟩ => rfl]
  exact v6_eq x1 x2 h1 b k d

/-! ## The concatenated row -/

theorem v17_eq (x0 : (⟨S20000, .i32⟩ : BufTy).Contents (Elt Ideal)) (x1 : (⟨S20000x16, .i32⟩ : BufTy).Contents (Elt Ideal))
    (x2 : (⟨S100000x256, .f32⟩ : BufTy).Contents (Elt Ideal))
    (h0 : ∀ i : S20000.Idx, (x0 i).toNat < 100000) (h1 : ∀ i : S20000x16.Idx, (x1 i).toNat < 100000)
    (b : Fin 20000) (j : Fin 512) :
    val_main_v17 (F := Ideal) x0 x1 x2 (ix2 b j) = Cert.Spec.comb x0 x1 x2 b j := by
  unfold val_main_v17 Cert.Spec.comb
  generalize hy16 : val_main_v16 (F := Ideal) x0 x2 = y16
  generalize hy9 : val_main_v9 (F := Ideal) x1 x2 = y9
  by_cases hj : j.val < 256
  · rw [dif_pos hj]
    refine (concatenate_pair_apply_left (1 : Fin 2) y16 y9 concatenates_S20000x256_S20000x256_S20000x512_d1
      (ix2 b j) rfl (ix2 b ⟨j.val, hj⟩) (fun a => by
        match a with
        | ⟨0, _⟩ => rfl
        | ⟨1, _⟩ => rfl)).trans ?_
    rw [← hy16]
    exact v16_eq x0 x2 h0 b ⟨j.val, hj⟩
  · rw [dif_neg hj]
    have hj' : j.val - 256 < 256 := by have := j.isLt; omega
    refine (concatenate_pair_apply_right (1 : Fin 2) y16 y9 concatenates_S20000x256_S20000x256_S20000x512_d1
      (ix2 b j) rfl rfl (ix2 b ⟨j.val - 256, hj'⟩) (fun a ha => by
        match a with
        | ⟨0, _⟩ => rfl
        | ⟨1, _⟩ => exact absurd rfl ha) (by
        show (j.val - 256) + 256 = j.val
        omega)).trans ?_
    rw [← hy9]
    exact v9_eq x1 x2 h1 b ⟨j.val - 256, hj'⟩

/-! ## One encoder's stage -/

/-- The reference's stage term is the specification's `G`, for any encoder array. -/
theorem stage_G (x0 : (⟨S20000, .i32⟩ : BufTy).Contents (Elt Ideal)) (x1 : (⟨S20000x16, .i32⟩ : BufTy).Contents (Elt Ideal))
    (x2 : (⟨S100000x256, .f32⟩ : BufTy).Contents (Elt Ideal)) (W : (⟨S256x512, .f32⟩ : BufTy).Contents (Elt Ideal))
    (h0 : ∀ i : S20000.Idx, (x0 i).toNat < 100000) (h1 : ∀ i : S20000x16.Idx, (x1 i).toNat < 100000) :
    val_main_v19 (F := Ideal) x0 x1 x2 W = Cert.Spec.G x0 x1 x2 W := by
  funext i
  obtain ⟨o, b, rfl⟩ : ∃ o b, i = ix2 o b := ⟨i 0, i 1, eq_ix2 i⟩
  rw [val_main_v19_apply, val_main_v18_apply, val_main_call0_v0_apply, val_main_call0_cst_apply,
    Ideal.maximumf_def, Ideal.ofBits_def, Ideal.ofBits_zero_f32]
  show max _ 0 = max (∑ j : Fin 512, W (ix2 o j) * Cert.Spec.comb x0 x1 x2 b j) 0
  congr 1
  refine Finset.sum_congr rfl fun k _ => ?_
  rw [show lidx_main_v18 (ix2 o b) k = ix2 o k from funext fun a => by
      match a with
      | ⟨0, _⟩ => rfl
      | ⟨1, _⟩ => rfl,
    show ridx_main_v18 (ix2 o b) k = ix2 b k from funext fun a => by
      match a with
      | ⟨0, _⟩ => rfl
      | ⟨1, _⟩ => rfl,
    v17_eq x0 x1 x2 h0 h1 b k]

/-! ## The run -/

theorem run_G (m : (ℓ : Loc nD τ sig) → Buf (Elt Ideal) ℓ) (ρ : Dev nD → PrngReg)
    (h0 : ∀ (c : Dev nD) (i : S20000.Idx), (m ((c.tc : Thread nD τ).loc main_arg0) i).toNat < 100000)
    (h1 : ∀ (c : Dev nD) (i : S20000x16.Idx), (m ((c.tc : Thread nD τ).loc main_arg1) i).toNat < 100000) :
    θ_run (defs (F := Ideal)) (onTc (τ := τ) (main (F := Ideal))) ⟨m, fun _ => 0, ρ⟩ (fun r => ∀ c : Dev nD,
      r.2.mem ((c.tc : Thread nD τ).loc main_v19) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v39) = Cert.Spec.G (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c =>
    ⟨(h c).1.trans ((val_main_v19_eq (F := Ideal) _ _ _ _).trans (stage_G _ _ _ _ (h0 c) (h1 c))),
     (h c).2.1.trans ((val_main_v19_eq (F := Ideal) _ _ _ _).trans (stage_G _ _ _ _ (h0 c) (h1 c))),
     (h c).2.2⟩)
    (Cert.ReferenceIdeal.Value.run (F := Ideal) m ρ)

end Cert.RefValue

end
-- ==== Proof.K.Run0.lean ====
/-
  The gather kernel's body on any staging memrefs.  One grid point serves eight batch rows: for each row it copies the
  sixteen neighbour rows and then the row's own feature row out of the feature table (left in HBM) into a two-row scratch,
  one copy in flight while the previous row is read, adds the sixteen neighbour rows up, and stores the own row into the
  first output block and the sum times 1/16 into the second.  Each copy's source row is a word of an index block held in
  SMEM; the body assumes that the word names a row of the table, which holds when every word of the two index blocks is
  below 100000.  The run is made once, over symbolic contents of the index blocks and of the table; what it leaves in the
  two output blocks is the pair of piece lists it finds.
-/
import proofs.«402250_j36103495090682_1_alg».proof.Proof.Gen.Kernel.Launch
import proofs.«402250_j36103495090682_1_alg».proof.Proof.Gen.Kernel.Skeleton
import proofs.«402250_j36103495090682_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A word below the table's row count names a row inside the table: the side condition each copy's source slice takes. -/
theorem inb_of_lt (v : BitVec 32) (h : v.toNat < 100000) :
    ∀ a : Fin 2, (![v.toNat, 0] : Fin 2 → ℕ) a + S1x256.size a ≤ S100000x256.size a := by
  intro a; fin_cases a
  · show v.toNat + 1 ≤ 100000; omega
  · show 0 + 256 ≤ 256; omega

/-- A word read through an index block's whole memref is a word of the block: below 100000 when every word of the block is. -/
theorem word_lt {S : Shape} (arg : Memref sig .tc .smem S .i32) (harg : arg.IsWhole) (x : Vec F S .i32)
    (hx : ∀ j, (x j).toNat < 100000) (R : LoadRect S) (j : R.shape.Idx) :
    (arg.view.readAt (Elt F) R (harg.unread x) j).toNat < 100000 := by
  simp only [View.readAt_apply, Memref.IsWhole.read_unread]; exact hx _

/-- The feature table, whole, as the body is handed it. -/
abbrev hbM0 : Memref sig .tc .hbm S100000x256 .f32 := Memref.whole main_arg2
/-- The scratch rows, whole. -/
abbrev scM0 : Memref sig .tc .vmem S2x256 .f32 := Memref.whole cc0_scratch0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

set_option sl_exec.dmaWindow true in
set_option sl_exec.dmaWindowSet true in
set_option maxHeartbeats 0 in
/-- The body's run: the two index blocks at contents whose every word is below 100000, the output blocks at anything, the scratch rows at `fs0`, the two copy semaphores at zero, the table whole at `fh0`; it ends with the index blocks, the table and
    the semaphores as they were and each output block with its pieces written. -/
noncomputable def kernelRun0 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec F S8x1 .i32) (x1 : Vec F S8x16 .i32) (fh0 : HbBuf0 (F := F) c hbM0) (fs0 : BufTy.Contents (Elt F) arg6.view.ty)
    (hx0 : ∀ j, (x0 j).toNat < 100000) (hx1 : ∀ j, (x1 j).toNat < 100000) :
    Σ' (L2 : List (View.Piece (Elt F) S8x256 .f32)), { L3 : List (View.Piece (Elt F) S8x256 .f32) //
      ∀ (W : Waits sig Unit) (K : PUnit → sProp 𝕄),
        iprop(owns (c : Thread nD τ) arg1 fullShare x0 ∗ owns (c : Thread nD τ) arg2 fullShare x1
            ∗ (∃ d, owns (c : Thread nD τ) arg4 fullShare d) ∗ (∃ d, owns (c : Thread nD τ) arg5 fullShare d) ∗ iprop(arg6.view.loc (c : Thread nD τ) ↦[arg6.view.set]{fullShare} fs0)
            ∗ semVal ((c : Thread nD τ), SemLoc.dma 8) 0 ∗ semVal ((c : Thread nD τ), SemLoc.dma 9) 0 ∗ hbPt0 c hbM0 fh0 ∗ owes (c : Thread nD τ) 0 W
            ∗ (iprop(owns (c : Thread nD τ) arg1 fullShare x0 ∗ owns (c : Thread nD τ) arg2 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ d, owns (c : Thread nD τ) arg6 fullShare d)
                ∗ semVal ((c : Thread nD τ), SemLoc.dma 8) 0 ∗ semVal ((c : Thread nD τ), SemLoc.dma 9) 0 ∗ hbPt0 c hbM0 fh0 ∗ (∃ W', owes (c : Thread nD τ) 0 W')) -∗ K ⟨⟩))
          ⊢ wp frame (wpE (defs₀ (F := F)) Variants.none c none) Set.univ
              (cc0__gather_mean_kernel i arg1 harg1 arg2 harg2 (Memref.whole main_arg2) (Memref.isWhole_whole _) arg4 harg4 arg5 harg5 arg6 harg6 cc0_scratch1) K } := by
  refine ⟨?_, ?_, fun W K => ?run⟩
  case run =>
    simp only [cc0__gather_mean_kernel_eq_skeleton]; unfold cc0__gather_mean_kernel_skel
    unfold owns
    iintro ⟨⟨%f0, %hf0, H0⟩, ⟨%f1, %hf1, H1⟩, ⟨%d2, %f2, -, H2⟩, ⟨%d3, %f3, -, H3⟩, HS0, Hq0, Hq1, Hh0, HW, Hk⟩
    obtain rfl := harg1.eq_unread hf0; obtain rfl := harg2.eq_unread hf1
    sl_exec (disch := (refine inb_of_lt _ (word_lt _ _ _ ?_ _ _); assumption))
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.Kernel.Hand

end
-- ==== Proof.K.Rows.lean ====
/-
  The gather kernel's payloads as arithmetic.  Every value the kernel computes between a load and a store is built from
  four operations on one-row vectors: a reshape between [1,256] and [256] (which moves no element, so a reshape there and
  back is the identity), an entrywise sum, an entrywise product with the constant row 1/16, and the constant row 0.  So
  each payload, with the reshapes cancelled, is a sum of its accumulator and the rows it takes, or that sum times 1/16,
  or a row itself, or zero.  Last, a sum of sixteen terms added one after the other onto zero is the sum over Fin 16.
-/
import proofs.«402250_j36103495090682_1_alg».proof.Proof.Gen.Kernel.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.Kernel.Hand

open Idealize.ShloMosaic Idealize.SL.Sem Idealize.ShloMosaic.ValueIdx
open Cert.Kernel Cert.Kernel.Gen

/-- Opens every payload of the gather kernel and cancels each reshape against the reshape back. -/
macro "pay_open" : tactic => `(tactic| simp only [
    k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90,
    k0_pay91, k0_pay92, k0_pay93, k0_pay94, k0_pay95,
    shapeCast_shapeCast])

/-- The same inside a hypothesis or everywhere. -/
macro "pay_open" " at " h:ident : tactic => `(tactic| simp only [
    k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90,
    k0_pay91, k0_pay92, k0_pay93, k0_pay94, k0_pay95,
    shapeCast_shapeCast] at $h:ident)

section Generic
variable {F : FTy → Type} [FloatOps F]

/-- The row 1/16. -/
abbrev sixteenth : FVec F S1x256 .f32 := broadcast S1x256 (Scalar.ofBits (F := F) .f32 0x3D800000#32)
/-- The row 0. -/
abbrev zeroRow : FVec F S1x256 .f32 := broadcast S1x256 (Scalar.ofBits (F := F) .f32 0x00000000#32)

/-- An accumulation step over two rows adds them in turn. -/
theorem pay4_fn (acc : FVec F S1x256 .f32) (a b : Vec F S1x256 .f32) : k0_pay4 acc a b = addf (addf acc a) b := by pay_open
/-- An accumulation step over one row adds it. -/
theorem pay5_fn (acc : FVec F S1x256 .f32) (a : Vec F S1x256 .f32) : k0_pay5 acc a = addf acc a := by pay_open
/-- The first step adds the first row onto zero. -/
theorem pay3_fn (a : Vec F S1x256 .f32) : k0_pay3 a = addf zeroRow a := by pay_open
/-- The own row is stored as it was loaded. -/
theorem pay12_fn (a : Vec F S1x256 .f32) : k0_pay12 a = a := by pay_open
/-- The mean's last step: the last row added, then the product with 1/16. -/
theorem pay13_fn (acc : FVec F S1x256 .f32) (a : Vec F S1x256 .f32) : k0_pay13 acc a = mulf (addf acc a) sixteenth := by pay_open
/-- The mean of a finished sum. -/
theorem pay25_fn (acc : FVec F S1x256 .f32) : k0_pay25 acc = mulf acc sixteenth := by pay_open
/-- The own row through the flat shape and back. -/
theorem pay37_36_fn (a : Vec F S1x256 .f32) : k0_pay37 (k0_pay36 a) = a := by pay_open
theorem pay1_95_fn (a : Vec F S1x256 .f32) : k0_pay1 (k0_pay95 a) = a := by pay_open
/-- The accumulator's start. -/
theorem pay14_fn : k0_pay14 (F := F) = zeroRow := by pay_open

end Generic

/-- A source row of a copy: the table's row `w`, cut out and flattened, read at `d` is the table at (w, d). -/
theorem src_row_read {F : FTy → Type} [FloatOps F] (fh : S100000x256.Idx → Elt F .f32) (off : Fin 2 → ℕ) (w : ℕ) (hw : w < 100000)
    (hoff : off = ![w, 0]) (inb : ∀ a, off a + S1x256.size a ≤ S100000x256.size a)
    (h1 : ∀ a, (Rect.unit (s := S100000x256) off S1x256.size inb).stride a = 1)
    (h2 : (Rect.unit (s := S100000x256) off S1x256.size inb).shape.Squeezes S256) (d : Fin 256) :
    (((Memref.whole main_arg2).slice (Rect.unit (s := S100000x256) off S1x256.size inb) h1).squeeze S256 h2).view.read (Elt F) fh (ix1 d)
      = fh (ix2 ⟨w, hw⟩ d) := by
  subst hoff
  rw [Memref.read_squeeze_slice (Memref.whole main_arg2) _ h1 h2 shapeCasts_S1x256_S256 fh]
  refine (shapeCast_1a_a_apply _ _ d).trans ?_
  rw [View.readAt_apply]
  show fh _ = fh _
  refine congrArg fh (funext fun a => Fin.ext ?_)
  match a with
  | ⟨0, _⟩ => show w + 1 * 0 = w; omega
  | ⟨1, _⟩ => show 0 + 1 * d.val = d.val; omega

/-- Sixteen terms added one after the other onto zero: the sum over Fin 16. -/
theorem sum16 {M : Type*} [AddCommMonoid M] (f : Fin 16 → M) :
    0 + f 0 + f 1 + f 2 + f 3 + f 4 + f 5 + f 6 + f 7 + f 8 + f 9 + f 10 + f 11 + f 12 + f 13 + f 14 + f 15 = ∑ k : Fin 16, f k := by
  simp only [Fin.sum_univ_castSucc, Fin.sum_univ_zero]
  rfl

/-- Entry (0, d) of a sum of rows, of a product with the row 1/16 and of the zero row, over the extended reals. -/
theorem addf_at (a b : FVec Ideal S1x256 .f32) (d : Fin 256) : addf a b (ix2 (0 : Fin 1) d) = a (ix2 0 d) + b (ix2 0 d) := rfl
theorem mulf_sixteenth_at (a : FVec Ideal S1x256 .f32) (d : Fin 256) :
    mulf a (sixteenth (F := Ideal)) (ix2 (0 : Fin 1) d) = a (ix2 0 d) * Ideal.ofBits .f32 0x3D800000#32 := rfl
theorem zeroRow_at (d : Fin 256) : zeroRow (F := Ideal) (ix2 (0 : Fin 1) d) = 0 := Ideal.ofBits_zero_f32

end Cert.Kernel.Hand

end
-- ==== Proof.K.Indep0.lean ====
/-
  The run's piece lists do not depend on what the scratch rows held at the start.  Every row the body loads from the
  scratch was copied into it just before: at the load, the scratch holds the copy into that row, possibly under one later
  copy into the OTHER row, over whatever it held earlier.  A row read through the scratch after a copy into it is the
  copy's payload as a one-row block; a copy into the other row does not change it.  So each loaded row is its copy's
  payload, whatever the scratch held before, and the stored payloads, which are arithmetic of the loaded rows, are the same
  at any two start contents.
-/
import proofs.«402250_j36103495090682_1_alg».proof.Proof.K.Run0
import proofs.«402250_j36103495090682_1_alg».proof.Proof.K.Rows
import Idealize.ShloMosaic.Lib.WritesUnit
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx

variable {F : FTy → Type} [FloatOps F]

local notation "𝕄" => MT nD τ sig Unit (Elt F) ℕ (Pipeline.UD sig nD τ) ℕ

open Lean Elab Tactic Meta in
/-- One round of opening, in the goal, the names the run gave to the values it computed: each loaded row and each
    accumulator to its defining term, the copies' payloads left folded and nothing opened inside an opened term. -/
elab "run_rows_once" : tactic => do
  let g ← getMainGoal
  let isRow (n : Name) : Bool :=
    n.components.dropLast.any (· == `sl) && (match n with | .str _ s => !s.startsWith "dma" | _ => false)
  let t ← instantiateMVars (← g.getType)
  let t' ← Core.transform t (pre := fun e => do
    match e.getAppFn with
    | .const n _ =>
      if isRow n then
        match ← delta? e with
        | some e' => return .done e'
        | none => return .continue
      else return .continue
    | _ => return .continue)
  if t' == t then throwError "no name of the run is left to open"
  replaceMainGoal [← g.replaceTargetDefEq t']

section Scratch
variable {Val : EltTy → Type}

/-- A scratch row read back right after the copy into it: the copy's payload, as a one-row block. -/
theorem scratch_hit (M : Memref sig .tc .vmem S2x256 .f32) (off : Fin 2 → ℕ) (inb : ∀ a, off a + S1x256.size a ≤ S2x256.size a)
    (hr : ∀ a, (Rect.unit (s := S2x256) off S1x256.size inb).stride a = 1)
    (hq : (Rect.unit (s := S2x256) off S1x256.size inb).shape.Squeezes S256)
    (g : M.view.ty.Contents Val) (w : S256.Idx → Val .f32) :
    M.view.readAt Val (Rect.unit (s := S2x256) off S1x256.size inb).toLoadRect
        (((M.slice (Rect.unit (s := S2x256) off S1x256.size inb) hr).squeeze S256 hq).view.write Val g w Finset.univ)
      = shapeCast S1x256 w shapeCasts_S256_S1x256 := by
  have e := Memref.read_squeeze_slice M (Rect.unit (s := S2x256) off S1x256.size inb) hr hq shapeCasts_S1x256_S256
    (((M.slice (Rect.unit (s := S2x256) off S1x256.size inb) hr).squeeze S256 hq).view.write Val g w Finset.univ)
  rw [View.read_write_univ] at e
  exact (shapeCast_shapeCast _ shapeCasts_S1x256_S256 shapeCasts_S256_S1x256).symm.trans
    (congrArg (fun z => shapeCast S1x256 z shapeCasts_S256_S1x256) e.symm)

/-- A scratch row read while a copy into the OTHER row has been written: what it held before. -/
theorem scratch_miss (M : Memref sig .tc .vmem S2x256 .f32) (off off' : Fin 2 → ℕ) (a b : ℕ) (hoff : off = ![a, 0]) (hoff' : off' = ![b, 0]) (hab : a ≠ b)
    (inb : ∀ a, off a + S1x256.size a ≤ S2x256.size a) (inb' : ∀ a, off' a + S1x256.size a ≤ S2x256.size a)
    (hr : ∀ a, (Rect.unit (s := S2x256) off' S1x256.size inb').stride a = 1)
    (hq : (Rect.unit (s := S2x256) off' S1x256.size inb').shape.Squeezes S256)
    (g : M.view.ty.Contents Val) (w : S256.Idx → Val .f32) :
    M.view.readAt Val (Rect.unit (s := S2x256) off S1x256.size inb).toLoadRect
        (((M.slice (Rect.unit (s := S2x256) off' S1x256.size inb') hr).squeeze S256 hq).view.write Val g w Finset.univ)
      = M.view.readAt Val (Rect.unit (s := S2x256) off S1x256.size inb).toLoadRect g := by
  subst hoff hoff'
  funext j
  rw [View.readAt_apply, View.readAt_apply]
  have hw := View.write_reshape_univ (v := M.view.slice (Rect.unit (s := S2x256) ![b, 0] S1x256.size inb')) hq.numel_eq g w
  show M.view.read Val (((M.view.slice (Rect.unit (s := S2x256) ![b, 0] S1x256.size inb')).reshape S256 hq.numel_eq).write Val g w Finset.univ) _ = _
  rw [hw]
  refine View.read_slice_write_of_not_mem _ _ _ _ ?_
  rw [Rect.map_emb_univ, Rect.mem_set_unit]
  intro hall
  have h0 := hall 0
  change b ≤ a + 1 * (j 0).val ∧ a + 1 * (j 0).val < b + 1 at h0
  have hj0 : (j 0).val < 1 := (j 0).isLt
  omega

theorem scratch_miss01 (M : Memref sig .tc .vmem S2x256 .f32)
    (inb : ∀ a, (![0, 0] : Fin 2 → ℕ) a + S1x256.size a ≤ S2x256.size a) (inb' : ∀ a, (![1, 0] : Fin 2 → ℕ) a + S1x256.size a ≤ S2x256.size a)
    (hr : ∀ a, (Rect.unit (s := S2x256) ![1, 0] S1x256.size inb').stride a = 1)
    (hq : (Rect.unit (s := S2x256) ![1, 0] S1x256.size inb').shape.Squeezes S256)
    (g : M.view.ty.Contents Val) (w : S256.Idx → Val .f32) :
    M.view.readAt Val (Rect.unit (s := S2x256) ![0, 0] S1x256.size inb).toLoadRect
        (((M.slice (Rect.unit (s := S2x256) ![1, 0] S1x256.size inb') hr).squeeze S256 hq).view.write Val g w Finset.univ)
      = M.view.readAt Val (Rect.unit (s := S2x256) ![0, 0] S1x256.size inb).toLoadRect g :=
  scratch_miss M _ _ 0 1 rfl rfl (by decide) inb inb' hr hq g w
theorem scratch_miss10 (M : Memref sig .tc .vmem S2x256 .f32)
    (inb : ∀ a, (![1, 0] : Fin 2 → ℕ) a + S1x256.size a ≤ S2x256.size a) (inb' : ∀ a, (![0, 0] : Fin 2 → ℕ) a + S1x256.size a ≤ S2x256.size a)
    (hr : ∀ a, (Rect.unit (s := S2x256) ![0, 0] S1x256.size inb').stride a = 1)
    (hq : (Rect.unit (s := S2x256) ![0, 0] S1x256.size inb').shape.Squeezes S256)
    (g : M.view.ty.Contents Val) (w : S256.Idx → Val .f32) :
    M.view.readAt Val (Rect.unit (s := S2x256) ![1, 0] S1x256.size inb).toLoadRect
        (((M.slice (Rect.unit (s := S2x256) ![0, 0] S1x256.size inb') hr).squeeze S256 hq).view.write Val g w Finset.univ)
      = M.view.readAt Val (Rect.unit (s := S2x256) ![1, 0] S1x256.size inb).toLoadRect g :=
  scratch_miss M _ _ 1 0 rfl rfl (by decide) inb inb' hr hq g w

/-- The same three, spelt as the simplifier spells the terms. -/
theorem scratch_hit' (M : Memref sig .tc .vmem S2x256 .f32) (off : Fin 2 → ℕ) (inb : ∀ a, off a + (![1, 256] : Fin 2 → ℕ) a ≤ S2x256.size a)
    (hn : S256.numel = (Rect.unit (s := S2x256) off ![1, 256] inb).shape.numel)
    (g : M.view.ty.Contents Val) (w : S256.Idx → Val .f32) :
    M.view.readAt Val (Rect.unit (s := S2x256) off ![1, 256] inb).toLoadRect
        (((M.view.slice (Rect.unit (s := S2x256) off ![1, 256] inb)).reshape S256 hn).write Val g w Finset.univ)
      = shapeCast S1x256 w shapeCasts_S256_S1x256 :=
  scratch_hit M off inb (fun _ => rfl) squeezes_S1x256_S256 g w
theorem scratch_miss01' (M : Memref sig .tc .vmem S2x256 .f32)
    (inb : ∀ a, (![0, 0] : Fin 2 → ℕ) a + (![1, 256] : Fin 2 → ℕ) a ≤ S2x256.size a) (inb' : ∀ a, (![1, 0] : Fin 2 → ℕ) a + (![1, 256] : Fin 2 → ℕ) a ≤ S2x256.size a)
    (hn : S256.numel = (Rect.unit (s := S2x256) ![1, 0] ![1, 256] inb').shape.numel)
    (g : M.view.ty.Contents Val) (w : S256.Idx → Val .f32) :
    M.view.readAt Val (Rect.unit (s := S2x256) ![0, 0] ![1, 256] inb).toLoadRect
        (((M.view.slice (Rect.unit (s := S2x256) ![1, 0] ![1, 256] inb')).reshape S256 hn).write Val g w Finset.univ)
      = M.view.readAt Val (Rect.unit (s := S2x256) ![0, 0] ![1, 256] inb).toLoadRect g :=
  scratch_miss01 M inb inb' (fun _ => rfl) squeezes_S1x256_S256 g w
theorem scratch_miss10' (M : Memref sig .tc .vmem S2x256 .f32)
    (inb : ∀ a, (![1, 0] : Fin 2 → ℕ) a + (![1, 256] : Fin 2 → ℕ) a ≤ S2x256.size a) (inb' : ∀ a, (![0, 0] : Fin 2 → ℕ) a + (![1, 256] : Fin 2 → ℕ) a ≤ S2x256.size a)
    (hn : S256.numel = (Rect.unit (s := S2x256) ![0, 0] ![1, 256] inb').shape.numel)
    (g : M.view.ty.Contents Val) (w : S256.Idx → Val .f32) :
    M.view.readAt Val (Rect.unit (s := S2x256) ![1, 0] ![1, 256] inb).toLoadRect
        (((M.view.slice (Rect.unit (s := S2x256) ![0, 0] ![1, 256] inb')).reshape S256 hn).write Val g w Finset.univ)
      = M.view.readAt Val (Rect.unit (s := S2x256) ![1, 0] ![1, 256] inb).toLoadRect g :=
  scratch_miss10 M inb inb' (fun _ => rfl) squeezes_S1x256_S256 g w

end Scratch

/-- The rows stored into the first output block are the same at any two start contents of the scratch. -/
theorem run0_indep_self (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec F S8x1 .i32) (x1 : Vec F S8x16 .i32) (fh0 : HbBuf0 (F := F) c hbM0) (fs0 fs0' : BufTy.Contents (Elt F) arg6.view.ty)
    (hx0 : ∀ j, (x0 j).toNat < 100000) (hx1 : ∀ j, (x1 j).toNat < 100000) :
    (kernelRun0 (F := F) c i arg1 harg1 arg2 harg2 arg4 harg4 arg5 harg5 arg6 harg6 x0 x1 fh0 fs0 hx0 hx1).1
      = (kernelRun0 (F := F) c i arg1 harg1 arg2 harg2 arg4 harg4 arg5 harg5 arg6 harg6 x0 x1 fh0 fs0' hx0 hx1).1 := by
  unfold kernelRun0
  dsimp only
  repeat (run_rows_once; try simp only [scratch_hit', scratch_miss01', scratch_miss10'])
  first | done | rfl
set_option maxHeartbeats 0 in
/-- The rows stored into the second output block are the same at any two start contents of the scratch. -/
theorem run0_indep_mean (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec F S8x1 .i32) (x1 : Vec F S8x16 .i32) (fh0 : HbBuf0 (F := F) c hbM0) (fs0 fs0' : BufTy.Contents (Elt F) arg6.view.ty)
    (hx0 : ∀ j, (x0 j).toNat < 100000) (hx1 : ∀ j, (x1 j).toNat < 100000) :
    (kernelRun0 (F := F) c i arg1 harg1 arg2 harg2 arg4 harg4 arg5 harg5 arg6 harg6 x0 x1 fh0 fs0 hx0 hx1).2.1
      = (kernelRun0 (F := F) c i arg1 harg1 arg2 harg2 arg4 harg4 arg5 harg5 arg6 harg6 x0 x1 fh0 fs0' hx0 hx1).2.1 := by
  unfold kernelRun0
  dsimp only
  repeat (run_rows_once; try simp only [scratch_hit', scratch_miss01', scratch_miss10'])
  first | done | rfl

end Cert.Kernel.Hand

end
-- ==== Proof.K.Body0.lean ====
/-
  The gather region's proof data and its body obligation.  At grid point `t` the two index windows hold rows
  8t … 8t+7 of the node column and of the neighbour table, staged in SMEM; the two output windows receive the own rows
  and the neighbour means of those eight batch rows.  Between points nothing is in flight: the region's invariant keeps
  the scratch rows at some contents, the two copy semaphores at zero and the feature table whole at its entry contents.
  The body's side conditions (each row number inside the table) hold because every word of both index arrays is below
  100000.
-/
import proofs.«402250_j36103495090682_1_alg».proof.Proof.K.Indep0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Every word of the node column and of the neighbour table, as the region finds them, is below 100000. -/
def Hyp0 : Prop :=
  ∀ c : Dev nD, (∀ i, (V c main_v0 i).toNat < 100000) ∧ (∀ i, (V c main_arg1 i).toNat < 100000)

variable (hV : Hyp0 V)

include hV in
/-- So is every word of an index block: a block's word is a word of its array. -/
theorem iblk0_0_lt (c : Dev nD) (t : Fin cfg0.N) : ∀ j, (iblk0 V c 0 t j).toNat < 100000 := fun j => by
  unfold iblk0; rw [View.read_apply, cast_eq]; exact (hV c).1 _
include hV in
theorem iblk0_1_lt (c : Dev nD) (t : Fin cfg0.N) : ∀ j, (iblk0 V c 1 t j).toNat < 100000 := fun j => by
  unfold iblk0; rw [View.read_apply, cast_eq]; exact (hV c).2 _

/-! ## The staging memrefs, the own semaphores, the table -/

abbrev VO0_2 : View sig .tc .vmem S8x256 .f32 := (Memref.whole cc0_stg2_0 : Memref sig .tc .vmem S8x256 .f32).view
abbrev VO0_3 : View sig .tc .vmem S8x256 .f32 := (Memref.whole cc0_stg3_0 : Memref sig .tc .vmem S8x256 .f32).view
abbrev ms0_0 (t : Fin cfg0.N) : Memref sig .tc .smem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8x16 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)

/-- The body's two copy semaphores. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The operand left in HBM that the body copies from: the feature table. -/
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V c b) : sProp 𝕄) = iprop(hbPt0 c hbM0 (V c main_arg2)) := by
  rw [BI.bigSep_eq_bigSepL_of_eq [main_arg2] (by decide) (by decide)]; rfl

/-- The region's invariant conjunct by conjunct. -/
theorem PhiD0_eq (c : Dev nD) :
    (Pipeline.ΦD osem0 spec0 H0 V c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r) ∗ iprop(semVal ((c : Thread nD τ), SemLoc.dma 8) 0 ∗ semVal ((c : Thread nD τ), SemLoc.dma 9) 0) ∗ iprop(hbPt0 c hbM0 (V c main_arg2))) := by
  rw [Pipeline.ΦD_eq, scopedRest0_eq, ownSems00_eq, hbmPts0_eq]; simp only [scM0, owns_whole]; try rfl

/-! ## What the outputs hold after each point -/

/-- The run at point `t`: on the point's staging memrefs, the index blocks and the table as the region finds them, the
    scratch rows at start contents `fs` (which the run's pieces do not depend on: every row the body loads has been
    copied there first). -/
abbrev runAt0 (c : Dev nD) (t : Fin cfg0.N) (fs : BufTy.Contents (Elt F) (scM0 : Memref sig .tc .vmem S2x256 .f32).view.ty) :=
  kernelRun0 (F := F) c (grid0.coords t) (ms0_0 t) (hs0_0 t) (ms0_1 t) (hs0_1 t) (ms0_2 t) (hs0_2 t) (ms0_3 t) (hs0_3 t) scM0 (Memref.isWhole_whole _)
    (iblk0 V c 0 t) (iblk0 V c 1 t) (V c main_arg2) fs (iblk0_0_lt V hV c t) (iblk0_1_lt V hV c t)
/-- A fixed start contents, at which the outputs are named. -/
abbrev fsJ : BufTy.Contents (Elt F) (scM0 : Memref sig .tc .vmem S2x256 .f32).view.ty := (scM0 : Memref sig .tc .vmem S2x256 .f32).view.junk
theorem runAt0_indep_self (c : Dev nD) (t : Fin cfg0.N) (fs fs' : BufTy.Contents (Elt F) (scM0 : Memref sig .tc .vmem S2x256 .f32).view.ty) :
    (runAt0 V hV c t fs).1 = (runAt0 V hV c t fs').1 := run0_indep_self ..
theorem runAt0_indep_mean (c : Dev nD) (t : Fin cfg0.N) (fs fs' : BufTy.Contents (Elt F) (scM0 : Memref sig .tc .vmem S2x256 .f32).view.ty) :
    (runAt0 V hV c t fs).2.1 = (runAt0 V hV c t fs').2.1 := run0_indep_mean ..

/-- The run's pieces tile each output block in rows (eight row stores each), so they cover it. -/
theorem cover0_2 (c : Dev nD) (t : Fin cfg0.N) (fs) (y : S8x256.Idx) : ∃ pc ∈ (runAt0 V hV c t fs).1, y ∈ pc.1.set :=
  View.cover_of_tiledL (runAt0 V hV c t fs).1 S1x256.size (by sl_kernel_rfl) y
theorem cover0_3 (c : Dev nD) (t : Fin cfg0.N) (fs) (y : S8x256.Idx) : ∃ pc ∈ (runAt0 V hV c t fs).2.1, y ∈ pc.1.set :=
  View.cover_of_tiledL (runAt0 V hV c t fs).2.1 S1x256.size (by sl_kernel_rfl) y

/-- What the run leaves in the two output blocks: its pieces read back over junk. -/
def out0_2 (c : Dev nD) (t : Fin cfg0.N) : Vec F S8x256 .f32 :=
  VO0_2.read (Elt F) (VO0_2.writes (Elt F) VO0_2.junk (runAt0 V hV c t fsJ).1)
def out0_3 (c : Dev nD) (t : Fin cfg0.N) : Vec F S8x256 .f32 :=
  VO0_3.read (Elt F) (VO0_3.writes (Elt F) VO0_3.junk (runAt0 V hV c t fsJ).2.1)

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 V hV c t
    | ⟨3, _⟩ => out0_3 V hV c t
  Φ _ := Pipeline.ΦD osem0 spec0 H0 V c
  q _ := fullShare
  owed _ := 0

theorem A_eq0 (c : Dev nD) (w : Fin cfg0.W) : (dat0 V hV c).A w = V c (Pipeline.arrRef spec0 w) := by
  dsimp only [dat0]
theorem after0_0 (c : Dev nD) (t : Fin cfg0.N) : (dat0 V hV c).after 0 t = iblk0 V c 0 t := by dsimp only [dat0]
theorem after0_1 (c : Dev nD) (t : Fin cfg0.N) : (dat0 V hV c).after 1 t = iblk0 V c 1 t := by dsimp only [dat0]
theorem after0_2 (c : Dev nD) (t : Fin cfg0.N) : (dat0 V hV c).after 2 t = out0_2 V hV c t := by dsimp only [dat0]
theorem after0_3 (c : Dev nD) (t : Fin cfg0.N) : (dat0 V hV c).after 3 t = out0_3 V hV c t := by dsimp only [dat0]
theorem before0_0 (c : Dev nD) (t : Fin cfg0.N) (d) : (dat0 V hV c).before 0 t d = iblk0 V c 0 t :=
  before0_0_of V (dat0 V hV c) (A_eq0 V hV c 0) (after0_0 V hV c) t d
theorem before0_1 (c : Dev nD) (t : Fin cfg0.N) (d) : (dat0 V hV c).before 1 t d = iblk0 V c 1 t :=
  before0_1_of V (dat0 V hV c) (A_eq0 V hV c 1) (after0_1 V hV c) t d

/-! ## The body obligation -/

def bodyPre0 (c : Dev nD) (t : Fin cfg0.N) : sProp 𝕄 :=
  iprop((dat0 V hV c).Φ t.castSucc ∗ (dat0 V hV c).owesAt () t.castSucc
    ∗ (∃ d, owns (c : Thread nD τ) (ms0_0 t) fullShare ((dat0 V hV c).before 0 t d))
    ∗ (∃ d, owns (c : Thread nD τ) (ms0_1 t) fullShare ((dat0 V hV c).before 1 t d))
    ∗ (∃ d, owns (c : Thread nD τ) (ms0_2 t) fullShare ((dat0 V hV c).before 2 t d))
    ∗ (∃ d, owns (c : Thread nD τ) (ms0_3 t) fullShare ((dat0 V hV c).before 3 t d)))

def bodyPost0 (c : Dev nD) (t : Fin cfg0.N) : sProp 𝕄 :=
  iprop((dat0 V hV c).Φ t.succ ∗ (dat0 V hV c).owesAt () t.succ
    ∗ owns (c : Thread nD τ) (ms0_0 t) fullShare ((dat0 V hV c).after 0 t)
    ∗ owns (c : Thread nD τ) (ms0_1 t) fullShare ((dat0 V hV c).after 1 t)
    ∗ owns (c : Thread nD τ) (ms0_2 t) fullShare ((dat0 V hV c).after 2 t)
    ∗ owns (c : Thread nD τ) (ms0_3 t) fullShare ((dat0 V hV c).after 3 t))

theorem sound_body0 (c : Dev nD) (t : Fin cfg0.N) :
    bodyPre0 V hV c t ⊢ wp frame (wpE (defs₀ (F := F)) Variants.none c none) Set.univ (bodyAt0 t) (fun _ => bodyPost0 V hV c t) := by
  unfold bodyPre0 bodyPost0 bodyAt0
  simp only [before0_0, before0_1]
  rw [show (dat0 V hV c).Φ t.succ = (dat0 V hV c).Φ t.castSucc from rfl,
    after0_0, after0_1, after0_2, after0_3]
  rw [show (dat0 V hV c).Φ t.castSucc = Pipeline.ΦD osem0 spec0 H0 V c from rfl, PhiD0_eq]
  unfold Dat.owesAt Pipeline.owesWithin
  rw [show (dat0 V hV c).owed t.castSucc = 0 from rfl, show (dat0 V hV c).owed t.succ = 0 from rfl]
  unfold out0_2 out0_3
  iintro ⟨⟨⟨⟨%ds0, HS0⟩, HR1, HR2, HR3, HR4, HR5⟩, Hg, ⟨Hq0, Hq1⟩, Hh0⟩, ⟨%W, -, HW⟩, ⟨%d0, H0⟩, ⟨%d1, H1⟩, ⟨%d2, H2⟩, ⟨%d3, H3⟩⟩
  ihave HS0' := (show (owns (c : Thread nD τ) (scM0 : Memref sig .tc .vmem S2x256 .f32) fullShare ds0 : sProp 𝕄)
      ⊢ iprop(∃ f, ⌜(scM0 : Memref sig .tc .vmem S2x256 .f32).view.read (Elt F) f = ds0⌝ ∗ (scM0 : Memref sig .tc .vmem S2x256 .f32).view.loc (c : Thread nD τ) ↦[(scM0 : Memref sig .tc .vmem S2x256 .f32).view.set]{fullShare} f) from by unfold owns; exact .rfl) $$ HS0
  icases HS0' with ⟨%fs0, -, HS0⟩
  iapply ((runAt0 V hV c t fs0).2.2 W _)
  isplitl [H0]; · iexact H0
  isplitl [H1]; · iexact H1
  isplitl [H2]; · iexists _; iexact H2
  isplitl [H3]; · iexists _; iexact H3
  isplitl [HS0]; · iexact HS0
  isplitl [Hq0]; · iexact Hq0
  isplitl [Hq1]; · iexact Hq1
  isplitl [Hh0]; · iexact Hh0
  isplitl [HW]; · iexact HW
  iintro ⟨H0, H1, ⟨%e2, H2⟩, ⟨%e3, H3⟩, HS0, Hq0, Hq1, Hh0, ⟨%W', HW'⟩⟩
  isplitl [HS0 HR1 HR2 HR3 HR4 HR5 Hg Hq0 Hq1 Hh0]
  · isplitl [HS0 HR1 HR2 HR3 HR4 HR5]
    · isplitl [HS0]; · iexact HS0
      isplitl [HR1]; · iexact HR1
      isplitl [HR2]; · iexact HR2
      isplitl [HR3]; · iexact HR3
      isplitl [HR4]; · iexact HR4
      iexact HR5
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro
    exact (View.read_writes_of_cover _ _ _ _ _ (cover0_2 V hV c t fs0)).trans
      (congrArg (fun L => VO0_2.read (Elt F) (VO0_2.writes (Elt F) VO0_2.junk L)) (runAt0_indep_self V hV c t fs0 fsJ))
  unfold owns; iexists _; isplitr
  swap; · iexact H3
  ipureintro
  exact (View.read_writes_of_cover _ _ _ _ _ (cover0_3 V hV c t fs0)).trans
    (congrArg (fun L => VO0_3.read (Elt F) (VO0_3.writes (Elt F) VO0_3.junk L)) (runAt0_indep_mean V hV c t fs0 fsJ))

set_option maxRecDepth 200000 in
theorem body_obligation0 (c : Dev nD) : BodyObligation (dat0 (F := F) V hV c) (defs₀ (F := F)) Variants.none () Set.univ := fun t => by
  rw [bigSep_W0, bigSep_W0]
  exact sound_body0 V hV c t

end Cert.Kernel.Hand

end
-- ==== Proof.K.Body1.lean ====
/-
  The second kernel's body at a grid point.  The point holds the whole 512×512 weight block W, one 4096×512 block X of the
  input rows and one 512×4096 block of the result.  The body reads W and X whole, forms max (W · Xᵀ) 0 entry by entry,
  reads the result block (the value read is not used) and overwrites the result block whole with max (W · Xᵀ) 0.
  The run is made once over symbolic block contents; what it leaves in the result block is the one piece it finds, and
  that piece is the payload of the two input blocks.
-/
import proofs.«402250_j36103495090682_1_alg».proof.Proof.Gen.Kernel.Launch
import proofs.«402250_j36103495090682_1_alg».proof.Proof.Gen.Kernel.Skeleton
import proofs.«402250_j36103495090682_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body on any whole staging memrefs -/

set_option maxHeartbeats 1000000 in
/-- The body's run: the weight block at contents `x0`, the input block at `x1`, the result block at anything; it ends
    with the two input blocks as they were and the result block with the run's pieces written over what it held. -/
noncomputable def kernelRun1 (c : Dev nD) (i : grid1.Coords)
    (arg1 : Memref sig .tc .vmem S512x512 .bf16) (harg1 : arg1.IsWhole)
    (arg2 : Memref sig .tc .vmem S4096x512 .bf16) (harg2 : arg2.IsWhole)
    (arg3 : Memref sig .tc .vmem S512x4096 .f32) (harg3 : arg3.IsWhole)
    (x0 : Vec F S512x512 .bf16) (x1 : Vec F S4096x512 .bf16) :
    { L : List (View.Piece (Elt F) S512x4096 .f32) //
      ∀ (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) Set.univ (cc1__matmul_kernel i arg1 harg1 arg2 harg2 arg3 harg3) K } := by
  refine ⟨?_, fun K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces cover the result block: one store of the whole block. -/
theorem cover1 (c : Dev nD) (i : grid1.Coords)
    (arg1 : Memref sig .tc .vmem S512x512 .bf16) (harg1 : arg1.IsWhole)
    (arg2 : Memref sig .tc .vmem S4096x512 .bf16) (harg2 : arg2.IsWhole)
    (arg3 : Memref sig .tc .vmem S512x4096 .f32) (harg3 : arg3.IsWhole)
    (x0 : Vec F S512x512 .bf16) (x1 : Vec F S4096x512 .bf16) (y : S512x4096.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S512x4096.size (by sl_kernel_rfl) y

/-! ## The region's proof data at the entry contents -/

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One staging buffer of the result window, through which its contents are stated (any whole view reads the same). -/
abbrev VO1 : View sig .tc .vmem S512x4096 .f32 := (Memref.whole cc1_stg2_0 : Memref sig .tc .vmem S512x4096 .f32).view
/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .f32 := win1_2.stage (cfg1.slots t 2)
abbrev hs1_2 (t : Fin cfg1.N) : (ms1_2 t).IsWhole := hstage1_2 ((cfg1.slots t 2).cast nbuf1_2)

/-- What the body leaves in the result window's staging buffer at point `t`: the run's pieces, at the point's
    memrefs and input blocks, read back over anything. -/
def out1 (c : Dev nD) (t : Fin cfg1.N) : Vec F S512x4096 .f32 :=
  VO1.read (Elt F) (VO1.writes (Elt F) VO1.junk
    (kernelRun1 c (grid1.coords t) (ms1_0 t) (hs1_0 t) (ms1_1 t) (hs1_1 t) (ms1_2 t) (hs1_2 t) (iblk1 V c 0 t) (iblk1 V c 1 t)).1)

/-- The proof data of the pipeline on core `c`: the arrays as the region finds them; after the body at point `t` each
    input's buffer at its block and the result's at `out1`; the invariant the scoped rest and the random-number register,
    untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- The weight window's staging buffer holds the weight block at every point: fetched at the first point, and left in
    place by the body while the block index stays where it is. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The input window's staging buffer holds the point's block of input rows: fetched at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' memrefs hold their blocks, so the run applies; the invariant and the core's
    debts pass through unread; the result's buffer ends at the run's pieces, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Main.lean ====
/-
  The whole program's run.  @main is: one host operation (the batch's node indices laid out as a column), the gather
  kernel's region, three stretches of host operations (the two gathered arrays laid side by side; the result padded from
  20000 to 20480 rows; both operands of the product narrowed, the two encoders stacked), the product kernel's region, and
  three slices.  The buffers' contents are followed boundary by boundary from the launch memory: a host stretch applies its
  operations, a region leaves each of its arrays at what its write-backs fold to and every other buffer as it found it.
  Every weakly fair execution terminates with every unscoped buffer at the last boundary's contents.
-/
import proofs.«402250_j36103495090682_1_alg».proof.Proof.K.Body0
import proofs.«402250_j36103495090682_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host operation: the gather region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

variable (hV : Hyp0 (V1 m ρ))

/-- At the gather region's exit: its arrays at what the write-backs fold to, the rest as entered. -/
def W2 (c : Dev nD) : Valuation τ sig (Elt F) :=
  Pipeline.withArrays spec0 c (W1 m ρ c) fun w => (dat0 (V1 m ρ) hV c).arrAt w cfg0.N
theorem W2_arr (c : Dev nD) (w : Fin cfg0.W) :
    W2 m ρ hV c (Proc.devRef .tc (Pipeline.arrRef spec0 w)) = (dat0 (V1 m ρ) hV c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ hV c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hV c b
theorem hF0 (c : Dev nD) (w : Fin cfg0.W) : (dat0 (V1 m ρ) hV c).arrAt w cfg0.N = V2 m ρ hV c (Pipeline.arrRef spec0 w) :=
  (W2_arr m ρ hV c w).symm
theorem hrest0 (c : Dev nD) : ∀ b, b ∉ Finset.univ.image (Pipeline.arrRef spec0) → V2 m ρ hV c b = V1 m ρ c b :=
  fun b hb => W2_of_ne m ρ hV c b fun w e => hb (Finset.mem_image.mpr ⟨w, Finset.mem_univ _, e⟩)

/-- After the three host stretches between the regions: the product region's entry. -/
abbrev W3 : Dev nD → Valuation τ sig (Elt F) := fun c => StableHlo.after hostOps1 (W2 m ρ hV c)
abbrev W4 : Dev nD → Valuation τ sig (Elt F) := fun c => StableHlo.after hostOps1_1 (W3 m ρ hV c)
abbrev W5 : Dev nD → Valuation τ sig (Elt F) := fun c => StableHlo.after hostOps1_2 (W4 m ρ hV c)
abbrev V5 : (c : Dev nD) → (b : Ref sig .tc) → Buf (Elt F) ((c : Thread nD τ).loc b) := fun c b => W5 m ρ hV c b

/-- At the product region's exit. -/
def W6 (c : Dev nD) : Valuation τ sig (Elt F) :=
  Pipeline.withArrays spec1 c (W5 m ρ hV c) fun w => (dat1 (V5 m ρ hV) c).arrAt w cfg1.N
theorem W6_arr (c : Dev nD) (w : Fin cfg1.W) :
    W6 m ρ hV c (Proc.devRef .tc (Pipeline.arrRef spec1 w)) = (dat1 (V5 m ρ hV) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ hV c (Proc.devRef .tc b) = W5 m ρ hV c (Proc.devRef .tc b) := by
  unfold W6; exact Pipeline.withArrays_of_ne spec1 c _ _ b hb
abbrev V6 : (c : Dev nD) → (b : Ref sig .tc) → Buf (Elt F) ((c : Thread nD τ).loc b) := fun c b => W6 m ρ hV c b
theorem hF1 (c : Dev nD) (w : Fin cfg1.W) : (dat1 (V5 m ρ hV) c).arrAt w cfg1.N = V6 m ρ hV c (Pipeline.arrRef spec1 w) :=
  (W6_arr m ρ hV c w).symm
theorem hrest1 (c : Dev nD) : ∀ b, b ∉ Finset.univ.image (Pipeline.arrRef spec1) → V6 m ρ hV c b = V5 m ρ hV c b :=
  fun b hb => W6_of_ne m ρ hV c b fun w e => hb (Finset.mem_image.mpr ⟨w, Finset.mem_univ _, e⟩)

/-- After the three slices: the end. -/
abbrev W7 : Dev nD → Valuation τ sig (Elt F) := fun c => StableHlo.after hostOps2 (W6 m ρ hV c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) hV c
  | ⟨1, _⟩ => fun c => dat1 (V5 m ρ hV) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ hV c) ∗ ∃ r, prngReg c r)

/-! ## The regions as segments -/

set_option backward.isDefEq.respectTransparency.types false in
/-- The gather region: entered from every unscoped buffer at `W1`, left at `W2`.  Its arrays are split out of the
    unscoped buffers and put back at the exit contents; the generator register, the two copy semaphores (at zero from the
    boundary and back) and the feature table (split out of the bypassing buffers and rejoined) pass through its invariant. -/
def reg0 : Pipeline.RegionSeg (pcfgs (F := F)) adm (pdats m ρ hV) () defs₀ 𝒱₀ L lv 0 where
  win := launch0.win.to₀
  block_pos := launch0.block_pos
  stage_whole := launch0.stage_whole
  K := Fin 2
  osem := osem0
  ho := ownSemFacts0
  hbody c := (body_obligation0 (V1 m ρ) hV c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hV c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m ρ c b))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) adm (pdats m ρ hV) launch0.win launch0.arr_whole c
      ((pdats m ρ hV 0 c).share_full fun _ => rfl) (V1 m ρ c) fun _ => rfl
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hV 0 c).Φ 0 = Pipeline.ΦD osem0 spec0 H0 (V1 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ hV 0 c).Φ (Fin.last _) = Pipeline.ΦD osem0 spec0 H0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hV) ((pdats m ρ hV 0 c).share_full fun _ => rfl)
      (V1 m ρ c) (V2 m ρ hV c) ((pdats m ρ hV 0 c).arrAt · cfg0.N) (hF0 m ρ hV c) (hrest0 m ρ hV c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered from every unscoped buffer at `W5`, left at `W6`; only the generator register passes
    through its invariant; it has no semaphore of its own. -/
def reg1 : Pipeline.RegionSeg (pcfgs (F := F)) adm (pdats m ρ hV) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ hV) c).loose
  hwaits := Pipeline.hwaits_of_owed_zero _ _ _ _ L lv 1 fun _ _ => rfl
  pre c := iprop(StableHlo.held (c : Thread nD τ) (Pipeline.ucRefs τ sig) (W5 m ρ hV c) ∗ R c)
  post c := iprop(StableHlo.held (c : Thread nD τ) (Pipeline.ucRefs τ sig) (W6 m ρ hV c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ hV c)
  hentry c := by
    rw [Pipeline.ownSems0_none]
    have hsplit := Pipeline.arrays_of_unscopedBufs (p := 1) (pcfgs (F := F)) adm (pdats m ρ hV) launch1.win launch1.arr_whole c
      ((pdats m ρ hV 1 c).share_full fun _ => rfl) (V5 m ρ hV c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hV 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hV 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hV) ((pdats m ρ hV 1 c).share_full fun _ => rfl)
      (V5 m ρ hV c) (V6 m ρ hV c) ((pdats m ρ hV 1 c).arrAt · cfg1.N) (hF1 m ρ hV c) (hrest1 m ρ hV c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev segs : List (Pipeline.Seg (pcfgs (F := F)) adm (pdats m ρ hV) () defs₀ 𝒱₀ L lv) :=
  [ .host (hseg hostOps0 hostOps0_sub hostOps0_fresh (W0 m ρ)),
    .region (reg0 m ρ hV),
    .host (hseg hostOps1 hostOps1_sub hostOps1_fresh (W2 m ρ hV)),
    .host (hseg hostOps1_1 hostOps1_1_sub hostOps1_1_fresh (W3 m ρ hV)),
    .host (hseg hostOps1_2 hostOps1_2_sub hostOps1_2_fresh (W4 m ρ hV)),
    .region (reg1 m ρ hV),
    .host (hseg hostOps2 hostOps2_sub hostOps2_fresh (W6 m ρ hV)) ]

theorem main_run (c : Dev nD) : main (F := F) c = Pipeline.Seg.run (segs m ρ hV) := (main_chain c).trans (by chain_rfl)

set_option backward.isDefEq.respectTransparency.types false in
/-- Every weakly fair execution of @main from `m` terminates, nothing faulting, with every unscoped buffer at `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ hV c b) :=
  Pipeline.θ_run_regions_kit (pcfgs (F := F)) adm (pdats m ρ hV) () cellOf_inj embL defs₀ 𝒱₀ L lv m ρ main (segs m ρ hV)
    (fun c Q => by rw [main_run m ρ hV c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hV)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ hV c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ hV c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ hV c) s')
      isplitl [Hh] <;> iassumption)
    (hQ := fun s h c => h c)

end Cert.Kernel.Hand

end
-- ==== Proof.K.Args.lean ====
/-
  The arguments end as launched, and the frame.  No host operation writes an argument and no region changes one: the
  gather region reads the neighbour table through an input window (whose array the pipeline leaves as it found it) and
  the feature table in place; every other argument bypasses both regions.  So the last boundary's contents at an
  argument walk back to the launch memory.  The gather region's side conditions hold when every word of the two index
  arguments is below 100000: the node column is the node vector laid out as a column, word for word.
-/
import proofs.«402250_j36103495090682_1_alg».proof.Proof.K.Main
import proofs.«402250_j36103495090682_1_alg».proof.Proof.Gen.Kernel.Regions
import Idealize.ShloMosaic.Lib.Pipeline.Value
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The gather region's hypothesis from the index arguments' bounds -/

/-- The node column at the gather region's entry is the node vector reshaped. -/
theorem V1_main_v0 (c : Dev nD) :
    (Hand.V1 m ρ c main_v0 : S20000x1.Idx → BitVec 32)
      = shapeCast S20000x1 (m ((c.tc : Thread nD τ).loc main_arg0) : S20000.Idx → BitVec 32) shapeCasts_S20000_S20000x1 := by
  show StableHlo.after hostOps0 (Hand.W0 m ρ c) (Proc.devRef .tc main_v0) = _
  after_results; rfl

/-- The neighbour table at the gather region's entry is the argument. -/
theorem V1_main_arg1 (c : Dev nD) : Hand.V1 m ρ c main_arg1 = m ((c.tc : Thread nD τ).loc main_arg1) :=
  StableHlo.after_of_writes_sub hostOps0 _ Gen.hostOps0_writes (by decide)

theorem hyp0_of
    (h0 : ∀ (c : Dev nD) (i : S20000.Idx), (m ((c.tc : Thread nD τ).loc main_arg0) i).toNat < 100000)
    (h1 : ∀ (c : Dev nD) (i : S20000x16.Idx), (m ((c.tc : Thread nD τ).loc main_arg1) i).toNat < 100000) :
    Hyp0 (Hand.V1 m ρ) := fun c => by
  refine ⟨fun i => ?_, fun i => ?_⟩
  · rw [V1_main_v0 m ρ c]; unfold shapeCast; exact h0 c _
  · rw [V1_main_arg1 m ρ c]; exact h1 c i

/-! ## The arguments at the last boundary -/

variable (hV : Hyp0 (Hand.V1 m ρ))

/-- A buffer no host operation writes and that is no window's array of either region holds its launch contents at the end. -/
theorem W7_of_bypass (c : Dev nD) (r : Ref sig .tc)
    (h0 : r ∉ Gen.hostOps0_W) (h1 : r ∉ Gen.hostOps1_W) (h2 : r ∉ Gen.hostOps1_1_W) (h3 : r ∉ Gen.hostOps1_2_W) (h4 : r ∉ Gen.hostOps2_W)
    (ha0 : ∀ w, Pipeline.arrRef spec0 w ≠ r) (ha1 : ∀ w, Pipeline.arrRef spec1 w ≠ r) :
    Hand.W7 m ρ hV c (Proc.devRef .tc r) = m ((c.tc : Thread nD τ).loc r) :=
  calc Hand.W7 m ρ hV c (Proc.devRef .tc r)
    _ = Hand.W6 m ρ hV c (Proc.devRef .tc r) := StableHlo.after_of_writes_sub hostOps2 _ Gen.hostOps2_writes h4
    _ = Hand.W5 m ρ hV c (Proc.devRef .tc r) := W6_of_ne m ρ hV c r ha1
    _ = Hand.W4 m ρ hV c (Proc.devRef .tc r) := StableHlo.after_of_writes_sub hostOps1_2 _ Gen.hostOps1_2_writes h3
    _ = Hand.W3 m ρ hV c (Proc.devRef .tc r) := StableHlo.after_of_writes_sub hostOps1_1 _ Gen.hostOps1_1_writes h2
    _ = Hand.W2 m ρ hV c (Proc.devRef .tc r) := StableHlo.after_of_writes_sub hostOps1 _ Gen.hostOps1_writes h1
    _ = Hand.W1 m ρ c (Proc.devRef .tc r) := W2_of_ne m ρ hV c r ha0
    _ = Hand.W0 m ρ c (Proc.devRef .tc r) := StableHlo.after_of_writes_sub hostOps0 _ Gen.hostOps0_writes h0
    _ = m ((c.tc : Thread nD τ).loc r) := rfl

theorem W7_main_arg0 (c : Dev nD) : Hand.W7 m ρ hV c (Proc.devRef .tc main_arg0) = m ((c.tc : Thread nD τ).loc main_arg0) :=
  W7_of_bypass m ρ hV c main_arg0 (by decide) (by decide) (by decide) (by decide) (by decide) (by decide) (by decide)
theorem W7_main_arg2 (c : Dev nD) : Hand.W7 m ρ hV c (Proc.devRef .tc main_arg2) = m ((c.tc : Thread nD τ).loc main_arg2) :=
  W7_of_bypass m ρ hV c main_arg2 (by decide) (by decide) (by decide) (by decide) (by decide) (by decide) (by decide)
theorem W7_main_arg3 (c : Dev nD) : Hand.W7 m ρ hV c (Proc.devRef .tc main_arg3) = m ((c.tc : Thread nD τ).loc main_arg3) :=
  W7_of_bypass m ρ hV c main_arg3 (by decide) (by decide) (by decide) (by decide) (by decide) (by decide) (by decide)
theorem W7_main_arg4 (c : Dev nD) : Hand.W7 m ρ hV c (Proc.devRef .tc main_arg4) = m ((c.tc : Thread nD τ).loc main_arg4) :=
  W7_of_bypass m ρ hV c main_arg4 (by decide) (by decide) (by decide) (by decide) (by decide) (by decide) (by decide)

/-- The neighbour table is the gather region's second input window: the pipeline leaves an input's array as it found it. -/
theorem W7_main_arg1 (c : Dev nD) : Hand.W7 m ρ hV c (Proc.devRef .tc main_arg1) = m ((c.tc : Thread nD τ).loc main_arg1) :=
  calc Hand.W7 m ρ hV c (Proc.devRef .tc main_arg1)
    _ = Hand.W6 m ρ hV c (Proc.devRef .tc main_arg1) := StableHlo.after_of_writes_sub hostOps2 _ Gen.hostOps2_writes (by decide)
    _ = Hand.W5 m ρ hV c (Proc.devRef .tc main_arg1) := W6_of_ne m ρ hV c main_arg1 (by decide)
    _ = Hand.W4 m ρ hV c (Proc.devRef .tc main_arg1) := StableHlo.after_of_writes_sub hostOps1_2 _ Gen.hostOps1_2_writes (by decide)
    _ = Hand.W3 m ρ hV c (Proc.devRef .tc main_arg1) := StableHlo.after_of_writes_sub hostOps1_1 _ Gen.hostOps1_1_writes (by decide)
    _ = Hand.W2 m ρ hV c (Proc.devRef .tc main_arg1) := StableHlo.after_of_writes_sub hostOps1 _ Gen.hostOps1_writes (by decide)
    _ = Hand.W1 m ρ c (Proc.devRef .tc main_arg1) := (W2_arr m ρ hV c 1).trans (((dat0 (Hand.V1 m ρ) hV c).arrAt_in 1 rfl _).trans (A_eq0 (Hand.V1 m ρ) hV c 1))
    _ = m ((c.tc : Thread nD τ).loc main_arg1) := V1_main_arg1 m ρ c

/-! ## The frame -/

/-- Every weakly fair execution terminates, nothing faulting, with the five argument arrays as launched. -/
theorem frame (hV : Hyp0 (Hand.V1 m ρ)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ hV c),
     (h c _ (mem_uc main_arg1 (by decide))).trans (W7_main_arg1 m ρ hV c),
     (h c _ (mem_uc main_arg2 (by decide))).trans (W7_main_arg2 m ρ hV c),
     (h c _ (mem_uc main_arg3 (by decide))).trans (W7_main_arg3 m ρ hV c),
     (h c _ (mem_uc main_arg4 (by decide))).trans (W7_main_arg4 m ρ hV c)⟩) (run_all m ρ hV)

end Cert.Kernel.Hand

end
-- ==== Proof.KI.Run0.lean ====
/-
  The gather kernel's body on any staging memrefs.  One grid point serves eight batch rows: for each row it copies the
  sixteen neighbour rows and then the row's own feature row out of the feature table (left in HBM) into a two-row scratch,
  one copy in flight while the previous row is read, adds the sixteen neighbour rows up, and stores the own row into the
  first output block and the sum times 1/16 into the second.  Each copy's source row is a word of an index block held in
  SMEM; the body assumes that the word names a row of the table, which holds when every word of the two index blocks is
  below 100000.  The run is made once, over symbolic contents of the index blocks and of the table; what it leaves in the
  two output blocks is the pair of piece lists it finds.
-/
import proofs.«402250_j36103495090682_1_alg».proof.Proof.Gen.KernelIdeal.Launch
import proofs.«402250_j36103495090682_1_alg».proof.Proof.Gen.KernelIdeal.Skeleton
import proofs.«402250_j36103495090682_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A word below the table's row count names a row inside the table: the side condition each copy's source slice takes. -/
theorem inb_of_lt (v : BitVec 32) (h : v.toNat < 100000) :
    ∀ a : Fin 2, (![v.toNat, 0] : Fin 2 → ℕ) a + S1x256.size a ≤ S100000x256.size a := by
  intro a; fin_cases a
  · show v.toNat + 1 ≤ 100000; omega
  · show 0 + 256 ≤ 256; omega

/-- A word read through an index block's whole memref is a word of the block: below 100000 when every word of the block is. -/
theorem word_lt {S : Shape} (arg : Memref sig .tc .smem S .i32) (harg : arg.IsWhole) (x : Vec F S .i32)
    (hx : ∀ j, (x j).toNat < 100000) (R : LoadRect S) (j : R.shape.Idx) :
    (arg.view.readAt (Elt F) R (harg.unread x) j).toNat < 100000 := by
  simp only [View.readAt_apply, Memref.IsWhole.read_unread]; exact hx _

/-- The feature table, whole, as the body is handed it. -/
abbrev hbM0 : Memref sig .tc .hbm S100000x256 .f32 := Memref.whole main_arg2
/-- The scratch rows, whole. -/
abbrev scM0 : Memref sig .tc .vmem S2x256 .f32 := Memref.whole cc0_scratch0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

set_option sl_exec.dmaWindow true in
set_option sl_exec.dmaWindowSet true in
set_option maxHeartbeats 0 in
/-- The body's run: the two index blocks at contents whose every word is below 100000, the output blocks at anything, the scratch rows at `fs0`, the two copy semaphores at zero, the table whole at `fh0`; it ends with the index blocks, the table and
    the semaphores as they were and each output block with its pieces written. -/
noncomputable def kernelRun0 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec F S8x1 .i32) (x1 : Vec F S8x16 .i32) (fh0 : HbBuf0 (F := F) c hbM0) (fs0 : BufTy.Contents (Elt F) arg6.view.ty)
    (hx0 : ∀ j, (x0 j).toNat < 100000) (hx1 : ∀ j, (x1 j).toNat < 100000) :
    Σ' (L2 : List (View.Piece (Elt F) S8x256 .f32)), { L3 : List (View.Piece (Elt F) S8x256 .f32) //
      ∀ (W : Waits sig Unit) (K : PUnit → sProp 𝕄),
        iprop(owns (c : Thread nD τ) arg1 fullShare x0 ∗ owns (c : Thread nD τ) arg2 fullShare x1
            ∗ (∃ d, owns (c : Thread nD τ) arg4 fullShare d) ∗ (∃ d, owns (c : Thread nD τ) arg5 fullShare d) ∗ iprop(arg6.view.loc (c : Thread nD τ) ↦[arg6.view.set]{fullShare} fs0)
            ∗ semVal ((c : Thread nD τ), SemLoc.dma 8) 0 ∗ semVal ((c : Thread nD τ), SemLoc.dma 9) 0 ∗ hbPt0 c hbM0 fh0 ∗ owes (c : Thread nD τ) 0 W
            ∗ (iprop(owns (c : Thread nD τ) arg1 fullShare x0 ∗ owns (c : Thread nD τ) arg2 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ d, owns (c : Thread nD τ) arg6 fullShare d)
                ∗ semVal ((c : Thread nD τ), SemLoc.dma 8) 0 ∗ semVal ((c : Thread nD τ), SemLoc.dma 9) 0 ∗ hbPt0 c hbM0 fh0 ∗ (∃ W', owes (c : Thread nD τ) 0 W')) -∗ K ⟨⟩))
          ⊢ wp frame (wpE (defs₀ (F := F)) Variants.none c none) Set.univ
              (cc0__gather_mean_kernel i arg1 harg1 arg2 harg2 (Memref.whole main_arg2) (Memref.isWhole_whole _) arg4 harg4 arg5 harg5 arg6 harg6 cc0_scratch1) K } := by
  refine ⟨?_, ?_, fun W K => ?run⟩
  case run =>
    simp only [cc0__gather_mean_kernel_eq_skeleton]; unfold cc0__gather_mean_kernel_skel
    unfold owns
    iintro ⟨⟨%f0, %hf0, H0⟩, ⟨%f1, %hf1, H1⟩, ⟨%d2, %f2, -, H2⟩, ⟨%d3, %f3, -, H3⟩, HS0, Hq0, Hq1, Hh0, HW, Hk⟩
    obtain rfl := harg1.eq_unread hf0; obtain rfl := harg2.eq_unread hf1
    sl_exec (disch := (refine inb_of_lt _ (word_lt _ _ _ ?_ _ _); assumption))
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.KernelIdeal.Hand

end
-- ==== Proof.KI.Rows.lean ====
/-
  The gather kernel's payloads as arithmetic.  Every value the kernel computes between a load and a store is built from
  four operations on one-row vectors: a reshape between [1,256] and [256] (which moves no element, so a reshape there and
  back is the identity), an entrywise sum, an entrywise product with the constant row 1/16, and the constant row 0.  So
  each payload, with the reshapes cancelled, is a sum of its accumulator and the rows it takes, or that sum times 1/16,
  or a row itself, or zero.  Last, a sum of sixteen terms added one after the other onto zero is the sum over Fin 16.
-/
import proofs.«402250_j36103495090682_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Hand

open Idealize.ShloMosaic Idealize.SL.Sem Idealize.ShloMosaic.ValueIdx
open Cert.KernelIdeal Cert.KernelIdeal.Gen

/-- Opens every payload of the gather kernel and cancels each reshape against the reshape back. -/
macro "pay_open" : tactic => `(tactic| simp only [
    k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90,
    k0_pay91, k0_pay92, k0_pay93, k0_pay94, k0_pay95,
    shapeCast_shapeCast])

/-- The same inside a hypothesis or everywhere. -/
macro "pay_open" " at " h:ident : tactic => `(tactic| simp only [
    k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90,
    k0_pay91, k0_pay92, k0_pay93, k0_pay94, k0_pay95,
    shapeCast_shapeCast] at $h:ident)

section Generic
variable {F : FTy → Type} [FloatOps F]

/-- The row 1/16. -/
abbrev sixteenth : FVec F S1x256 .f32 := broadcast S1x256 (Scalar.ofBits (F := F) .f32 0x3D800000#32)
/-- The row 0. -/
abbrev zeroRow : FVec F S1x256 .f32 := broadcast S1x256 (Scalar.ofBits (F := F) .f32 0x00000000#32)

/-- An accumulation step over two rows adds them in turn. -/
theorem pay4_fn (acc : FVec F S1x256 .f32) (a b : Vec F S1x256 .f32) : k0_pay4 acc a b = addf (addf acc a) b := by pay_open
/-- An accumulation step over one row adds it. -/
theorem pay5_fn (acc : FVec F S1x256 .f32) (a : Vec F S1x256 .f32) : k0_pay5 acc a = addf acc a := by pay_open
/-- The first step adds the first row onto zero. -/
theorem pay3_fn (a : Vec F S1x256 .f32) : k0_pay3 a = addf zeroRow a := by pay_open
/-- The own row is stored as it was loaded. -/
theorem pay12_fn (a : Vec F S1x256 .f32) : k0_pay12 a = a := by pay_open
/-- The mean's last step: the last row added, then the product with 1/16. -/
theorem pay13_fn (acc : FVec F S1x256 .f32) (a : Vec F S1x256 .f32) : k0_pay13 acc a = mulf (addf acc a) sixteenth := by pay_open
/-- The mean of a finished sum. -/
theorem pay25_fn (acc : FVec F S1x256 .f32) : k0_pay25 acc = mulf acc sixteenth := by pay_open
/-- The own row through the flat shape and back. -/
theorem pay37_36_fn (a : Vec F S1x256 .f32) : k0_pay37 (k0_pay36 a) = a := by pay_open
theorem pay1_95_fn (a : Vec F S1x256 .f32) : k0_pay1 (k0_pay95 a) = a := by pay_open
/-- The accumulator's start. -/
theorem pay14_fn : k0_pay14 (F := F) = zeroRow := by pay_open

end Generic

/-- A source row of a copy: the table's row `w`, cut out and flattened, read at `d` is the table at (w, d). -/
theorem src_row_read {F : FTy → Type} [FloatOps F] (fh : S100000x256.Idx → Elt F .f32) (off : Fin 2 → ℕ) (w : ℕ) (hw : w < 100000)
    (hoff : off = ![w, 0]) (inb : ∀ a, off a + S1x256.size a ≤ S100000x256.size a)
    (h1 : ∀ a, (Rect.unit (s := S100000x256) off S1x256.size inb).stride a = 1)
    (h2 : (Rect.unit (s := S100000x256) off S1x256.size inb).shape.Squeezes S256) (d : Fin 256) :
    (((Memref.whole main_arg2).slice (Rect.unit (s := S100000x256) off S1x256.size inb) h1).squeeze S256 h2).view.read (Elt F) fh (ix1 d)
      = fh (ix2 ⟨w, hw⟩ d) := by
  subst hoff
  rw [Memref.read_squeeze_slice (Memref.whole main_arg2) _ h1 h2 shapeCasts_S1x256_S256 fh]
  refine (shapeCast_1a_a_apply _ _ d).trans ?_
  rw [View.readAt_apply]
  show fh _ = fh _
  refine congrArg fh (funext fun a => Fin.ext ?_)
  match a with
  | ⟨0, _⟩ => show w + 1 * 0 = w; omega
  | ⟨1, _⟩ => show 0 + 1 * d.val = d.val; omega

/-- Sixteen terms added one after the other onto zero: the sum over Fin 16. -/
theorem sum16 {M : Type*} [AddCommMonoid M] (f : Fin 16 → M) :
    0 + f 0 + f 1 + f 2 + f 3 + f 4 + f 5 + f 6 + f 7 + f 8 + f 9 + f 10 + f 11 + f 12 + f 13 + f 14 + f 15 = ∑ k : Fin 16, f k := by
  simp only [Fin.sum_univ_castSucc, Fin.sum_univ_zero]
  rfl

/-- Entry (0, d) of a sum of rows, of a product with the row 1/16 and of the zero row, over the extended reals. -/
theorem addf_at (a b : FVec Ideal S1x256 .f32) (d : Fin 256) : addf a b (ix2 (0 : Fin 1) d) = a (ix2 0 d) + b (ix2 0 d) := rfl
theorem mulf_sixteenth_at (a : FVec Ideal S1x256 .f32) (d : Fin 256) :
    mulf a (sixteenth (F := Ideal)) (ix2 (0 : Fin 1) d) = a (ix2 0 d) * Ideal.ofBits .f32 0x3D800000#32 := rfl
theorem zeroRow_at (d : Fin 256) : zeroRow (F := Ideal) (ix2 (0 : Fin 1) d) = 0 := Ideal.ofBits_zero_f32

end Cert.KernelIdeal.Hand

end
-- ==== Proof.KI.Indep0.lean ====
/-
  The run's piece lists do not depend on what the scratch rows held at the start.  Every row the body loads from the
  scratch was copied into it just before: at the load, the scratch holds the copy into that row, possibly under one later
  copy into the OTHER row, over whatever it held earlier.  A row read through the scratch after a copy into it is the
  copy's payload as a one-row block; a copy into the other row does not change it.  So each loaded row is its copy's
  payload, whatever the scratch held before, and the stored payloads, which are arithmetic of the loaded rows, are the same
  at any two start contents.
-/
import proofs.«402250_j36103495090682_1_alg».proof.Proof.KI.Run0
import proofs.«402250_j36103495090682_1_alg».proof.Proof.KI.Rows
import Idealize.ShloMosaic.Lib.WritesUnit
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (Pipeline.UD sig nD τ) ℕ

open Lean Elab Tactic Meta in
/-- One round of opening, in the goal, the names the run gave to the values it computed: each loaded row and each
    accumulator to its defining term, the copies' payloads left folded and nothing opened inside an opened term. -/
elab "run_rows_once" : tactic => do
  let g ← getMainGoal
  let isRow (n : Name) : Bool :=
    n.components.dropLast.any (· == `sl) && (match n with | .str _ s => !s.startsWith "dma" | _ => false)
  let t ← instantiateMVars (← g.getType)
  let t' ← Core.transform t (pre := fun e => do
    match e.getAppFn with
    | .const n _ =>
      if isRow n then
        match ← delta? e with
        | some e' => return .done e'
        | none => return .continue
      else return .continue
    | _ => return .continue)
  if t' == t then throwError "no name of the run is left to open"
  replaceMainGoal [← g.replaceTargetDefEq t']

section Scratch
variable {Val : EltTy → Type}

/-- A scratch row read back right after the copy into it: the copy's payload, as a one-row block. -/
theorem scratch_hit (M : Memref sig .tc .vmem S2x256 .f32) (off : Fin 2 → ℕ) (inb : ∀ a, off a + S1x256.size a ≤ S2x256.size a)
    (hr : ∀ a, (Rect.unit (s := S2x256) off S1x256.size inb).stride a = 1)
    (hq : (Rect.unit (s := S2x256) off S1x256.size inb).shape.Squeezes S256)
    (g : M.view.ty.Contents Val) (w : S256.Idx → Val .f32) :
    M.view.readAt Val (Rect.unit (s := S2x256) off S1x256.size inb).toLoadRect
        (((M.slice (Rect.unit (s := S2x256) off S1x256.size inb) hr).squeeze S256 hq).view.write Val g w Finset.univ)
      = shapeCast S1x256 w shapeCasts_S256_S1x256 := by
  have e := Memref.read_squeeze_slice M (Rect.unit (s := S2x256) off S1x256.size inb) hr hq shapeCasts_S1x256_S256
    (((M.slice (Rect.unit (s := S2x256) off S1x256.size inb) hr).squeeze S256 hq).view.write Val g w Finset.univ)
  rw [View.read_write_univ] at e
  exact (shapeCast_shapeCast _ shapeCasts_S1x256_S256 shapeCasts_S256_S1x256).symm.trans
    (congrArg (fun z => shapeCast S1x256 z shapeCasts_S256_S1x256) e.symm)

/-- A scratch row read while a copy into the OTHER row has been written: what it held before. -/
theorem scratch_miss (M : Memref sig .tc .vmem S2x256 .f32) (off off' : Fin 2 → ℕ) (a b : ℕ) (hoff : off = ![a, 0]) (hoff' : off' = ![b, 0]) (hab : a ≠ b)
    (inb : ∀ a, off a + S1x256.size a ≤ S2x256.size a) (inb' : ∀ a, off' a + S1x256.size a ≤ S2x256.size a)
    (hr : ∀ a, (Rect.unit (s := S2x256) off' S1x256.size inb').stride a = 1)
    (hq : (Rect.unit (s := S2x256) off' S1x256.size inb').shape.Squeezes S256)
    (g : M.view.ty.Contents Val) (w : S256.Idx → Val .f32) :
    M.view.readAt Val (Rect.unit (s := S2x256) off S1x256.size inb).toLoadRect
        (((M.slice (Rect.unit (s := S2x256) off' S1x256.size inb') hr).squeeze S256 hq).view.write Val g w Finset.univ)
      = M.view.readAt Val (Rect.unit (s := S2x256) off S1x256.size inb).toLoadRect g := by
  subst hoff hoff'
  funext j
  rw [View.readAt_apply, View.readAt_apply]
  have hw := View.write_reshape_univ (v := M.view.slice (Rect.unit (s := S2x256) ![b, 0] S1x256.size inb')) hq.numel_eq g w
  show M.view.read Val (((M.view.slice (Rect.unit (s := S2x256) ![b, 0] S1x256.size inb')).reshape S256 hq.numel_eq).write Val g w Finset.univ) _ = _
  rw [hw]
  refine View.read_slice_write_of_not_mem _ _ _ _ ?_
  rw [Rect.map_emb_univ, Rect.mem_set_unit]
  intro hall
  have h0 := hall 0
  change b ≤ a + 1 * (j 0).val ∧ a + 1 * (j 0).val < b + 1 at h0
  have hj0 : (j 0).val < 1 := (j 0).isLt
  omega

theorem scratch_miss01 (M : Memref sig .tc .vmem S2x256 .f32)
    (inb : ∀ a, (![0, 0] : Fin 2 → ℕ) a + S1x256.size a ≤ S2x256.size a) (inb' : ∀ a, (![1, 0] : Fin 2 → ℕ) a + S1x256.size a ≤ S2x256.size a)
    (hr : ∀ a, (Rect.unit (s := S2x256) ![1, 0] S1x256.size inb').stride a = 1)
    (hq : (Rect.unit (s := S2x256) ![1, 0] S1x256.size inb').shape.Squeezes S256)
    (g : M.view.ty.Contents Val) (w : S256.Idx → Val .f32) :
    M.view.readAt Val (Rect.unit (s := S2x256) ![0, 0] S1x256.size inb).toLoadRect
        (((M.slice (Rect.unit (s := S2x256) ![1, 0] S1x256.size inb') hr).squeeze S256 hq).view.write Val g w Finset.univ)
      = M.view.readAt Val (Rect.unit (s := S2x256) ![0, 0] S1x256.size inb).toLoadRect g :=
  scratch_miss M _ _ 0 1 rfl rfl (by decide) inb inb' hr hq g w
theorem scratch_miss10 (M : Memref sig .tc .vmem S2x256 .f32)
    (inb : ∀ a, (![1, 0] : Fin 2 → ℕ) a + S1x256.size a ≤ S2x256.size a) (inb' : ∀ a, (![0, 0] : Fin 2 → ℕ) a + S1x256.size a ≤ S2x256.size a)
    (hr : ∀ a, (Rect.unit (s := S2x256) ![0, 0] S1x256.size inb').stride a = 1)
    (hq : (Rect.unit (s := S2x256) ![0, 0] S1x256.size inb').shape.Squeezes S256)
    (g : M.view.ty.Contents Val) (w : S256.Idx → Val .f32) :
    M.view.readAt Val (Rect.unit (s := S2x256) ![1, 0] S1x256.size inb).toLoadRect
        (((M.slice (Rect.unit (s := S2x256) ![0, 0] S1x256.size inb') hr).squeeze S256 hq).view.write Val g w Finset.univ)
      = M.view.readAt Val (Rect.unit (s := S2x256) ![1, 0] S1x256.size inb).toLoadRect g :=
  scratch_miss M _ _ 1 0 rfl rfl (by decide) inb inb' hr hq g w

/-- The same three, spelt as the simplifier spells the terms. -/
theorem scratch_hit' (M : Memref sig .tc .vmem S2x256 .f32) (off : Fin 2 → ℕ) (inb : ∀ a, off a + (![1, 256] : Fin 2 → ℕ) a ≤ S2x256.size a)
    (hn : S256.numel = (Rect.unit (s := S2x256) off ![1, 256] inb).shape.numel)
    (g : M.view.ty.Contents Val) (w : S256.Idx → Val .f32) :
    M.view.readAt Val (Rect.unit (s := S2x256) off ![1, 256] inb).toLoadRect
        (((M.view.slice (Rect.unit (s := S2x256) off ![1, 256] inb)).reshape S256 hn).write Val g w Finset.univ)
      = shapeCast S1x256 w shapeCasts_S256_S1x256 :=
  scratch_hit M off inb (fun _ => rfl) squeezes_S1x256_S256 g w
theorem scratch_miss01' (M : Memref sig .tc .vmem S2x256 .f32)
    (inb : ∀ a, (![0, 0] : Fin 2 → ℕ) a + (![1, 256] : Fin 2 → ℕ) a ≤ S2x256.size a) (inb' : ∀ a, (![1, 0] : Fin 2 → ℕ) a + (![1, 256] : Fin 2 → ℕ) a ≤ S2x256.size a)
    (hn : S256.numel = (Rect.unit (s := S2x256) ![1, 0] ![1, 256] inb').shape.numel)
    (g : M.view.ty.Contents Val) (w : S256.Idx → Val .f32) :
    M.view.readAt Val (Rect.unit (s := S2x256) ![0, 0] ![1, 256] inb).toLoadRect
        (((M.view.slice (Rect.unit (s := S2x256) ![1, 0] ![1, 256] inb')).reshape S256 hn).write Val g w Finset.univ)
      = M.view.readAt Val (Rect.unit (s := S2x256) ![0, 0] ![1, 256] inb).toLoadRect g :=
  scratch_miss01 M inb inb' (fun _ => rfl) squeezes_S1x256_S256 g w
theorem scratch_miss10' (M : Memref sig .tc .vmem S2x256 .f32)
    (inb : ∀ a, (![1, 0] : Fin 2 → ℕ) a + (![1, 256] : Fin 2 → ℕ) a ≤ S2x256.size a) (inb' : ∀ a, (![0, 0] : Fin 2 → ℕ) a + (![1, 256] : Fin 2 → ℕ) a ≤ S2x256.size a)
    (hn : S256.numel = (Rect.unit (s := S2x256) ![0, 0] ![1, 256] inb').shape.numel)
    (g : M.view.ty.Contents Val) (w : S256.Idx → Val .f32) :
    M.view.readAt Val (Rect.unit (s := S2x256) ![1, 0] ![1, 256] inb).toLoadRect
        (((M.view.slice (Rect.unit (s := S2x256) ![0, 0] ![1, 256] inb')).reshape S256 hn).write Val g w Finset.univ)
      = M.view.readAt Val (Rect.unit (s := S2x256) ![1, 0] ![1, 256] inb).toLoadRect g :=
  scratch_miss10 M inb inb' (fun _ => rfl) squeezes_S1x256_S256 g w

end Scratch

/-- The rows stored into the first output block are the same at any two start contents of the scratch. -/
theorem run0_indep_self (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec F S8x1 .i32) (x1 : Vec F S8x16 .i32) (fh0 : HbBuf0 (F := F) c hbM0) (fs0 fs0' : BufTy.Contents (Elt F) arg6.view.ty)
    (hx0 : ∀ j, (x0 j).toNat < 100000) (hx1 : ∀ j, (x1 j).toNat < 100000) :
    (kernelRun0 (F := F) c i arg1 harg1 arg2 harg2 arg4 harg4 arg5 harg5 arg6 harg6 x0 x1 fh0 fs0 hx0 hx1).1
      = (kernelRun0 (F := F) c i arg1 harg1 arg2 harg2 arg4 harg4 arg5 harg5 arg6 harg6 x0 x1 fh0 fs0' hx0 hx1).1 := by
  unfold kernelRun0
  dsimp only
  repeat (run_rows_once; try simp only [scratch_hit', scratch_miss01', scratch_miss10'])
  first | done | rfl
set_option maxHeartbeats 0 in
/-- The rows stored into the second output block are the same at any two start contents of the scratch. -/
theorem run0_indep_mean (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec F S8x1 .i32) (x1 : Vec F S8x16 .i32) (fh0 : HbBuf0 (F := F) c hbM0) (fs0 fs0' : BufTy.Contents (Elt F) arg6.view.ty)
    (hx0 : ∀ j, (x0 j).toNat < 100000) (hx1 : ∀ j, (x1 j).toNat < 100000) :
    (kernelRun0 (F := F) c i arg1 harg1 arg2 harg2 arg4 harg4 arg5 harg5 arg6 harg6 x0 x1 fh0 fs0 hx0 hx1).2.1
      = (kernelRun0 (F := F) c i arg1 harg1 arg2 harg2 arg4 harg4 arg5 harg5 arg6 harg6 x0 x1 fh0 fs0' hx0 hx1).2.1 := by
  unfold kernelRun0
  dsimp only
  repeat (run_rows_once; try simp only [scratch_hit', scratch_miss01', scratch_miss10'])
  first | done | rfl

end Cert.KernelIdeal.Hand

end
-- ==== Proof.KI.Body0.lean ====
/-
  The gather region's proof data and its body obligation.  At grid point `t` the two index windows hold rows
  8t … 8t+7 of the node column and of the neighbour table, staged in SMEM; the two output windows receive the own rows
  and the neighbour means of those eight batch rows.  Between points nothing is in flight: the region's invariant keeps
  the scratch rows at some contents, the two copy semaphores at zero and the feature table whole at its entry contents.
  The body's side conditions (each row number inside the table) hold because every word of both index arrays is below
  100000.
-/
import proofs.«402250_j36103495090682_1_alg».proof.Proof.KI.Indep0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Every word of the node column and of the neighbour table, as the region finds them, is below 100000. -/
def Hyp0 : Prop :=
  ∀ c : Dev nD, (∀ i, (V c main_v0 i).toNat < 100000) ∧ (∀ i, (V c main_arg1 i).toNat < 100000)

variable (hV : Hyp0 V)

include hV in
/-- So is every word of an index block: a block's word is a word of its array. -/
theorem iblk0_0_lt (c : Dev nD) (t : Fin cfg0.N) : ∀ j, (iblk0 V c 0 t j).toNat < 100000 := fun j => by
  unfold iblk0; rw [View.read_apply, cast_eq]; exact (hV c).1 _
include hV in
theorem iblk0_1_lt (c : Dev nD) (t : Fin cfg0.N) : ∀ j, (iblk0 V c 1 t j).toNat < 100000 := fun j => by
  unfold iblk0; rw [View.read_apply, cast_eq]; exact (hV c).2 _

/-! ## The staging memrefs, the own semaphores, the table -/

abbrev VO0_2 : View sig .tc .vmem S8x256 .f32 := (Memref.whole cc0_stg2_0 : Memref sig .tc .vmem S8x256 .f32).view
abbrev VO0_3 : View sig .tc .vmem S8x256 .f32 := (Memref.whole cc0_stg3_0 : Memref sig .tc .vmem S8x256 .f32).view
abbrev ms0_0 (t : Fin cfg0.N) : Memref sig .tc .smem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8x16 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)

/-- The body's two copy semaphores. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The operand left in HBM that the body copies from: the feature table. -/
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V c b) : sProp 𝕄) = iprop(hbPt0 c hbM0 (V c main_arg2)) := by
  rw [BI.bigSep_eq_bigSepL_of_eq [main_arg2] (by decide) (by decide)]; rfl

/-- The region's invariant conjunct by conjunct. -/
theorem PhiD0_eq (c : Dev nD) :
    (Pipeline.ΦD osem0 spec0 H0 V c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r) ∗ iprop(semVal ((c : Thread nD τ), SemLoc.dma 8) 0 ∗ semVal ((c : Thread nD τ), SemLoc.dma 9) 0) ∗ iprop(hbPt0 c hbM0 (V c main_arg2))) := by
  rw [Pipeline.ΦD_eq, scopedRest0_eq, ownSems00_eq, hbmPts0_eq]; simp only [scM0, owns_whole]; try rfl

/-! ## What the outputs hold after each point -/

/-- The run at point `t`: on the point's staging memrefs, the index blocks and the table as the region finds them, the
    scratch rows at start contents `fs` (which the run's pieces do not depend on: every row the body loads has been
    copied there first). -/
abbrev runAt0 (c : Dev nD) (t : Fin cfg0.N) (fs : BufTy.Contents (Elt F) (scM0 : Memref sig .tc .vmem S2x256 .f32).view.ty) :=
  kernelRun0 (F := F) c (grid0.coords t) (ms0_0 t) (hs0_0 t) (ms0_1 t) (hs0_1 t) (ms0_2 t) (hs0_2 t) (ms0_3 t) (hs0_3 t) scM0 (Memref.isWhole_whole _)
    (iblk0 V c 0 t) (iblk0 V c 1 t) (V c main_arg2) fs (iblk0_0_lt V hV c t) (iblk0_1_lt V hV c t)
/-- A fixed start contents, at which the outputs are named. -/
abbrev fsJ : BufTy.Contents (Elt F) (scM0 : Memref sig .tc .vmem S2x256 .f32).view.ty := (scM0 : Memref sig .tc .vmem S2x256 .f32).view.junk
theorem runAt0_indep_self (c : Dev nD) (t : Fin cfg0.N) (fs fs' : BufTy.Contents (Elt F) (scM0 : Memref sig .tc .vmem S2x256 .f32).view.ty) :
    (runAt0 V hV c t fs).1 = (runAt0 V hV c t fs').1 := run0_indep_self ..
theorem runAt0_indep_mean (c : Dev nD) (t : Fin cfg0.N) (fs fs' : BufTy.Contents (Elt F) (scM0 : Memref sig .tc .vmem S2x256 .f32).view.ty) :
    (runAt0 V hV c t fs).2.1 = (runAt0 V hV c t fs').2.1 := run0_indep_mean ..

/-- The run's pieces tile each output block in rows (eight row stores each), so they cover it. -/
theorem cover0_2 (c : Dev nD) (t : Fin cfg0.N) (fs) (y : S8x256.Idx) : ∃ pc ∈ (runAt0 V hV c t fs).1, y ∈ pc.1.set :=
  View.cover_of_tiledL (runAt0 V hV c t fs).1 S1x256.size (by sl_kernel_rfl) y
theorem cover0_3 (c : Dev nD) (t : Fin cfg0.N) (fs) (y : S8x256.Idx) : ∃ pc ∈ (runAt0 V hV c t fs).2.1, y ∈ pc.1.set :=
  View.cover_of_tiledL (runAt0 V hV c t fs).2.1 S1x256.size (by sl_kernel_rfl) y

/-- What the run leaves in the two output blocks: its pieces read back over junk. -/
def out0_2 (c : Dev nD) (t : Fin cfg0.N) : Vec F S8x256 .f32 :=
  VO0_2.read (Elt F) (VO0_2.writes (Elt F) VO0_2.junk (runAt0 V hV c t fsJ).1)
def out0_3 (c : Dev nD) (t : Fin cfg0.N) : Vec F S8x256 .f32 :=
  VO0_3.read (Elt F) (VO0_3.writes (Elt F) VO0_3.junk (runAt0 V hV c t fsJ).2.1)

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 V hV c t
    | ⟨3, _⟩ => out0_3 V hV c t
  Φ _ := Pipeline.ΦD osem0 spec0 H0 V c
  q _ := fullShare
  owed _ := 0

theorem A_eq0 (c : Dev nD) (w : Fin cfg0.W) : (dat0 V hV c).A w = V c (Pipeline.arrRef spec0 w) := by
  dsimp only [dat0]
theorem after0_0 (c : Dev nD) (t : Fin cfg0.N) : (dat0 V hV c).after 0 t = iblk0 V c 0 t := by dsimp only [dat0]
theorem after0_1 (c : Dev nD) (t : Fin cfg0.N) : (dat0 V hV c).after 1 t = iblk0 V c 1 t := by dsimp only [dat0]
theorem after0_2 (c : Dev nD) (t : Fin cfg0.N) : (dat0 V hV c).after 2 t = out0_2 V hV c t := by dsimp only [dat0]
theorem after0_3 (c : Dev nD) (t : Fin cfg0.N) : (dat0 V hV c).after 3 t = out0_3 V hV c t := by dsimp only [dat0]
theorem before0_0 (c : Dev nD) (t : Fin cfg0.N) (d) : (dat0 V hV c).before 0 t d = iblk0 V c 0 t :=
  before0_0_of V (dat0 V hV c) (A_eq0 V hV c 0) (after0_0 V hV c) t d
theorem before0_1 (c : Dev nD) (t : Fin cfg0.N) (d) : (dat0 V hV c).before 1 t d = iblk0 V c 1 t :=
  before0_1_of V (dat0 V hV c) (A_eq0 V hV c 1) (after0_1 V hV c) t d

/-! ## The body obligation -/

def bodyPre0 (c : Dev nD) (t : Fin cfg0.N) : sProp 𝕄 :=
  iprop((dat0 V hV c).Φ t.castSucc ∗ (dat0 V hV c).owesAt () t.castSucc
    ∗ (∃ d, owns (c : Thread nD τ) (ms0_0 t) fullShare ((dat0 V hV c).before 0 t d))
    ∗ (∃ d, owns (c : Thread nD τ) (ms0_1 t) fullShare ((dat0 V hV c).before 1 t d))
    ∗ (∃ d, owns (c : Thread nD τ) (ms0_2 t) fullShare ((dat0 V hV c).before 2 t d))
    ∗ (∃ d, owns (c : Thread nD τ) (ms0_3 t) fullShare ((dat0 V hV c).before 3 t d)))

def bodyPost0 (c : Dev nD) (t : Fin cfg0.N) : sProp 𝕄 :=
  iprop((dat0 V hV c).Φ t.succ ∗ (dat0 V hV c).owesAt () t.succ
    ∗ owns (c : Thread nD τ) (ms0_0 t) fullShare ((dat0 V hV c).after 0 t)
    ∗ owns (c : Thread nD τ) (ms0_1 t) fullShare ((dat0 V hV c).after 1 t)
    ∗ owns (c : Thread nD τ) (ms0_2 t) fullShare ((dat0 V hV c).after 2 t)
    ∗ owns (c : Thread nD τ) (ms0_3 t) fullShare ((dat0 V hV c).after 3 t))

theorem sound_body0 (c : Dev nD) (t : Fin cfg0.N) :
    bodyPre0 V hV c t ⊢ wp frame (wpE (defs₀ (F := F)) Variants.none c none) Set.univ (bodyAt0 t) (fun _ => bodyPost0 V hV c t) := by
  unfold bodyPre0 bodyPost0 bodyAt0
  simp only [before0_0, before0_1]
  rw [show (dat0 V hV c).Φ t.succ = (dat0 V hV c).Φ t.castSucc from rfl,
    after0_0, after0_1, after0_2, after0_3]
  rw [show (dat0 V hV c).Φ t.castSucc = Pipeline.ΦD osem0 spec0 H0 V c from rfl, PhiD0_eq]
  unfold Dat.owesAt Pipeline.owesWithin
  rw [show (dat0 V hV c).owed t.castSucc = 0 from rfl, show (dat0 V hV c).owed t.succ = 0 from rfl]
  unfold out0_2 out0_3
  iintro ⟨⟨⟨⟨%ds0, HS0⟩, HR1, HR2, HR3, HR4, HR5⟩, Hg, ⟨Hq0, Hq1⟩, Hh0⟩, ⟨%W, -, HW⟩, ⟨%d0, H0⟩, ⟨%d1, H1⟩, ⟨%d2, H2⟩, ⟨%d3, H3⟩⟩
  ihave HS0' := (show (owns (c : Thread nD τ) (scM0 : Memref sig .tc .vmem S2x256 .f32) fullShare ds0 : sProp 𝕄)
      ⊢ iprop(∃ f, ⌜(scM0 : Memref sig .tc .vmem S2x256 .f32).view.read (Elt F) f = ds0⌝ ∗ (scM0 : Memref sig .tc .vmem S2x256 .f32).view.loc (c : Thread nD τ) ↦[(scM0 : Memref sig .tc .vmem S2x256 .f32).view.set]{fullShare} f) from by unfold owns; exact .rfl) $$ HS0
  icases HS0' with ⟨%fs0, -, HS0⟩
  iapply ((runAt0 V hV c t fs0).2.2 W _)
  isplitl [H0]; · iexact H0
  isplitl [H1]; · iexact H1
  isplitl [H2]; · iexists _; iexact H2
  isplitl [H3]; · iexists _; iexact H3
  isplitl [HS0]; · iexact HS0
  isplitl [Hq0]; · iexact Hq0
  isplitl [Hq1]; · iexact Hq1
  isplitl [Hh0]; · iexact Hh0
  isplitl [HW]; · iexact HW
  iintro ⟨H0, H1, ⟨%e2, H2⟩, ⟨%e3, H3⟩, HS0, Hq0, Hq1, Hh0, ⟨%W', HW'⟩⟩
  isplitl [HS0 HR1 HR2 HR3 HR4 HR5 Hg Hq0 Hq1 Hh0]
  · isplitl [HS0 HR1 HR2 HR3 HR4 HR5]
    · isplitl [HS0]; · iexact HS0
      isplitl [HR1]; · iexact HR1
      isplitl [HR2]; · iexact HR2
      isplitl [HR3]; · iexact HR3
      isplitl [HR4]; · iexact HR4
      iexact HR5
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro
    exact (View.read_writes_of_cover _ _ _ _ _ (cover0_2 V hV c t fs0)).trans
      (congrArg (fun L => VO0_2.read (Elt F) (VO0_2.writes (Elt F) VO0_2.junk L)) (runAt0_indep_self V hV c t fs0 fsJ))
  unfold owns; iexists _; isplitr
  swap; · iexact H3
  ipureintro
  exact (View.read_writes_of_cover _ _ _ _ _ (cover0_3 V hV c t fs0)).trans
    (congrArg (fun L => VO0_3.read (Elt F) (VO0_3.writes (Elt F) VO0_3.junk L)) (runAt0_indep_mean V hV c t fs0 fsJ))

set_option maxRecDepth 200000 in
theorem body_obligation0 (c : Dev nD) : BodyObligation (dat0 (F := F) V hV c) (defs₀ (F := F)) Variants.none () Set.univ := fun t => by
  rw [bigSep_W0, bigSep_W0]
  exact sound_body0 V hV c t

end Cert.KernelIdeal.Hand

end
-- ==== Proof.KI.Body1.lean ====
/-
  The second kernel's body at a grid point.  The point holds the whole 512×512 weight block W, one 4096×512 block X of the
  input rows and one 512×4096 block of the result.  The body reads W and X whole, forms max (W · Xᵀ) 0 entry by entry,
  reads the result block (the value read is not used) and overwrites the result block whole with max (W · Xᵀ) 0.
  The run is made once over symbolic block contents; what it leaves in the result block is the one piece it finds, and
  that piece is the payload of the two input blocks.
-/
import proofs.«402250_j36103495090682_1_alg».proof.Proof.Gen.KernelIdeal.Launch
import proofs.«402250_j36103495090682_1_alg».proof.Proof.Gen.KernelIdeal.Skeleton
import proofs.«402250_j36103495090682_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body on any whole staging memrefs -/

set_option maxHeartbeats 1000000 in
/-- The body's run: the weight block at contents `x0`, the input block at `x1`, the result block at anything; it ends
    with the two input blocks as they were and the result block with the run's pieces written over what it held. -/
noncomputable def kernelRun1 (c : Dev nD) (i : grid1.Coords)
    (arg1 : Memref sig .tc .vmem S512x512 .bf16) (harg1 : arg1.IsWhole)
    (arg2 : Memref sig .tc .vmem S4096x512 .bf16) (harg2 : arg2.IsWhole)
    (arg3 : Memref sig .tc .vmem S512x4096 .f32) (harg3 : arg3.IsWhole)
    (x0 : Vec F S512x512 .bf16) (x1 : Vec F S4096x512 .bf16) :
    { L : List (View.Piece (Elt F) S512x4096 .f32) //
      ∀ (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) Set.univ (cc1__matmul_kernel i arg1 harg1 arg2 harg2 arg3 harg3) K } := by
  refine ⟨?_, fun K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces cover the result block: one store of the whole block. -/
theorem cover1 (c : Dev nD) (i : grid1.Coords)
    (arg1 : Memref sig .tc .vmem S512x512 .bf16) (harg1 : arg1.IsWhole)
    (arg2 : Memref sig .tc .vmem S4096x512 .bf16) (harg2 : arg2.IsWhole)
    (arg3 : Memref sig .tc .vmem S512x4096 .f32) (harg3 : arg3.IsWhole)
    (x0 : Vec F S512x512 .bf16) (x1 : Vec F S4096x512 .bf16) (y : S512x4096.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S512x4096.size (by sl_kernel_rfl) y

/-! ## The region's proof data at the entry contents -/

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One staging buffer of the result window, through which its contents are stated (any whole view reads the same). -/
abbrev VO1 : View sig .tc .vmem S512x4096 .f32 := (Memref.whole cc1_stg2_0 : Memref sig .tc .vmem S512x4096 .f32).view
/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .f32 := win1_2.stage (cfg1.slots t 2)
abbrev hs1_2 (t : Fin cfg1.N) : (ms1_2 t).IsWhole := hstage1_2 ((cfg1.slots t 2).cast nbuf1_2)

/-- What the body leaves in the result window's staging buffer at point `t`: the run's pieces, at the point's
    memrefs and input blocks, read back over anything. -/
def out1 (c : Dev nD) (t : Fin cfg1.N) : Vec F S512x4096 .f32 :=
  VO1.read (Elt F) (VO1.writes (Elt F) VO1.junk
    (kernelRun1 c (grid1.coords t) (ms1_0 t) (hs1_0 t) (ms1_1 t) (hs1_1 t) (ms1_2 t) (hs1_2 t) (iblk1 V c 0 t) (iblk1 V c 1 t)).1)

/-- The proof data of the pipeline on core `c`: the arrays as the region finds them; after the body at point `t` each
    input's buffer at its block and the result's at `out1`; the invariant the scoped rest and the random-number register,
    untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- The weight window's staging buffer holds the weight block at every point: fetched at the first point, and left in
    place by the body while the block index stays where it is. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The input window's staging buffer holds the point's block of input rows: fetched at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' memrefs hold their blocks, so the run applies; the invariant and the core's
    debts pass through unread; the result's buffer ends at the run's pieces, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Main.lean ====
/-
  The whole program's run.  @main is: one host operation (the batch's node indices laid out as a column), the gather
  kernel's region, three stretches of host operations (the two gathered arrays laid side by side; the result padded from
  20000 to 20480 rows; both operands of the product narrowed, the two encoders stacked), the product kernel's region, and
  three slices.  The buffers' contents are followed boundary by boundary from the launch memory: a host stretch applies its
  operations, a region leaves each of its arrays at what its write-backs fold to and every other buffer as it found it.
  Every weakly fair execution terminates with every unscoped buffer at the last boundary's contents.
-/
import proofs.«402250_j36103495090682_1_alg».proof.Proof.KI.Body0
import proofs.«402250_j36103495090682_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host operation: the gather region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

variable (hV : Hyp0 (V1 m ρ))

/-- At the gather region's exit: its arrays at what the write-backs fold to, the rest as entered. -/
def W2 (c : Dev nD) : Valuation τ sig (Elt F) :=
  Pipeline.withArrays spec0 c (W1 m ρ c) fun w => (dat0 (V1 m ρ) hV c).arrAt w cfg0.N
theorem W2_arr (c : Dev nD) (w : Fin cfg0.W) :
    W2 m ρ hV c (Proc.devRef .tc (Pipeline.arrRef spec0 w)) = (dat0 (V1 m ρ) hV c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ hV c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hV c b
theorem hF0 (c : Dev nD) (w : Fin cfg0.W) : (dat0 (V1 m ρ) hV c).arrAt w cfg0.N = V2 m ρ hV c (Pipeline.arrRef spec0 w) :=
  (W2_arr m ρ hV c w).symm
theorem hrest0 (c : Dev nD) : ∀ b, b ∉ Finset.univ.image (Pipeline.arrRef spec0) → V2 m ρ hV c b = V1 m ρ c b :=
  fun b hb => W2_of_ne m ρ hV c b fun w e => hb (Finset.mem_image.mpr ⟨w, Finset.mem_univ _, e⟩)

/-- After the three host stretches between the regions: the product region's entry. -/
abbrev W3 : Dev nD → Valuation τ sig (Elt F) := fun c => StableHlo.after hostOps1 (W2 m ρ hV c)
abbrev W4 : Dev nD → Valuation τ sig (Elt F) := fun c => StableHlo.after hostOps1_1 (W3 m ρ hV c)
abbrev W5 : Dev nD → Valuation τ sig (Elt F) := fun c => StableHlo.after hostOps1_2 (W4 m ρ hV c)
abbrev V5 : (c : Dev nD) → (b : Ref sig .tc) → Buf (Elt F) ((c : Thread nD τ).loc b) := fun c b => W5 m ρ hV c b

/-- At the product region's exit. -/
def W6 (c : Dev nD) : Valuation τ sig (Elt F) :=
  Pipeline.withArrays spec1 c (W5 m ρ hV c) fun w => (dat1 (V5 m ρ hV) c).arrAt w cfg1.N
theorem W6_arr (c : Dev nD) (w : Fin cfg1.W) :
    W6 m ρ hV c (Proc.devRef .tc (Pipeline.arrRef spec1 w)) = (dat1 (V5 m ρ hV) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ hV c (Proc.devRef .tc b) = W5 m ρ hV c (Proc.devRef .tc b) := by
  unfold W6; exact Pipeline.withArrays_of_ne spec1 c _ _ b hb
abbrev V6 : (c : Dev nD) → (b : Ref sig .tc) → Buf (Elt F) ((c : Thread nD τ).loc b) := fun c b => W6 m ρ hV c b
theorem hF1 (c : Dev nD) (w : Fin cfg1.W) : (dat1 (V5 m ρ hV) c).arrAt w cfg1.N = V6 m ρ hV c (Pipeline.arrRef spec1 w) :=
  (W6_arr m ρ hV c w).symm
theorem hrest1 (c : Dev nD) : ∀ b, b ∉ Finset.univ.image (Pipeline.arrRef spec1) → V6 m ρ hV c b = V5 m ρ hV c b :=
  fun b hb => W6_of_ne m ρ hV c b fun w e => hb (Finset.mem_image.mpr ⟨w, Finset.mem_univ _, e⟩)

/-- After the three slices: the end. -/
abbrev W7 : Dev nD → Valuation τ sig (Elt F) := fun c => StableHlo.after hostOps2 (W6 m ρ hV c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) hV c
  | ⟨1, _⟩ => fun c => dat1 (V5 m ρ hV) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ hV c) ∗ ∃ r, prngReg c r)

/-! ## The regions as segments -/

set_option backward.isDefEq.respectTransparency.types false in
/-- The gather region: entered from every unscoped buffer at `W1`, left at `W2`.  Its arrays are split out of the
    unscoped buffers and put back at the exit contents; the generator register, the two copy semaphores (at zero from the
    boundary and back) and the feature table (split out of the bypassing buffers and rejoined) pass through its invariant. -/
def reg0 : Pipeline.RegionSeg (pcfgs (F := F)) adm (pdats m ρ hV) () defs₀ 𝒱₀ L lv 0 where
  win := launch0.win.to₀
  block_pos := launch0.block_pos
  stage_whole := launch0.stage_whole
  K := Fin 2
  osem := osem0
  ho := ownSemFacts0
  hbody c := (body_obligation0 (V1 m ρ) hV c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hV c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m ρ c b))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) adm (pdats m ρ hV) launch0.win launch0.arr_whole c
      ((pdats m ρ hV 0 c).share_full fun _ => rfl) (V1 m ρ c) fun _ => rfl
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hV 0 c).Φ 0 = Pipeline.ΦD osem0 spec0 H0 (V1 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ hV 0 c).Φ (Fin.last _) = Pipeline.ΦD osem0 spec0 H0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hV) ((pdats m ρ hV 0 c).share_full fun _ => rfl)
      (V1 m ρ c) (V2 m ρ hV c) ((pdats m ρ hV 0 c).arrAt · cfg0.N) (hF0 m ρ hV c) (hrest0 m ρ hV c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered from every unscoped buffer at `W5`, left at `W6`; only the generator register passes
    through its invariant; it has no semaphore of its own. -/
def reg1 : Pipeline.RegionSeg (pcfgs (F := F)) adm (pdats m ρ hV) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ hV) c).loose
  hwaits := Pipeline.hwaits_of_owed_zero _ _ _ _ L lv 1 fun _ _ => rfl
  pre c := iprop(StableHlo.held (c : Thread nD τ) (Pipeline.ucRefs τ sig) (W5 m ρ hV c) ∗ R c)
  post c := iprop(StableHlo.held (c : Thread nD τ) (Pipeline.ucRefs τ sig) (W6 m ρ hV c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ hV c)
  hentry c := by
    rw [Pipeline.ownSems0_none]
    have hsplit := Pipeline.arrays_of_unscopedBufs (p := 1) (pcfgs (F := F)) adm (pdats m ρ hV) launch1.win launch1.arr_whole c
      ((pdats m ρ hV 1 c).share_full fun _ => rfl) (V5 m ρ hV c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hV 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hV 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hV) ((pdats m ρ hV 1 c).share_full fun _ => rfl)
      (V5 m ρ hV c) (V6 m ρ hV c) ((pdats m ρ hV 1 c).arrAt · cfg1.N) (hF1 m ρ hV c) (hrest1 m ρ hV c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev segs : List (Pipeline.Seg (pcfgs (F := F)) adm (pdats m ρ hV) () defs₀ 𝒱₀ L lv) :=
  [ .host (hseg hostOps0 hostOps0_sub hostOps0_fresh (W0 m ρ)),
    .region (reg0 m ρ hV),
    .host (hseg hostOps1 hostOps1_sub hostOps1_fresh (W2 m ρ hV)),
    .host (hseg hostOps1_1 hostOps1_1_sub hostOps1_1_fresh (W3 m ρ hV)),
    .host (hseg hostOps1_2 hostOps1_2_sub hostOps1_2_fresh (W4 m ρ hV)),
    .region (reg1 m ρ hV),
    .host (hseg hostOps2 hostOps2_sub hostOps2_fresh (W6 m ρ hV)) ]

theorem main_run (c : Dev nD) : main (F := F) c = Pipeline.Seg.run (segs m ρ hV) := (main_chain c).trans (by chain_rfl)

set_option backward.isDefEq.respectTransparency.types false in
/-- Every weakly fair execution of @main from `m` terminates, nothing faulting, with every unscoped buffer at `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ hV c b) :=
  Pipeline.θ_run_regions_kit (pcfgs (F := F)) adm (pdats m ρ hV) () cellOf_inj embL defs₀ 𝒱₀ L lv m ρ main (segs m ρ hV)
    (fun c Q => by rw [main_run m ρ hV c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hV)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ hV c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ hV c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ hV c) s')
      isplitl [Hh] <;> iassumption)
    (hQ := fun s h c => h c)

end Cert.KernelIdeal.Hand

end
-- ==== Proof.KI.Args.lean ====
/-
  The arguments end as launched, and the frame.  No host operation writes an argument and no region changes one: the
  gather region reads the neighbour table through an input window (whose array the pipeline leaves as it found it) and
  the feature table in place; every other argument bypasses both regions.  So the last boundary's contents at an
  argument walk back to the launch memory.  The gather region's side conditions hold when every word of the two index
  arguments is below 100000: the node column is the node vector laid out as a column, word for word.
-/
import proofs.«402250_j36103495090682_1_alg».proof.Proof.KI.Main
import proofs.«402250_j36103495090682_1_alg».proof.Proof.Gen.KernelIdeal.Regions
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The gather region's hypothesis from the index arguments' bounds -/

/-- The node column at the gather region's entry is the node vector reshaped. -/
theorem V1_main_v0 (c : Dev nD) :
    (Hand.V1 m ρ c main_v0 : S20000x1.Idx → BitVec 32)
      = shapeCast S20000x1 (m ((c.tc : Thread nD τ).loc main_arg0) : S20000.Idx → BitVec 32) shapeCasts_S20000_S20000x1 := by
  show StableHlo.after hostOps0 (Hand.W0 m ρ c) (Proc.devRef .tc main_v0) = _
  after_results; rfl

/-- The neighbour table at the gather region's entry is the argument. -/
theorem V1_main_arg1 (c : Dev nD) : Hand.V1 m ρ c main_arg1 = m ((c.tc : Thread nD τ).loc main_arg1) :=
  StableHlo.after_of_writes_sub hostOps0 _ Gen.hostOps0_writes (by decide)

theorem hyp0_of
    (h0 : ∀ (c : Dev nD) (i : S20000.Idx), (m ((c.tc : Thread nD τ).loc main_arg0) i).toNat < 100000)
    (h1 : ∀ (c : Dev nD) (i : S20000x16.Idx), (m ((c.tc : Thread nD τ).loc main_arg1) i).toNat < 100000) :
    Hyp0 (Hand.V1 m ρ) := fun c => by
  refine ⟨fun i => ?_, fun i => ?_⟩
  · rw [V1_main_v0 m ρ c]; unfold shapeCast; exact h0 c _
  · rw [V1_main_arg1 m ρ c]; exact h1 c i

/-! ## The arguments at the last boundary -/

variable (hV : Hyp0 (Hand.V1 m ρ))

/-- A buffer no host operation writes and that is no window's array of either region holds its launch contents at the end. -/
theorem W7_of_bypass (c : Dev nD) (r : Ref sig .tc)
    (h0 : r ∉ Gen.hostOps0_W) (h1 : r ∉ Gen.hostOps1_W) (h2 : r ∉ Gen.hostOps1_1_W) (h3 : r ∉ Gen.hostOps1_2_W) (h4 : r ∉ Gen.hostOps2_W)
    (ha0 : ∀ w, Pipeline.arrRef spec0 w ≠ r) (ha1 : ∀ w, Pipeline.arrRef spec1 w ≠ r) :
    Hand.W7 m ρ hV c (Proc.devRef .tc r) = m ((c.tc : Thread nD τ).loc r) :=
  calc Hand.W7 m ρ hV c (Proc.devRef .tc r)
    _ = Hand.W6 m ρ hV c (Proc.devRef .tc r) := StableHlo.after_of_writes_sub hostOps2 _ Gen.hostOps2_writes h4
    _ = Hand.W5 m ρ hV c (Proc.devRef .tc r) := W6_of_ne m ρ hV c r ha1
    _ = Hand.W4 m ρ hV c (Proc.devRef .tc r) := StableHlo.after_of_writes_sub hostOps1_2 _ Gen.hostOps1_2_writes h3
    _ = Hand.W3 m ρ hV c (Proc.devRef .tc r) := StableHlo.after_of_writes_sub hostOps1_1 _ Gen.hostOps1_1_writes h2
    _ = Hand.W2 m ρ hV c (Proc.devRef .tc r) := StableHlo.after_of_writes_sub hostOps1 _ Gen.hostOps1_writes h1
    _ = Hand.W1 m ρ c (Proc.devRef .tc r) := W2_of_ne m ρ hV c r ha0
    _ = Hand.W0 m ρ c (Proc.devRef .tc r) := StableHlo.after_of_writes_sub hostOps0 _ Gen.hostOps0_writes h0
    _ = m ((c.tc : Thread nD τ).loc r) := rfl

theorem W7_main_arg0 (c : Dev nD) : Hand.W7 m ρ hV c (Proc.devRef .tc main_arg0) = m ((c.tc : Thread nD τ).loc main_arg0) :=
  W7_of_bypass m ρ hV c main_arg0 (by decide) (by decide) (by decide) (by decide) (by decide) (by decide) (by decide)
theorem W7_main_arg2 (c : Dev nD) : Hand.W7 m ρ hV c (Proc.devRef .tc main_arg2) = m ((c.tc : Thread nD τ).loc main_arg2) :=
  W7_of_bypass m ρ hV c main_arg2 (by decide) (by decide) (by decide) (by decide) (by decide) (by decide) (by decide)
theorem W7_main_arg3 (c : Dev nD) : Hand.W7 m ρ hV c (Proc.devRef .tc main_arg3) = m ((c.tc : Thread nD τ).loc main_arg3) :=
  W7_of_bypass m ρ hV c main_arg3 (by decide) (by decide) (by decide) (by decide) (by decide) (by decide) (by decide)
theorem W7_main_arg4 (c : Dev nD) : Hand.W7 m ρ hV c (Proc.devRef .tc main_arg4) = m ((c.tc : Thread nD τ).loc main_arg4) :=
  W7_of_bypass m ρ hV c main_arg4 (by decide) (by decide) (by decide) (by decide) (by decide) (by decide) (by decide)

/-- The neighbour table is the gather region's second input window: the pipeline leaves an input's array as it found it. -/
theorem W7_main_arg1 (c : Dev nD) : Hand.W7 m ρ hV c (Proc.devRef .tc main_arg1) = m ((c.tc : Thread nD τ).loc main_arg1) :=
  calc Hand.W7 m ρ hV c (Proc.devRef .tc main_arg1)
    _ = Hand.W6 m ρ hV c (Proc.devRef .tc main_arg1) := StableHlo.after_of_writes_sub hostOps2 _ Gen.hostOps2_writes (by decide)
    _ = Hand.W5 m ρ hV c (Proc.devRef .tc main_arg1) := W6_of_ne m ρ hV c main_arg1 (by decide)
    _ = Hand.W4 m ρ hV c (Proc.devRef .tc main_arg1) := StableHlo.after_of_writes_sub hostOps1_2 _ Gen.hostOps1_2_writes (by decide)
    _ = Hand.W3 m ρ hV c (Proc.devRef .tc main_arg1) := StableHlo.after_of_writes_sub hostOps1_1 _ Gen.hostOps1_1_writes (by decide)
    _ = Hand.W2 m ρ hV c (Proc.devRef .tc main_arg1) := StableHlo.after_of_writes_sub hostOps1 _ Gen.hostOps1_writes (by decide)
    _ = Hand.W1 m ρ c (Proc.devRef .tc main_arg1) := (W2_arr m ρ hV c 1).trans (((dat0 (Hand.V1 m ρ) hV c).arrAt_in 1 rfl _).trans (A_eq0 (Hand.V1 m ρ) hV c 1))
    _ = m ((c.tc : Thread nD τ).loc main_arg1) := V1_main_arg1 m ρ c

/-! ## The frame -/

/-- Every weakly fair execution terminates, nothing faulting, with the five argument arrays as launched. -/
theorem frame (hV : Hyp0 (Hand.V1 m ρ)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ hV c),
     (h c _ (mem_uc main_arg1 (by decide))).trans (W7_main_arg1 m ρ hV c),
     (h c _ (mem_uc main_arg2 (by decide))).trans (W7_main_arg2 m ρ hV c),
     (h c _ (mem_uc main_arg3 (by decide))).trans (W7_main_arg3 m ρ hV c),
     (h c _ (mem_uc main_arg4 (by decide))).trans (W7_main_arg4 m ρ hV c)⟩) (run_all m ρ hV)

end Cert.KernelIdeal.Hand

end
-- ==== Proof.KI.Out1.lean ====
/-
  What the second kernel's body leaves in the result block, in closed form.  The run's one piece is the store of the
  whole 512×4096 block, and the stored value is computed from the two whole loads; so the block read back after the
  body is the payload max (W · Xᵀ) 0 of the weight block W and the input block X as the point finds them.
-/
import proofs.«402250_j36103495090682_1_alg».proof.Proof.KI.Body1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-block access, however they are spelt. -/
theorem offs1_zero : (![0, 0] : Fin 2 → Nat) = fun _ => 0 := funext fun a => by fin_cases a <;> rfl

/-- The run's one piece is the store of the whole result block, and its payload is computed from the two whole loads:
    read back, the result block is the payload of the contents of the two input blocks. -/
theorem run1_read (c : Dev nD) (i : grid1.Coords)
    (arg1 : Memref sig .tc .vmem S512x512 .bf16) (harg1 : arg1.IsWhole)
    (arg2 : Memref sig .tc .vmem S4096x512 .bf16) (harg2 : arg2.IsWhole)
    (arg3 : Memref sig .tc .vmem S512x4096 .f32) (harg3 : arg3.IsWhole)
    (x0 : Vec F S512x512 .bf16) (x1 : Vec F S4096x512 .bf16) :
    VO1.read (Elt F) (VO1.writes (Elt F) VO1.junk (kernelRun1 c i arg1 harg1 arg2 harg2 arg3 harg3 x0 x1).1)
      = k1_pay1 x0 x1 := by
  rw [View.read_writes_eq_canon _ _ _ (cover1 c i arg1 harg1 arg2 harg2 arg3 harg3 x0 x1)]
  unfold kernelRun1
  dsimp only
  sl_unfold_words
  rw [View.canon_unit_zero offs1_zero]
  simp only [View.readAt_eq_ld, harg1.read_unread, harg2.read_unread,
    View.ld_unit_zero (S := S512x512) offs1_zero, View.ld_unit_zero (S := S4096x512) offs1_zero]

/-- At every point the result block after the body is the payload of the point's weight block and input block. -/
theorem out1_eq (V : (c : Dev nD) → (b : Ref sig .tc) → Buf (Elt F) ((c : Thread nD τ).loc b)) (c : Dev nD) (t : Fin cfg1.N) :
    out1 V c t = k1_pay1 (iblk1 V c 0 t) (iblk1 V c 1 t) := by
  unfold out1
  exact run1_read c (grid1.coords t) (ms1_0 t) (hs1_0 t) (ms1_1 t) (hs1_1 t) (ms1_2 t) (hs1_2 t) (iblk1 V c 0 t) (iblk1 V c 1 t)

end Cert.KernelIdeal.Hand

end
-- ==== Proof.KI.Value1.lean ====
/-
  The second kernel's payload read at an entry, over the extended reals.  The payload of a 512×512 block W and a
  4096×512 block X is max (W · Xᵀ) 0: the product contracts W's second axis against the first axis of the transpose of
  X, accumulating into zero, and the maximum with zero is taken entry by entry.  So its entry (o, b) is
  max (∑ₖ W(o,k) · X(b,k)) 0.
-/
import proofs.«402250_j36103495090682_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.SL.Sem Idealize.ShloMosaic.ValueIdx
open Cert.KernelIdeal Cert.KernelIdeal.Gen

/-! ## The product's operand indices, axis by axis -/

/-- The left operand's row is the result's row; -/
theorem mm1_lhs_0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
/-- its column is the contraction position. -/
theorem mm1_lhs_1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
/-- The right operand's row is the contraction position; -/
theorem mm1_rhs_0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
/-- its column is the result's column. -/
theorem mm1_rhs_1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The product into zero at entry (o, b): the sum over k of A(o,k) · B(k,b). -/
theorem mm1_apply (A : FVec Ideal S512x512 .bf16) (B : FVec Ideal S512x4096 .bf16) (o : Fin 512) (b : Fin 4096) :
    matmul dot_S512x512_S512x4096_S512x4096_1_0_0_1_n_n none A B (constant (F := Ideal) S512x4096 .f32 0x00000000#32) (ix2 o b)
      = ∑ k : Fin 512, A (ix2 o k) * B (ix2 k b) := by
  simp only [matmul]
  rw [Ideal.matmul_constant_zero_apply, ← Equiv.sum_comp (contrEquiv1 dot_S512x512_S512x4096_S512x4096_1_0_0_1_n_n 512 rfl rfl).symm]
  refine Finset.sum_congr rfl fun k _ => ?_
  have hk := contrEquiv1_symm_val dot_S512x512_S512x4096_S512x4096_1_0_0_1_n_n 512 rfl rfl k
  have el : dot_S512x512_S512x4096_S512x4096_1_0_0_1_n_n.lhsIdx (ix2 o b) ((contrEquiv1 dot_S512x512_S512x4096_S512x4096_1_0_0_1_n_n 512 rfl rfl).symm k) = ix2 o k := funext fun a => Fin.ext (by
    match a with
    | ⟨0, _⟩ => exact mm1_lhs_0 _ _
    | ⟨1, _⟩ => exact (mm1_lhs_1 _ _).trans hk)
  have er : dot_S512x512_S512x4096_S512x4096_1_0_0_1_n_n.rhsIdx (ix2 o b) ((contrEquiv1 dot_S512x512_S512x4096_S512x4096_1_0_0_1_n_n 512 rfl rfl).symm k) = ix2 k b := funext fun a => Fin.ext (by
    match a with
    | ⟨0, _⟩ => exact (mm1_rhs_0 _ _).trans hk
    | ⟨1, _⟩ => exact mm1_rhs_1 _ _)
  rw [el, er]

/-- The transpose at entry (k, b) is the operand at (b, k). -/
theorem tr1_apply (x : FVec Ideal S4096x512 .bf16) (k : Fin 512) (b : Fin 4096) :
    transpose S512x4096 [1, 0] x transposes_S4096x512_p1_0_S512x4096 (ix2 k b) = x (ix2 b k) :=
  transpose_apply [1, 0] x transposes_S4096x512_p1_0_S512x4096 (ix2 k b) (ix2 b k) (fun a => by
    match a with
    | ⟨0, _⟩ => rfl
    | ⟨1, _⟩ => rfl)

/-- The payload at entry (o, b): max (∑ₖ W(o,k) · X(b,k)) 0. -/
theorem pay1_apply (w : Vec Ideal S512x512 .bf16) (x : Vec Ideal S4096x512 .bf16) (o : Fin 512) (b : Fin 4096) :
    k1_pay1 (F := Ideal) w x (ix2 o b) = max (∑ k : Fin 512, w (ix2 o k) * x (ix2 b k)) 0 := by
  unfold k1_pay1
  simp only [maximumf_apply, broadcast_apply, shapeCast_self, mm1_apply, tr1_apply]
  refine congrArg₂ max (Finset.sum_congr rfl fun k _ => ?_) ?_
  · exact congrArg (w (ix2 o k) * ·) (tr1_apply x k b)
  · exact Ideal.ofBits_zero_f32

end Cert.KernelIdeal.Hand

end
-- ==== Proof.KI.Out1Apply.lean ====
/-
  The second kernel's result block, entry by entry, over the extended reals: after the body at a grid point, entry (o, b)
  of the 512×4096 result block is max (∑ₖ W(o,k) · X(b,k)) 0, where W is the 512×512 weight block and X the point's
  4096×512 block of input rows.
-/
import proofs.«402250_j36103495090682_1_alg».proof.Proof.KI.Out1
import proofs.«402250_j36103495090682_1_alg».proof.Proof.KI.Value1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The weight block at point `t`, at its literal type. -/
abbrev wblk1 {F : FTy → Type} [FloatOps F] (V : (c : Dev nD) → (b : Ref sig .tc) → Buf (Elt F) ((c : Thread nD τ).loc b)) (c : Dev nD) (t : Fin cfg1.N) :
    Vec F S512x512 .bf16 := iblk1 V c 0 t
/-- The block of input rows at point `t`, at its literal type. -/
abbrev xblk1 {F : FTy → Type} [FloatOps F] (V : (c : Dev nD) → (b : Ref sig .tc) → Buf (Elt F) ((c : Thread nD τ).loc b)) (c : Dev nD) (t : Fin cfg1.N) :
    Vec F S4096x512 .bf16 := iblk1 V c 1 t

/-- Entry (o, b) of the result block after the body at point `t`: max (∑ₖ W(o,k) · X(b,k)) 0 over the point's weight block W
    and input block X. -/
theorem out1_apply (V : (c : Dev nD) → (b : Ref sig .tc) → Buf (Elt Ideal) ((c : Thread nD τ).loc b)) (c : Dev nD) (t : Fin cfg1.N) (o : Fin 512) (b : Fin 4096) :
    out1 (F := Ideal) V c t (ix2 o b) = max (∑ k : Fin 512, wblk1 V c t (ix2 o k) * xblk1 V c t (ix2 b k)) 0 := by
  rw [out1_eq]
  exact pay1_apply (wblk1 V c t) (xblk1 V c t) o b

end Cert.KernelIdeal.Hand

end
-- ==== Proof.KI.Cover1.lean ====
/-
  From the result's blocks to the whole result array.  The second kernel runs over five points; point n holds the whole
  512×512 weight array W, rows 4096·n … 4096·n + 4095 of the 20480×512 input array X, and columns 4096·n … 4096·n + 4095 of
  the 512×20480 result.  Given that each point's result block is max (W · (its rows of X)ᵀ) 0 entry by entry, every block
  is the restriction of the one function  G (o, b) = max (∑ k, W (o, k) · X (b, k)) 0  of the whole arrays, the five column
  blocks cover the result, and so the result array ends holding G.
-/
import proofs.«402250_j36103495090682_1_alg».proof.Proof.KI.Body1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open scoped BigOperators

section Cover
variable (V : (c : Dev nD) → (b : Ref sig .tc) → Buf (Elt Ideal) ((c : Thread nD τ).loc b))

/-- The weight array W and the input array X as the region finds them, entries extended reals. -/
abbrev warr (c : Dev nD) : S512x512.Idx → EReal := V c main_v6
abbrev xarr (c : Dev nD) : S20480x512.Idx → EReal := V c main_v4
/-- The weight block and the input block of point t. -/
abbrev wblk (c : Dev nD) (t : Fin cfg1.N) : Vec Ideal S512x512 .bf16 := iblk1 (F := Ideal) V c 0 t
abbrev xblk (c : Dev nD) (t : Fin cfg1.N) : Vec Ideal S4096x512 .bf16 := iblk1 (F := Ideal) V c 1 t

/-- The whole result array as one function of the whole weight and input arrays. -/
def G1 (c : Dev nD) : S512x20480.Idx → EReal := fun i =>
  max (∑ k : Fin 512, warr V c (ix2 (i 0) k) * xarr V c (ix2 (i 1) k)) 0

/-- The index maps over the five points: the weight block stays at (0, 0), the input block is row block n, the result
    block is column block n. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The weight block at any point is the weight array. -/
theorem wblk_apply (c : Dev nD) (t : Fin cfg1.N) (o k : Fin 512) :
    wblk V c t (ix2 o k) = warr V c (ix2 o k) := by
  obtain ⟨e0, e1, e2, e3, e4, e5⟩ := idx_facts1 t
  unfold wblk warr iblk1
  rw [View.read_apply]
  show V c main_v6 _ = V c main_v6 _
  congr 1
  funext a
  apply Fin.ext
  match a with
  | ⟨0, _⟩ => show win1_0.index t (0 : Fin 2) * 512 + 1 * o.val = o.val; rw [e0]; omega
  | ⟨1, _⟩ => show win1_0.index t (1 : Fin 2) * 512 + 1 * k.val = k.val; rw [e1]; omega

/-- The input block at point t is rows 4096·t … of the input array. -/
theorem xblk_apply (c : Dev nD) (t : Fin cfg1.N) (b : Fin 4096) (k : Fin 512) (r : Fin 20480)
    (hr : r.val = 4096 * t.val + b.val) :
    xblk V c t (ix2 b k) = xarr V c (ix2 r k) := by
  obtain ⟨e0, e1, e2, e3, e4, e5⟩ := idx_facts1 t
  unfold xblk xarr iblk1
  rw [View.read_apply]
  show V c main_v4 _ = V c main_v4 _
  congr 1
  funext a
  apply Fin.ext
  match a with
  | ⟨0, _⟩ => show win1_1.index t (0 : Fin 2) * 4096 + 1 * b.val = r.val; rw [e2, hr]; omega
  | ⟨1, _⟩ => show win1_1.index t (1 : Fin 2) * 512 + 1 * k.val = k.val; rw [e3]; omega

/-- The result block of point t at (o, b) is G at (o, 4096·t + b). -/
theorem out1_blk_apply (c : Dev nD)
    (hpay : ∀ (t : Fin cfg1.N) (o : Fin 512) (b : Fin 4096),
      out1 (F := Ideal) V c t (ix2 o b) = max (∑ k : Fin 512, wblk V c t (ix2 o k) * xblk V c t (ix2 b k)) 0)
    (t : Fin cfg1.N) (y : S512x4096.Idx) (i : S512x20480.Idx)
    (h0 : (i 0).val = (y 0).val) (h1 : (i 1).val = 4096 * t.val + (y 1).val) :
    out1 (F := Ideal) V c t y = G1 V c i := by
  have hy : y = ix2 (n0 := 512) (n1 := 4096) (y 0) (y 1) := eq_ix2 y
  rw [hy, hpay t (y 0) (y 1)]
  unfold G1
  congr 1
  refine Finset.sum_congr rfl fun k _ => ?_
  rw [wblk_apply V c t (y 0) k, xblk_apply V c t (y 1) k (i 1) h1]
  have e : (i 0) = (y 0) := Fin.ext h0
  rw [e]

/-- What point t writes back is its block of G. -/
theorem flushed1_eq (c : Dev nD)
    (hpay : ∀ (t : Fin cfg1.N) (o : Fin 512) (b : Fin 4096),
      out1 (F := Ideal) V c t (ix2 o b) = max (∑ k : Fin 512, wblk V c t (ix2 o k) * xblk V c t (ix2 b k)) 0)
    (t : Fin cfg1.N) :
    (dat1 (F := Ideal) V c).flushed 2 t = ((cfg1.win 2).blk t).view.read (Elt Ideal) (G1 V c) := by
  obtain ⟨e0, e1, e2, e3, e4, e5⟩ := idx_facts1 t
  show (cfg1.win 2).cut (grid1.coords t) ((dat1 (F := Ideal) V c).after 2 t) = _
  rw [after1_2]
  funext j
  rw [View.read_apply]
  refine out1_blk_apply V c hpay t _ _ ?_ ?_
  · show win1_2.index t (0 : Fin 2) * 512 + 1 * (j 0).val = (j 0).val; rw [e4]; omega
  · show win1_2.index t (1 : Fin 2) * 4096 + 1 * (j 1).val = 4096 * t.val + (j 1).val; rw [e5]; omega

/-- An index of the result array is in point t's block iff each coordinate is in the block's range on its axis. -/
theorem mem_blk1 (t : Fin cfg1.N) (i : S512x20480.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v7).slice (win1_2.rect t)).set ↔ _
  rw [View.set_slice_whole, Rect.mem_set_unit]
  exact Iff.rfl

/-- Column b of the result is in the block of point b / 4096. -/
theorem cover_arr1 (i : S512x20480.Idx) :
    ∃ t : Fin cfg1.N, (cfg1.win 2).flush t = true ∧ i ∈ ((cfg1.win 2).blk t).view.set := by
  have hi0 : (i 0).val < 512 := (i 0).isLt
  have hi1 : (i 1).val < 20480 := (i 1).isLt
  have hN : cfg1.N = 5 := N_1
  let t : Fin cfg1.N := ⟨(i 1).val / 4096, by rw [hN]; omega⟩
  obtain ⟨e0, e1, e2, e3, e4, e5⟩ := idx_facts1 t
  have ht : t.val = (i 1).val / 4096 := rfl
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; rw [e4]; omega
  | ⟨1, _⟩ => show win1_2.index t (1 : Fin 2) * 4096 ≤ (i 1).val ∧ (i 1).val < win1_2.index t (1 : Fin 2) * 4096 + 4096; rw [e5, ht]; omega

/-- The result array after the run is G. -/
theorem arr1_eq (c : Dev nD)
    (hpay : ∀ (t : Fin cfg1.N) (o : Fin 512) (b : Fin 4096),
      out1 (F := Ideal) V c t (ix2 o b) = max (∑ k : Fin 512, wblk V c t (ix2 o k) * xblk V c t (ix2 b k)) 0) :
    (dat1 (F := Ideal) V c).arrAt 2 cfg1.N = G1 V c :=
  (dat1 (F := Ideal) V c).arrAt_eq_of_cover 2 (G1 V c) (fun t _ => flushed1_eq V c hpay t) cover_arr1

/-- The result array after the run, entry by entry: max (∑ k, W (o, k) · X (b, k)) 0. -/
theorem arr1_apply (c : Dev nD)
    (hpay : ∀ (t : Fin cfg1.N) (o : Fin 512) (b : Fin 4096),
      out1 (F := Ideal) V c t (ix2 o b) = max (∑ k : Fin 512, wblk V c t (ix2 o k) * xblk V c t (ix2 b k)) 0)
    (o : Fin 512) (b : Fin 20480) :
    (dat1 (F := Ideal) V c).arrAt 2 cfg1.N (ix2 o b) = max (∑ k : Fin 512, warr V c (ix2 o k) * xarr V c (ix2 b k)) 0 := by
  rw [arr1_eq V c hpay]
  rfl

end Cover

end Cert.KernelIdeal.Hand

end
-- ==== Proof.KI.HostChain.lean ====
/-
  The host operations around the two kernels, read at an index.

  Between the kernels: two [20000,256] arrays are laid side by side (a concatenation along axis 1), 480 rows of
  padding are added below, and the result changes format (the identity on extended reals); two [256,512] weight
  matrices are stacked (a concatenation along axis 0) and change format likewise.  After the second kernel its
  [512,20480] result is cut back to 20000 columns and split into its upper and lower 256 rows.  Each of these, at an
  index, is one operand at an index; the two halves of the cut-back result are the two encoders' outputs.
-/
import proofs.«402250_j36103495090682_1_alg».proof.KernelIdeal
import proofs.«402250_j36103495090682_1_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.Hand

open Idealize.ShloMosaic Idealize.ShloMosaic.ValueIdx
open Cert.KernelIdeal Cert.KernelIdeal.Facts₀ Cert.KernelIdeal.Facts

variable [Cert.KernelIdeal.Facts]

/-- The pattern `0x3D800000` denotes the real 1/16. -/
theorem ofBits_sixteenth : Ideal.ofBits .f32 0x3D800000#32 = ((1 / 16 : ℝ) : EReal) := by
  simp [Ideal.ofBits, Ideal.ieee, -EReal.coe_mul]; norm_num

/-- The two [20000,256] arrays side by side. -/
def c2 (A2 A3 : FVec Ideal S20000x256 .f32) : FVec Ideal S20000x512 .f32 :=
  concatenate S20000x512 1 [⟨S20000x256, A2⟩, ⟨S20000x256, A3⟩] concatenates_S20000x256_S20000x256_S20000x512_d1

/-- … with 480 rows of padding below. -/
def padded (A2 A3 : FVec Ideal S20000x256 .f32) : FVec Ideal S20480x512 .f32 :=
  pad S20480x512 ![0, 0] ![480, 0] ![0, 0] (c2 A2 A3) (sitofp (F := Ideal) .f32 (constantI S_ 32 0#32))
    pads_S20000x512_S20480x512_04800_000 h_S_

/-- … in the second kernel's input format. -/
def xin (A2 A3 : FVec Ideal S20000x256 .f32) : FVec Ideal S20480x512 .bf16 :=
  truncf .bf16 (padded A2 A3) bitsLt_bf16_f32

/-- The two weight matrices stacked, in the second kernel's input format. -/
def wcat (W1 W2 : FVec Ideal S256x512 .f32) : FVec Ideal S512x512 .bf16 :=
  truncf .bf16 (concatenate S512x512 0 [⟨S256x512, W1⟩, ⟨S256x512, W2⟩] concatenates_S256x512_S256x512_S512x512_d0)
    bitsLt_bf16_f32

/-- Side by side, a column below 256 reads the first array. -/
theorem c2_apply_lo (A2 A3 : FVec Ideal S20000x256 .f32) (b : Fin 20000) (j : Fin 512) (h : j.val < 256) :
    c2 A2 A3 (ix2 b j) = A2 (ix2 b ⟨j.val, h⟩) :=
  concatenate_pair_apply_left (t := S20000x512) (s₁ := S20000x256) (s₂ := S20000x256) 1 A2 A3
    concatenates_S20000x256_S20000x256_S20000x512_d1 _ rfl _ (fun a => by
      match a with
      | ⟨0, _⟩ => rfl
      | ⟨1, _⟩ => rfl)

/-- Side by side, a column from 256 on reads the second array, 256 less. -/
theorem c2_apply_hi (A2 A3 : FVec Ideal S20000x256 .f32) (b : Fin 20000) (j : Fin 512) (h : ¬ j.val < 256) :
    c2 A2 A3 (ix2 b j) = A3 (ix2 b ⟨j.val - 256, by omega⟩) :=
  concatenate_pair_apply_right (t := S20000x512) (s₁ := S20000x256) (s₂ := S20000x256) 1 A2 A3
    concatenates_S20000x256_S20000x256_S20000x512_d1 _ rfl rfl _
    (fun a ha => by
      match a with
      | ⟨0, _⟩ => rfl
      | ⟨1, _⟩ => exact absurd rfl ha)
    (by show j.val - 256 + 256 = j.val; omega)

/-- A row below 20000 of the second kernel's input is the own row, then the neighbours' row. -/
theorem xin_apply (A2 A3 : FVec Ideal S20000x256 .f32) (b : Fin 20000) (j : Fin 512) :
    xin A2 A3 (ix2 ⟨b.val, by omega⟩ j)
      = if h : j.val < 256 then A2 (ix2 b ⟨j.val, h⟩) else A3 (ix2 b ⟨j.val - 256, by omega⟩) := by
  have e : xin A2 A3 (ix2 ⟨b.val, by omega⟩ j) = c2 A2 A3 (ix2 b j) := by
    show padded A2 A3 (ix2 ⟨b.val, by omega⟩ j) = c2 A2 A3 (ix2 b j)
    exact pad_apply_of_inside (s := S20000x512) (t := S20480x512) ![0, 0] ![480, 0] ![0, 0] (c2 A2 A3) _
      pads_S20000x512_S20480x512_04800_000 h_S_ _ (ix2 b j) (fun a => by
        match a with
        | ⟨0, _⟩ => show b.val = 0 + b.val * (0 + 1); omega
        | ⟨1, _⟩ => show j.val = 0 + j.val * (0 + 1); omega)
  rw [e]
  by_cases h : j.val < 256
  · rw [dif_pos h]; exact c2_apply_lo A2 A3 b j h
  · rw [dif_neg h]; exact c2_apply_hi A2 A3 b j h

/-- The upper 256 rows of the stacked weights are the first matrix. -/
theorem wcat_apply_lo (W1 W2 : FVec Ideal S256x512 .f32) (o : Fin 256) (k : Fin 512) :
    wcat W1 W2 (ix2 ⟨o.val, by omega⟩ k) = W1 (ix2 o k) :=
  concatenate_pair_apply_left (t := S512x512) (s₁ := S256x512) (s₂ := S256x512) 0 W1 W2
    concatenates_S256x512_S256x512_S512x512_d0 _ rfl _ (fun a => by
      match a with
      | ⟨0, _⟩ => rfl
      | ⟨1, _⟩ => rfl)

/-- The lower 256 rows of the stacked weights are the second matrix. -/
theorem wcat_apply_hi (W1 W2 : FVec Ideal S256x512 .f32) (o : Fin 256) (k : Fin 512) :
    wcat W1 W2 (ix2 ⟨o.val + 256, by omega⟩ k) = W2 (ix2 o k) :=
  concatenate_pair_apply_right (t := S512x512) (s₁ := S256x512) (s₂ := S256x512) 0 W1 W2
    concatenates_S256x512_S256x512_S512x512_d0 _ rfl rfl _
    (fun a ha => by
      match a with
      | ⟨0, _⟩ => exact absurd rfl ha
      | ⟨1, _⟩ => rfl)
    rfl

/-- A row below 20000 of the second kernel's input is that batch row of the encoders' input. -/
theorem xin_eq_comb (nodes : IVec S20000 32) (neigh : IVec S20000x16 32) (feat : FVec Ideal S100000x256 .f32)
    (A2 A3 : FVec Ideal S20000x256 .f32)
    (hA2 : ∀ (b : Fin 20000) (d : Fin 256), A2 (ix2 b d) = Cert.Spec.selfRow nodes feat b d)
    (hA3 : ∀ (b : Fin 20000) (d : Fin 256),
      A3 (ix2 b d) = Cert.Spec.neighSum neigh feat b d * Ideal.ofBits .f32 0x3D800000#32)
    (b : Fin 20000) (k : Fin 512) :
    xin A2 A3 (ix2 ⟨b.val, by omega⟩ k) = Cert.Spec.comb nodes neigh feat b k := by
  rw [xin_apply]
  unfold Cert.Spec.comb
  by_cases h : k.val < 256
  · rw [dif_pos h, dif_pos h, hA2]
  · rw [dif_neg h, dif_neg h, hA3, ofBits_sixteenth]

/-- The second kernel's result, cut back to 20000 columns: its upper 256 rows are the first encoder's output and its
    lower 256 rows the second's. -/
theorem results (nodes : IVec S20000 32) (neigh : IVec S20000x16 32) (feat : FVec Ideal S100000x256 .f32)
    (W1 W2 : FVec Ideal S256x512 .f32) (A2 A3 : FVec Ideal S20000x256 .f32) (X : FVec Ideal S512x20480 .f32)
    (hA2 : ∀ (b : Fin 20000) (d : Fin 256), A2 (ix2 b d) = Cert.Spec.selfRow nodes feat b d)
    (hA3 : ∀ (b : Fin 20000) (d : Fin 256),
      A3 (ix2 b d) = Cert.Spec.neighSum neigh feat b d * Ideal.ofBits .f32 0x3D800000#32)
    (hX : ∀ (o : Fin 512) (b : Fin 20480),
      X (ix2 o b) = max (∑ k : Fin 512, wcat W1 W2 (ix2 o k) * xin A2 A3 (ix2 b k)) 0) :
    extractStridedSlice S256x20000 ![0, 0]
        (extractStridedSlice S512x20000 ![0, 0] X slices_S512x20480_S512x20000_0_0) slices_S512x20000_S256x20000_0_0
      = Cert.Spec.G nodes neigh feat W1
    ∧ extractStridedSlice S256x20000 ![256, 0]
        (extractStridedSlice S512x20000 ![0, 0] X slices_S512x20480_S512x20000_0_0) slices_S512x20000_S256x20000_256_0
      = Cert.Spec.G nodes neigh feat W2 := by
  constructor
  · funext i
    obtain ⟨o, b, rfl⟩ : ∃ (o : Fin 256) (b : Fin 20000), i = ix2 o b := ⟨_, _, eq_ix2 i⟩
    refine (extractStridedSlice_apply (s := S512x20000) (t := S256x20000) ![0, 0] _ slices_S512x20000_S256x20000_0_0
      (ix2 o b) (ix2 ⟨o.val, by omega⟩ b) (fun a => by
        match a with
        | ⟨0, _⟩ => show o.val = 0 + o.val; omega
        | ⟨1, _⟩ => show b.val = 0 + b.val; omega)).trans ?_
    refine (extractStridedSlice_apply (s := S512x20480) (t := S512x20000) ![0, 0] X slices_S512x20480_S512x20000_0_0
      (ix2 ⟨o.val, by omega⟩ b) (ix2 ⟨o.val, by omega⟩ ⟨b.val, by omega⟩) (fun a => by
        match a with
        | ⟨0, _⟩ => show o.val = 0 + o.val; omega
        | ⟨1, _⟩ => show b.val = 0 + b.val; omega)).trans ?_
    rw [hX]
    show _ = max (∑ j : Fin 512, W1 (ix2 o j) * Cert.Spec.comb nodes neigh feat b j) 0
    refine congrArg (fun s : EReal => max s 0) (Finset.sum_congr rfl fun k _ => ?_)
    rw [wcat_apply_lo, xin_eq_comb nodes neigh feat A2 A3 hA2 hA3]
  · funext i
    obtain ⟨o, b, rfl⟩ : ∃ (o : Fin 256) (b : Fin 20000), i = ix2 o b := ⟨_, _, eq_ix2 i⟩
    refine (extractStridedSlice_apply (s := S512x20000) (t := S256x20000) ![256, 0] _ slices_S512x20000_S256x20000_256_0
      (ix2 o b) (ix2 ⟨o.val + 256, by omega⟩ b) (fun a => by
        match a with
        | ⟨0, _⟩ => show o.val + 256 = 256 + o.val; omega
        | ⟨1, _⟩ => show b.val = 0 + b.val; omega)).trans ?_
    refine (extractStridedSlice_apply (s := S512x20480) (t := S512x20000) ![0, 0] X slices_S512x20480_S512x20000_0_0
      (ix2 ⟨o.val + 256, by omega⟩ b) (ix2 ⟨o.val + 256, by omega⟩ ⟨b.val, by omega⟩) (fun a => by
        match a with
        | ⟨0, _⟩ => show o.val + 256 = 0 + (o.val + 256); omega
        | ⟨1, _⟩ => show b.val = 0 + b.val; omega)).trans ?_
    rw [hX]
    show _ = max (∑ j : Fin 512, W2 (ix2 o j) * Cert.Spec.comb nodes neigh feat b j) 0
    refine congrArg (fun s : EReal => max s 0) (Finset.sum_congr rfl fun k _ => ?_)
    rw [wcat_apply_hi, xin_eq_comb nodes neigh feat A2 A3 hA2 hA3]

end Cert.KernelIdeal.Hand

end
-- ==== Proof.KI.HostRead.lean ====
/-
  The host stretches around the two kernels, read off the buffers.  From any contents before the three stretches
  between the kernels, the second kernel's weight operand is the two encoders stacked and narrowed, and its input operand
  is the two gathered arrays laid side by side, padded to 20480 rows and narrowed.  From any contents before the last
  stretch, the two results are the upper and the lower 256 rows of the second kernel's result cut back to 20000 columns.
-/
import proofs.«402250_j36103495090682_1_alg».proof.Proof.Gen.KernelIdeal.Launch
import proofs.«402250_j36103495090682_1_alg».proof.Proof.KI.HostChain
import Idealize.ShloMosaic.Lib.StableHlo.Run

set_option maxRecDepth 16384

noncomputable section

namespace Cert.KernelIdeal.Hand

open Idealize.ShloMosaic Idealize.ShloMosaic.TcCoe
open Idealize.SL Idealize.SL.Sem
open Idealize.ShloMosaic.ValueIdx
open Cert.KernelIdeal Cert.KernelIdeal.Gen

/-- The weight operand after the three stretches: the two encoders stacked, narrowed. -/
theorem mid_main_v6 (Wv : Valuation τ sig (Elt Ideal)) :
    (StableHlo.after hostOps1_2 (StableHlo.after hostOps1_1 (StableHlo.after hostOps1 Wv)) (Proc.devRef .tc main_v6) : S512x512.Idx → EReal)
      = wcat (Wv (Proc.devRef .tc main_arg3)) (Wv (Proc.devRef .tc main_arg4)) := by
  after_results
  rfl

/-- The input operand after the three stretches: the two gathered arrays side by side, padded, narrowed. -/
theorem mid_main_v4 (Wv : Valuation τ sig (Elt Ideal)) :
    (StableHlo.after hostOps1_2 (StableHlo.after hostOps1_1 (StableHlo.after hostOps1 Wv)) (Proc.devRef .tc main_v4) : S20480x512.Idx → EReal)
      = xin (Wv (Proc.devRef .tc main_v1_0)) (Wv (Proc.devRef .tc main_v1_1)) := by
  after_results
  rfl

/-- The first result after the last stretch: the upper 256 rows of the product's result cut back to 20000 columns. -/
theorem end_main_v9 (Wv : Valuation τ sig (Elt Ideal)) :
    (StableHlo.after hostOps2 Wv (Proc.devRef .tc main_v9) : S256x20000.Idx → EReal)
      = extractStridedSlice S256x20000 ![0, 0]
          (extractStridedSlice S512x20000 ![0, 0] (Wv (Proc.devRef .tc main_v7) : S512x20480.Idx → EReal) slices_S512x20480_S512x20000_0_0)
          slices_S512x20000_S256x20000_0_0 := by
  after_results

/-- The second result: the lower 256 rows. -/
theorem end_main_v10 (Wv : Valuation τ sig (Elt Ideal)) :
    (StableHlo.after hostOps2 Wv (Proc.devRef .tc main_v10) : S256x20000.Idx → EReal)
      = extractStridedSlice S256x20000 ![256, 0]
          (extractStridedSlice S512x20000 ![0, 0] (Wv (Proc.devRef .tc main_v7) : S512x20480.Idx → EReal) slices_S512x20480_S512x20000_0_0)
          slices_S512x20000_S256x20000_256_0 := by
  after_results

end Cert.KernelIdeal.Hand

end
-- ==== Proof.KI.Cover0.lean ====
/-
  From the gather kernel's blocks to its whole arrays.  The first kernel runs over 2500 points; point t holds rows
  8t … 8t+7 of the node column and of the neighbour table, and writes rows 8t … 8t+7 of the two 20000×256 result arrays.
  A block of an index array is those rows of the array.  Given that each point's result block is, entry by entry, the
  restriction of one function G of the whole arrays, the 2500 row blocks cover the result, and so the result array ends
  holding G.
-/
import proofs.«402250_j36103495090682_1_alg».proof.Proof.KI.Body0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open scoped BigOperators

/-- The index maps over the 2500 points: every window's block at point t is row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An index of the first result array is in point t's block iff each coordinate is in the block's range on its axis. -/
theorem mem_blk0_2 (t : Fin cfg0.N) (i : S20000x256.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v1_0).slice (win0_2.rect t)).set ↔ _
  rw [View.set_slice_whole, Rect.mem_set_unit]
  exact Iff.rfl
/-- Likewise for the second result array. -/
theorem mem_blk0_3 (t : Fin cfg0.N) (i : S20000x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v1_1).slice (win0_3.rect t)).set ↔ _
  rw [View.set_slice_whole, Rect.mem_set_unit]
  exact Iff.rfl

/-- Row b of the first result array is in the block of point b / 8. -/
theorem cover_arr0_2 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 2500 := N_0
  let t : Fin cfg0.N := ⟨(i 0).val / 8, by rw [hN]; omega⟩
  obtain ⟨e0, e1, e2, e3, e4, e5, e6, e7⟩ := idx_facts0 t
  have ht : t.val = (i 0).val / 8 := rfl
  refine ⟨t, flush0_2 t, ?_⟩
  rw [mem_blk0_2]
  intro a
  match a with
  | ⟨0, _⟩ => show win0_2.index t (0 : Fin 2) * 8 ≤ (i 0).val ∧ (i 0).val < win0_2.index t (0 : Fin 2) * 8 + 8; rw [e4, ht]; omega
  | ⟨1, _⟩ => show win0_2.index t (1 : Fin 2) * 256 ≤ (i 1).val ∧ (i 1).val < win0_2.index t (1 : Fin 2) * 256 + 256; rw [e5]; omega
/-- Likewise for the second result array. -/
theorem cover_arr0_3 (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  have hN : cfg0.N = 2500 := N_0
  let t : Fin cfg0.N := ⟨(i 0).val / 8, by rw [hN]; omega⟩
  obtain ⟨e0, e1, e2, e3, e4, e5, e6, e7⟩ := idx_facts0 t
  have ht : t.val = (i 0).val / 8 := rfl
  refine ⟨t, flush0_3 t, ?_⟩
  rw [mem_blk0_3]
  intro a
  match a with
  | ⟨0, _⟩ => show win0_3.index t (0 : Fin 2) * 8 ≤ (i 0).val ∧ (i 0).val < win0_3.index t (0 : Fin 2) * 8 + 8; rw [e6, ht]; omega
  | ⟨1, _⟩ => show win0_3.index t (1 : Fin 2) * 256 ≤ (i 1).val ∧ (i 1).val < win0_3.index t (1 : Fin 2) * 256 + 256; rw [e7]; omega

section Cover
variable (V : (c : Dev nD) → (b : Ref sig .tc) → Buf (Elt Ideal) ((c : Thread nD τ).loc b))

/-- The node block of point t is rows 8t … 8t+7 of the node column. -/
theorem iblk0_0_apply (c : Dev nD) (t : Fin cfg0.N) (r : Fin 8) :
    (iblk0 (F := Ideal) V c 0 t : S8x1.Idx → BitVec 32) (ix2 r 0)
      = (V c main_v0 : S20000x1.Idx → BitVec 32)
          (ix2 ⟨8 * t.val + r.val, by have h : t.val < cfg0.N := t.isLt; have hN : cfg0.N = 2500 := N_0; omega⟩ 0) := by
  obtain ⟨e0, e1, e2, e3, e4, e5, e6, e7⟩ := idx_facts0 t
  unfold iblk0
  rw [View.read_apply]
  show V c main_v0 _ = V c main_v0 _
  congr 1
  funext a
  apply Fin.ext
  match a with
  | ⟨0, _⟩ => show win0_0.index t (0 : Fin 2) * 8 + 1 * r.val = 8 * t.val + r.val; rw [e0]; omega
  | ⟨1, _⟩ => show win0_0.index t (1 : Fin 2) * 1 + 1 * 0 = 0; rw [e1]

/-- The neighbour block of point t is rows 8t … 8t+7 of the neighbour table. -/
theorem iblk0_1_apply (c : Dev nD) (t : Fin cfg0.N) (r : Fin 8) (k : Fin 16) :
    (iblk0 (F := Ideal) V c 1 t : S8x16.Idx → BitVec 32) (ix2 r k)
      = (V c main_arg1 : S20000x16.Idx → BitVec 32)
          (ix2 ⟨8 * t.val + r.val, by have h : t.val < cfg0.N := t.isLt; have hN : cfg0.N = 2500 := N_0; omega⟩ k) := by
  obtain ⟨e0, e1, e2, e3, e4, e5, e6, e7⟩ := idx_facts0 t
  unfold iblk0
  rw [View.read_apply]
  show V c main_arg1 _ = V c main_arg1 _
  congr 1
  funext a
  apply Fin.ext
  match a with
  | ⟨0, _⟩ => show win0_1.index t (0 : Fin 2) * 8 + 1 * r.val = 8 * t.val + r.val; rw [e2]; omega
  | ⟨1, _⟩ => show win0_1.index t (1 : Fin 2) * 16 + 1 * k.val = k.val; rw [e3]; omega

variable (hV : Hyp0 V)

/-- A result block whose entry (r, d) is G at (8t + r, d), read at any index of the block and any index of the array
    with those coordinates. -/
theorem blk_apply_of (G : S20000x256.Idx → EReal) (t : Fin cfg0.N) (o : S8x256.Idx → EReal)
    (hblk : ∀ (r : Fin 8) (d : Fin 256),
      o (ix2 r d) = G (ix2 ⟨8 * t.val + r.val, by have h : t.val < cfg0.N := t.isLt; have hN : cfg0.N = 2500 := N_0; omega⟩ d))
    (y : S8x256.Idx) (i : S20000x256.Idx)
    (h0 : (i 0).val = 8 * t.val + (y 0).val) (h1 : (i 1).val = (y 1).val) : o y = G i := by
  have hy : y = ix2 (n0 := 8) (n1 := 256) (y 0) (y 1) := eq_ix2 y
  rw [hy, hblk (y 0) (y 1)]
  refine congrArg G (funext fun a => Fin.ext ?_)
  match a with
  | ⟨0, _⟩ => exact h0.symm
  | ⟨1, _⟩ => exact h1.symm

/-- What point t writes back to the first result array is its block of G. -/
theorem flushed0_2_eq (c : Dev nD) (G2 : S20000x256.Idx → EReal)
    (hblk : ∀ (t : Fin cfg0.N) (r : Fin 8) (d : Fin 256), out0_2 (F := Ideal) V hV c t (ix2 r d)
      = G2 (ix2 ⟨8 * t.val + r.val, by have h : t.val < cfg0.N := t.isLt; have hN : cfg0.N = 2500 := N_0; omega⟩ d))
    (t : Fin cfg0.N) :
    (dat0 (F := Ideal) V hV c).flushed 2 t = ((cfg0.win 2).blk t).view.read (Elt Ideal) G2 := by
  obtain ⟨e0, e1, e2, e3, e4, e5, e6, e7⟩ := idx_facts0 t
  show (cfg0.win 2).cut (grid0.coords t) ((dat0 (F := Ideal) V hV c).after 2 t) = _
  rw [after0_2]
  funext j
  rw [View.read_apply]
  refine blk_apply_of G2 t (out0_2 (F := Ideal) V hV c t) (hblk t) _ _ ?_ ?_
  · show win0_2.index t (0 : Fin 2) * 8 + 1 * (j 0).val = 8 * t.val + (j 0).val; rw [e4]; omega
  · show win0_2.index t (1 : Fin 2) * 256 + 1 * (j 1).val = (j 1).val; rw [e5]; omega

/-- What point t writes back to the second result array is its block of G. -/
theorem flushed0_3_eq (c : Dev nD) (G3 : S20000x256.Idx → EReal)
    (hblk : ∀ (t : Fin cfg0.N) (r : Fin 8) (d : Fin 256), out0_3 (F := Ideal) V hV c t (ix2 r d)
      = G3 (ix2 ⟨8 * t.val + r.val, by have h : t.val < cfg0.N := t.isLt; have hN : cfg0.N = 2500 := N_0; omega⟩ d))
    (t : Fin cfg0.N) :
    (dat0 (F := Ideal) V hV c).flushed 3 t = ((cfg0.win 3).blk t).view.read (Elt Ideal) G3 := by
  obtain ⟨e0, e1, e2, e3, e4, e5, e6, e7⟩ := idx_facts0 t
  show (cfg0.win 3).cut (grid0.coords t) ((dat0 (F := Ideal) V hV c).after 3 t) = _
  rw [after0_3]
  funext j
  rw [View.read_apply]
  refine blk_apply_of G3 t (out0_3 (F := Ideal) V hV c t) (hblk t) _ _ ?_ ?_
  · show win0_3.index t (0 : Fin 2) * 8 + 1 * (j 0).val = 8 * t.val + (j 0).val; rw [e6]; omega
  · show win0_3.index t (1 : Fin 2) * 256 + 1 * (j 1).val = (j 1).val; rw [e7]; omega

/-- The first result array after the run is G2. -/
theorem arr0_self (c : Dev nD) (G2 : S20000x256.Idx → EReal)
    (hblk : ∀ (t : Fin cfg0.N) (r : Fin 8) (d : Fin 256), out0_2 (F := Ideal) V hV c t (ix2 r d)
      = G2 (ix2 ⟨8 * t.val + r.val, by have h : t.val < cfg0.N := t.isLt; have hN : cfg0.N = 2500 := N_0; omega⟩ d)) :
    (dat0 (F := Ideal) V hV c).arrAt 2 cfg0.N = G2 :=
  (dat0 (F := Ideal) V hV c).arrAt_eq_of_cover 2 G2 (fun t _ => flushed0_2_eq V hV c G2 hblk t) cover_arr0_2

/-- The second result array after the run is G3. -/
theorem arr0_mean (c : Dev nD) (G3 : S20000x256.Idx → EReal)
    (hblk : ∀ (t : Fin cfg0.N) (r : Fin 8) (d : Fin 256), out0_3 (F := Ideal) V hV c t (ix2 r d)
      = G3 (ix2 ⟨8 * t.val + r.val, by have h : t.val < cfg0.N := t.isLt; have hN : cfg0.N = 2500 := N_0; omega⟩ d)) :
    (dat0 (F := Ideal) V hV c).arrAt 3 cfg0.N = G3 :=
  (dat0 (F := Ideal) V hV c).arrAt_eq_of_cover 3 G3 (fun t _ => flushed0_3_eq V hV c G3 hblk t) cover_arr0_3

end Cover

end Cert.KernelIdeal.Hand

end
-- ==== Proof.KI.Value0a.lean ====
/-
  The gather kernel's first output block, entry by entry.  One grid point serves eight batch rows; for batch row r the
  body copies the table row named by word r of the node block into one of the two scratch rows, loads that scratch row
  back, and stores it as row r of the first output block.  A scratch row loaded right after the copy into it (with at
  most one later copy, into the other row, on top) is the copy's payload; the payload is the table's row at the word; the
  word is the node block's entry (r, 0); and the value stored is the value loaded.  So the eight one-row pieces the run
  leaves are the rows of one function of the node block and the table, they tile the block, and the block read back
  through any view is that function: entry (r, d) is the table at (node word r, d).
-/
import proofs.«402250_j36103495090682_1_alg».proof.Proof.KI.Run0
import proofs.«402250_j36103495090682_1_alg».proof.Proof.KI.Rows
import Idealize.ShloMosaic.Lib.ValueIdx
import Idealize.ShloMosaic.Lib.Pipeline.Value
import Idealize.ShloMosaic.Lib.WritesUnit
import Idealize.ShloMosaic.Lib.WholeRead
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal Cert.KernelIdeal.Gen
open scoped BigOperators

section Scratch
variable {Val : EltTy → Type}

/-- A scratch row read back right after a copy into it: the copy's payload, as a one-row block. -/
theorem scr_hit (M : Memref sig .tc .vmem S2x256 .f32) (off : Fin 2 → ℕ) (inb : ∀ a, off a + S1x256.size a ≤ S2x256.size a)
    (hr : ∀ a, (Rect.unit (s := S2x256) off S1x256.size inb).stride a = 1)
    (hq : (Rect.unit (s := S2x256) off S1x256.size inb).shape.Squeezes S256)
    (g : M.view.ty.Contents Val) (w : S256.Idx → Val .f32) :
    M.view.readAt Val (Rect.unit (s := S2x256) off S1x256.size inb).toLoadRect
        (((M.slice (Rect.unit (s := S2x256) off S1x256.size inb) hr).squeeze S256 hq).view.write Val g w Finset.univ)
      = shapeCast S1x256 w shapeCasts_S256_S1x256 := by
  have e := Memref.read_squeeze_slice M (Rect.unit (s := S2x256) off S1x256.size inb) hr hq shapeCasts_S1x256_S256
    (((M.slice (Rect.unit (s := S2x256) off S1x256.size inb) hr).squeeze S256 hq).view.write Val g w Finset.univ)
  rw [View.read_write_univ] at e
  exact (shapeCast_shapeCast _ shapeCasts_S1x256_S256 shapeCasts_S256_S1x256).symm.trans
    (congrArg (fun z => shapeCast S1x256 z shapeCasts_S256_S1x256) e.symm)

/-- A scratch row read after a copy into the OTHER row: what it held before that copy. -/
theorem scr_miss (M : Memref sig .tc .vmem S2x256 .f32) (off off' : Fin 2 → ℕ) (a b : ℕ) (hoff : off = ![a, 0]) (hoff' : off' = ![b, 0]) (hab : a ≠ b)
    (inb : ∀ a, off a + S1x256.size a ≤ S2x256.size a) (inb' : ∀ a, off' a + S1x256.size a ≤ S2x256.size a)
    (hr : ∀ a, (Rect.unit (s := S2x256) off' S1x256.size inb').stride a = 1)
    (hq : (Rect.unit (s := S2x256) off' S1x256.size inb').shape.Squeezes S256)
    (g : M.view.ty.Contents Val) (w : S256.Idx → Val .f32) :
    M.view.readAt Val (Rect.unit (s := S2x256) off S1x256.size inb).toLoadRect
        (((M.slice (Rect.unit (s := S2x256) off' S1x256.size inb') hr).squeeze S256 hq).view.write Val g w Finset.univ)
      = M.view.readAt Val (Rect.unit (s := S2x256) off S1x256.size inb).toLoadRect g := by
  subst hoff hoff'
  funext j
  rw [View.readAt_apply, View.readAt_apply]
  have hw := View.write_reshape_univ (v := M.view.slice (Rect.unit (s := S2x256) ![b, 0] S1x256.size inb')) hq.numel_eq g w
  show M.view.read Val (((M.view.slice (Rect.unit (s := S2x256) ![b, 0] S1x256.size inb')).reshape S256 hq.numel_eq).write Val g w Finset.univ) _ = _
  rw [hw]
  refine View.read_slice_write_of_not_mem _ _ _ _ ?_
  rw [Rect.map_emb_univ, Rect.mem_set_unit]
  intro hall
  have h0 := hall 0
  change b ≤ a + 1 * (j 0).val ∧ a + 1 * (j 0).val < b + 1 at h0
  have hj0 : (j 0).val < 1 := (j 0).isLt
  omega

/-- Row 0 read after a copy into row 1. -/
theorem scr_miss01 (M : Memref sig .tc .vmem S2x256 .f32)
    (inb : ∀ a, (![0, 0] : Fin 2 → ℕ) a + S1x256.size a ≤ S2x256.size a) (inb' : ∀ a, (![1, 0] : Fin 2 → ℕ) a + S1x256.size a ≤ S2x256.size a)
    (hr : ∀ a, (Rect.unit (s := S2x256) ![1, 0] S1x256.size inb').stride a = 1)
    (hq : (Rect.unit (s := S2x256) ![1, 0] S1x256.size inb').shape.Squeezes S256)
    (g : M.view.ty.Contents Val) (w : S256.Idx → Val .f32) :
    M.view.readAt Val (Rect.unit (s := S2x256) ![0, 0] S1x256.size inb).toLoadRect
        (((M.slice (Rect.unit (s := S2x256) ![1, 0] S1x256.size inb') hr).squeeze S256 hq).view.write Val g w Finset.univ)
      = M.view.readAt Val (Rect.unit (s := S2x256) ![0, 0] S1x256.size inb).toLoadRect g :=
  scr_miss M _ _ 0 1 rfl rfl (by decide) inb inb' hr hq g w
/-- Row 1 read after a copy into row 0. -/
theorem scr_miss10 (M : Memref sig .tc .vmem S2x256 .f32)
    (inb : ∀ a, (![1, 0] : Fin 2 → ℕ) a + S1x256.size a ≤ S2x256.size a) (inb' : ∀ a, (![0, 0] : Fin 2 → ℕ) a + S1x256.size a ≤ S2x256.size a)
    (hr : ∀ a, (Rect.unit (s := S2x256) ![0, 0] S1x256.size inb').stride a = 1)
    (hq : (Rect.unit (s := S2x256) ![0, 0] S1x256.size inb').shape.Squeezes S256)
    (g : M.view.ty.Contents Val) (w : S256.Idx → Val .f32) :
    M.view.readAt Val (Rect.unit (s := S2x256) ![1, 0] S1x256.size inb).toLoadRect
        (((M.slice (Rect.unit (s := S2x256) ![0, 0] S1x256.size inb') hr).squeeze S256 hq).view.write Val g w Finset.univ)
      = M.view.readAt Val (Rect.unit (s := S2x256) ![1, 0] S1x256.size inb).toLoadRect g :=
  scr_miss M _ _ 1 0 rfl rfl (by decide) inb inb' hr hq g w

end Scratch

section Payloads
variable {F : FTy → Type} [FloatOps F]
/-- The own row of each of the other batch rows is stored as it was loaded. -/
theorem self_pay24 (a : Vec F S1x256 .f32) : k0_pay24 a = a := by pay_open
theorem self_pay48 (a : Vec F S1x256 .f32) : k0_pay48 a = a := by pay_open
theorem self_pay60 (a : Vec F S1x256 .f32) : k0_pay60 a = a := by pay_open
theorem self_pay72 (a : Vec F S1x256 .f32) : k0_pay72 a = a := by pay_open
theorem self_pay83 (a : Vec F S1x256 .f32) : k0_pay83 a = a := by pay_open

/-- A source row of a copy whose offset is computed from a word equal to `w`: the table's row `w`. -/
theorem src_row_read_word (fh : S100000x256.Idx → Elt F .f32) (offf : BitVec 32 → Fin 2 → ℕ) (hoffF : ∀ w, offf w = ![w.toNat, 0])
    (wd w : BitVec 32) (hwd : wd = w) (hw : w.toNat < 100000)
    (inb : ∀ a, offf wd a + S1x256.size a ≤ S100000x256.size a)
    (h1 : ∀ a, (Rect.unit (s := S100000x256) (offf wd) S1x256.size inb).stride a = 1)
    (h2 : (Rect.unit (s := S100000x256) (offf wd) S1x256.size inb).shape.Squeezes S256) (d : Fin 256) :
    (((Memref.whole main_arg2).slice (Rect.unit (s := S100000x256) (offf wd) S1x256.size inb) h1).squeeze S256 h2).view.read (Elt F) fh (ix1 d)
      = fh (ix2 ⟨w.toNat, hw⟩ d) := by
  subst hwd
  exact src_row_read fh _ _ hw (hoffF wd) inb h1 h2 d
end Payloads

/-- A word loaded from row k of the node block is the block's word there. -/
macro "self_word_read" : tactic => `(tactic| (
  simp only [View.readAt_apply, Memref.IsWhole.read_unread]
  exact congrArg _ (funext fun a => Fin.ext (by match a with | ⟨0, _⟩ => rfl | ⟨1, _⟩ => rfl))))

/-- Row 0 of the first output block: the table row the node block's word 0 names. -/
theorem self_row0 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay12 (kernelRun0.sl.v293 (F := Ideal) c arg1 harg1 arg2 harg2 arg6 x0 x1 fh0 fs0 hx0 hx1) (ix2 u d)
      = (fh0 : S100000x256.Idx → EReal) (ix2 ⟨(x0 (ix2 (⟨0, by decide⟩ : Fin 8) (0 : Fin 1))).toNat, hx0 _⟩ d) := by
  rw [pay12_fn]
  unfold kernelRun0.sl.v293
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 1 of the first output block: the table row the node block's word 1 names. -/
theorem self_row1 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay24 (kernelRun0.sl.v592 (F := Ideal) c arg1 harg1 arg2 harg2 arg6 x0 x1 fh0 fs0 hx0 hx1) (ix2 u d)
      = (fh0 : S100000x256.Idx → EReal) (ix2 ⟨(x0 (ix2 (⟨1, by decide⟩ : Fin 8) (0 : Fin 1))).toNat, hx0 _⟩ d) := by
  rw [self_pay24]
  unfold kernelRun0.sl.v592
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 2 of the first output block: the table row the node block's word 2 names. -/
theorem self_row2 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay37 (kernelRun0.sl.r_79 (F := Ideal) c arg1 harg1 arg2 harg2 arg6 x0 x1 fh0 fs0 hx0 hx1) (ix2 u d)
      = (fh0 : S100000x256.Idx → EReal) (ix2 ⟨(x0 (ix2 (⟨2, by decide⟩ : Fin 8) (0 : Fin 1))).toNat, hx0 _⟩ d) := by
  unfold kernelRun0.sl.r_79
  rw [pay37_36_fn]
  unfold kernelRun0.sl.v891
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 3 of the first output block: the table row the node block's word 3 names. -/
theorem self_row3 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay48 (kernelRun0.sl.v1190 (F := Ideal) c arg1 harg1 arg2 harg2 arg6 x0 x1 fh0 fs0 hx0 hx1) (ix2 u d)
      = (fh0 : S100000x256.Idx → EReal) (ix2 ⟨(x0 (ix2 (⟨3, by decide⟩ : Fin 8) (0 : Fin 1))).toNat, hx0 _⟩ d) := by
  rw [self_pay48]
  unfold kernelRun0.sl.v1190
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 4 of the first output block: the table row the node block's word 4 names. -/
theorem self_row4 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay60 (kernelRun0.sl.v1489 (F := Ideal) c arg1 harg1 arg2 harg2 arg6 x0 x1 fh0 fs0 hx0 hx1) (ix2 u d)
      = (fh0 : S100000x256.Idx → EReal) (ix2 ⟨(x0 (ix2 (⟨4, by decide⟩ : Fin 8) (0 : Fin 1))).toNat, hx0 _⟩ d) := by
  rw [self_pay60]
  unfold kernelRun0.sl.v1489
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 5 of the first output block: the table row the node block's word 5 names. -/
theorem self_row5 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay72 (kernelRun0.sl.v1788 (F := Ideal) c arg1 harg1 arg2 harg2 arg6 x0 x1 fh0 fs0 hx0 hx1) (ix2 u d)
      = (fh0 : S100000x256.Idx → EReal) (ix2 ⟨(x0 (ix2 (⟨5, by decide⟩ : Fin 8) (0 : Fin 1))).toNat, hx0 _⟩ d) := by
  rw [self_pay72]
  unfold kernelRun0.sl.v1788
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 6 of the first output block: the table row the node block's word 6 names. -/
theorem self_row6 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay83 (kernelRun0.sl.v2087 (F := Ideal) c arg1 harg1 arg2 harg2 arg6 x0 x1 fh0 fs0 hx0 hx1) (ix2 u d)
      = (fh0 : S100000x256.Idx → EReal) (ix2 ⟨(x0 (ix2 (⟨6, by decide⟩ : Fin 8) (0 : Fin 1))).toNat, hx0 _⟩ d) := by
  rw [self_pay83]
  unfold kernelRun0.sl.v2087
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- Row 7 of the first output block: the table row the node block's word 7 names. -/
theorem self_row7 (c : Dev nD)
    (arg1 : Memref sig .tc .smem S8x1 .i32) (harg1 : arg1.IsWhole) (arg2 : Memref sig .tc .smem S8x16 .i32) (harg2 : arg2.IsWhole)
    (arg6 : Memref sig .tc .vmem S2x256 .f32)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (u : Fin 1) (d : Fin 256) :
    k0_pay1 (kernelRun0.sl.r_209 (F := Ideal) c arg1 harg1 arg2 harg2 arg6 x0 x1 fh0 fs0 hx0 hx1) (ix2 u d)
      = (fh0 : S100000x256.Idx → EReal) (ix2 ⟨(x0 (ix2 (⟨7, by decide⟩ : Fin 8) (0 : Fin 1))).toNat, hx0 _⟩ d) := by
  unfold kernelRun0.sl.r_209
  rw [pay1_95_fn]
  unfold kernelRun0.sl.v2379
  first | rw [scr_miss01, scr_hit] | rw [scr_miss10, scr_hit] | rw [scr_hit]
  refine (shapeCast_a_1a_apply _ _ u d).trans ?_
  sl_unfold_run_names
  refine src_row_read_word fh0 _ (fun _ => rfl) _ _ ?_ (hx0 _) _ _ _ d
  self_word_read

/-- The first output block as one function of the node block and the table: entry (r, d) is the table's row named by
    the block's word r, at column d. -/
def selfBlock (x0 : Vec Ideal S8x1 .i32) (fh : S100000x256.Idx → EReal) (hx0 : ∀ j, (x0 j).toNat < 100000) : S8x256.Idx → EReal :=
  fun j => fh (ix2 ⟨(x0 (ix2 (j 0) (0 : Fin 1))).toNat, hx0 _⟩ (j 1))

/-- A one-row piece at row k whose payload is row k of that function is a block of it. -/
theorem self_piece (x0 : Vec Ideal S8x1 .i32) (fh : S100000x256.Idx → EReal) (hx0 : ∀ j, (x0 j).toNat < 100000)
    (k : ℕ) (hk : k < 8) (inb : ∀ a, (![k, 0] : Fin 2 → ℕ) a + (![1, 256] : Fin 2 → ℕ) a ≤ S8x256.size a)
    (w : S1x256.Idx → EReal)
    (hw : ∀ (u : Fin 1) (d : Fin 256), w (ix2 u d) = fh (ix2 ⟨(x0 (ix2 (⟨k, hk⟩ : Fin 8) (0 : Fin 1))).toNat, hx0 _⟩ d))
    (x : S1x256.Idx) :
    w x = selfBlock x0 fh hx0 ((Rect.unit (s := S8x256) ![k, 0] ![1, 256] inb).emb x) := by
  have hx : x = ix2 (n0 := 1) (n1 := 256) (x 0) (x 1) := eq_ix2 x
  have he : (Rect.unit (s := S8x256) ![k, 0] ![1, 256] inb).emb x = ix2 (⟨k, hk⟩ : Fin 8) (x 1) := by
    funext a
    apply Fin.ext
    have h0 : (x 0).val < 1 := (x 0).isLt
    match a with
    | ⟨0, _⟩ => show k + 1 * (x 0).val = k; omega
    | ⟨1, _⟩ => show 0 + 1 * (x 1).val = (x 1).val; omega
  rw [he]
  exact (congrArg w hx).trans (hw (x 0) (x 1))

/-- The first output block after the run: entry (r, d) is the own feature row of batch row r at column d. -/
theorem run0_self (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000)
    (VO : View sig .tc .vmem S8x256 .f32) (r : Fin 8) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).1) (ix2 r d)
      = (fh0 : S100000x256.Idx → EReal) (ix2 ⟨(x0 (ix2 r 0)).toNat, hx0 _⟩ d) := by
  have hcov : ∀ y, ∃ p ∈ (kernelRun0 (F := Ideal) c i arg1 harg1 arg2 harg2 arg4 harg4 arg5 harg5 arg6 harg6 x0 x1 fh0 fs0 hx0 hx1).1, y ∈ p.1.set :=
    View.cover_of_tiledL _ S1x256.size (by sl_kernel_rfl)
  rw [View.read_writes_eq_canon VO _ _ hcov]
  refine View.canon_apply_of_pieces (selfBlock x0 fh0 hx0) _ ?_ (ix2 r d) (hcov _)
  unfold kernelRun0
  dsimp only
  intro p hp
  simp only [List.mem_cons, List.not_mem_nil, or_false] at hp
  rcases hp with rfl | rfl | rfl | rfl | rfl | rfl | rfl | rfl
  · exact fun x => self_piece x0 fh0 hx0 7 (by decide) inb_S8x256_S1x256_7_0 _ (self_row7 c arg1 harg1 arg2 harg2 arg6 x0 x1 fh0 fs0 hx0 hx1) x
  · exact fun x => self_piece x0 fh0 hx0 6 (by decide) inb_S8x256_S1x256_6_0 _ (self_row6 c arg1 harg1 arg2 harg2 arg6 x0 x1 fh0 fs0 hx0 hx1) x
  · exact fun x => self_piece x0 fh0 hx0 5 (by decide) inb_S8x256_S1x256_5_0 _ (self_row5 c arg1 harg1 arg2 harg2 arg6 x0 x1 fh0 fs0 hx0 hx1) x
  · exact fun x => self_piece x0 fh0 hx0 4 (by decide) inb_S8x256_S1x256_4_0 _ (self_row4 c arg1 harg1 arg2 harg2 arg6 x0 x1 fh0 fs0 hx0 hx1) x
  · exact fun x => self_piece x0 fh0 hx0 3 (by decide) inb_S8x256_S1x256_3_0 _ (self_row3 c arg1 harg1 arg2 harg2 arg6 x0 x1 fh0 fs0 hx0 hx1) x
  · exact fun x => self_piece x0 fh0 hx0 2 (by decide) inb_S8x256_S1x256_2_0 _ (self_row2 c arg1 harg1 arg2 harg2 arg6 x0 x1 fh0 fs0 hx0 hx1) x
  · exact fun x => self_piece x0 fh0 hx0 1 (by decide) inb_S8x256_S1x256_1_0 _ (self_row1 c arg1 harg1 arg2 harg2 arg6 x0 x1 fh0 fs0 hx0 hx1) x
  · exact fun x => self_piece x0 fh0 hx0 0 (by decide) inb_S8x256_S1x256_0_0 _ (self_row0 c arg1 harg1 arg2 harg2 arg6 x0 x1 fh0 fs0 hx0 hx1) x

end Cert.KernelIdeal.Hand

end
-- ==== Proof.KI.Value0b.lean ====
/-
  The second output block of the gather kernel over the extended reals: row r, entry d, is the sum over the sixteen
  neighbours k of the table's entry (neigh[r,k], d), times 1/16.  The block is written in eight one-row pieces, so row r
  reads the r-th piece's payload.  That payload is the accumulator times the constant row 1/16, the accumulator being zero
  with the sixteen loaded rows added in turn; each loaded row is the payload of the copy made into the scratch just
  before, which is the table's row named by the word the body read at (r, k) of the neighbour block.  Sixteen terms added
  in turn onto zero are the sum over Fin 16.
-/
import proofs.«402250_j36103495090682_1_alg».proof.Proof.KI.Indep0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

section Read8
variable {Val : EltTy → Type} {κ : Kind} {sp : Space}

/-- A row other than the newest piece's reads what the earlier pieces left. -/
theorem rows_skip (VO : View sig κ sp S8x256 .f32) (f : VO.ty.Contents Val) (o : ℕ)
    (inb : ∀ a, (![o, 0] : Fin 2 → ℕ) a + (![1, 256] : Fin 2 → ℕ) a ≤ S8x256.size a)
    (w : S1x256.Idx → Val .f32) (L : List (View.Piece Val S8x256 .f32)) (r : Fin 8) (d : Fin 256) (h : r.val ≠ o) :
    VO.read Val (VO.writes Val f ((⟨Rect.unit (s := S8x256) ![o, 0] ![1, 256] inb, w⟩ : View.Piece Val S8x256 .f32) :: L)) (ix2 r d)
      = VO.read Val (VO.writes Val f L) (ix2 r d) :=
  View.read_writes_cons_rows_of_not_mem VO f inb w L (ix2 r d) rfl rfl (by show r.val < o ∨ o + 1 ≤ r.val; omega)

/-- The newest piece's row reads its payload. -/
theorem rows_take (VO : View sig κ sp S8x256 .f32) (f : VO.ty.Contents Val) (o : ℕ)
    (inb : ∀ a, (![o, 0] : Fin 2 → ℕ) a + (![1, 256] : Fin 2 → ℕ) a ≤ S8x256.size a)
    (w : S1x256.Idx → Val .f32) (L : List (View.Piece Val S8x256 .f32)) (r : Fin 8) (d : Fin 256) (h : r.val = o) :
    VO.read Val (VO.writes Val f ((⟨Rect.unit (s := S8x256) ![o, 0] ![1, 256] inb, w⟩ : View.Piece Val S8x256 .f32) :: L)) (ix2 r d)
      = w (ix2 (0 : Fin 1) d) :=
  View.read_writes_cons_rows_of_mem VO f inb w L (ix2 r d) (ix2 (0 : Fin 1) d) rfl (by show r.val = o + 0; omega) rfl

variable (VO : View sig κ sp S8x256 .f32) (f : VO.ty.Contents Val)
  (i7 : ∀ a, (![7, 0] : Fin 2 → ℕ) a + (![1, 256] : Fin 2 → ℕ) a ≤ S8x256.size a)
  (i6 : ∀ a, (![6, 0] : Fin 2 → ℕ) a + (![1, 256] : Fin 2 → ℕ) a ≤ S8x256.size a)
  (i5 : ∀ a, (![5, 0] : Fin 2 → ℕ) a + (![1, 256] : Fin 2 → ℕ) a ≤ S8x256.size a)
  (i4 : ∀ a, (![4, 0] : Fin 2 → ℕ) a + (![1, 256] : Fin 2 → ℕ) a ≤ S8x256.size a)
  (i3 : ∀ a, (![3, 0] : Fin 2 → ℕ) a + (![1, 256] : Fin 2 → ℕ) a ≤ S8x256.size a)
  (i2 : ∀ a, (![2, 0] : Fin 2 → ℕ) a + (![1, 256] : Fin 2 → ℕ) a ≤ S8x256.size a)
  (i1 : ∀ a, (![1, 0] : Fin 2 → ℕ) a + (![1, 256] : Fin 2 → ℕ) a ≤ S8x256.size a)
  (i0 : ∀ a, (![0, 0] : Fin 2 → ℕ) a + (![1, 256] : Fin 2 → ℕ) a ≤ S8x256.size a)
  (w7 w6 w5 w4 w3 w2 w1 w0 : S1x256.Idx → Val .f32) (d : Fin 256)

/-- Peels the pieces newest first down to the one that holds the row. -/
macro "rows_skip1" : tactic => `(tactic| refine (rows_skip _ _ _ _ _ _ _ _ (by decide)).trans ?_)
macro "rows_take1" : tactic => `(tactic| exact rows_take _ _ _ _ _ _ _ _ rfl)

set_option maxHeartbeats 1000000 in
/-- Eight one-row pieces, one per row of the block: row k reads the k-th piece's payload. -/
theorem read_row_0 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (0 : Fin 8) d) = w0 (ix2 (0 : Fin 1) d) := by
  iterate 7 rows_skip1
  rows_take1
set_option maxHeartbeats 1000000 in
theorem read_row_1 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (1 : Fin 8) d) = w1 (ix2 (0 : Fin 1) d) := by
  iterate 6 rows_skip1
  rows_take1
set_option maxHeartbeats 1000000 in
theorem read_row_2 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (2 : Fin 8) d) = w2 (ix2 (0 : Fin 1) d) := by
  iterate 5 rows_skip1
  rows_take1
set_option maxHeartbeats 1000000 in
theorem read_row_3 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (3 : Fin 8) d) = w3 (ix2 (0 : Fin 1) d) := by
  iterate 4 rows_skip1
  rows_take1
set_option maxHeartbeats 1000000 in
theorem read_row_4 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (4 : Fin 8) d) = w4 (ix2 (0 : Fin 1) d) := by
  iterate 3 rows_skip1
  rows_take1
set_option maxHeartbeats 1000000 in
theorem read_row_5 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (5 : Fin 8) d) = w5 (ix2 (0 : Fin 1) d) := by
  iterate 2 rows_skip1
  rows_take1
set_option maxHeartbeats 1000000 in
theorem read_row_6 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (6 : Fin 8) d) = w6 (ix2 (0 : Fin 1) d) := by
  iterate 1 rows_skip1
  rows_take1
set_option maxHeartbeats 1000000 in
theorem read_row_7 : VO.read Val (VO.writes Val f [(⟨Rect.unit (s := S8x256) ![7, 0] ![1, 256] i7, w7⟩ : View.Piece Val S8x256 .f32),
        (⟨Rect.unit (s := S8x256) ![6, 0] ![1, 256] i6, w6⟩ : View.Piece Val S8x256 .f32),
        (⟨Rect.unit (s := S8x256) ![5, 0] ![1, 256] i5, w5⟩ : View.Piece Val S8x256 .f32),
        (⟨Rect.unit (s := S8x256) ![4, 0] ![1, 256] i4, w4⟩ : View.Piece Val S8x256 .f32),
        (⟨Rect.unit (s := S8x256) ![3, 0] ![1, 256] i3, w3⟩ : View.Piece Val S8x256 .f32),
        (⟨Rect.unit (s := S8x256) ![2, 0] ![1, 256] i2, w2⟩ : View.Piece Val S8x256 .f32),
        (⟨Rect.unit (s := S8x256) ![1, 0] ![1, 256] i1, w1⟩ : View.Piece Val S8x256 .f32),
        (⟨Rect.unit (s := S8x256) ![0, 0] ![1, 256] i0, w0⟩ : View.Piece Val S8x256 .f32)]) (ix2 (7 : Fin 8) d) = w7 (ix2 (0 : Fin 1) d) := by
  iterate 0 rows_skip1
  rows_take1

end Read8

section Source
variable {F : FTy → Type} [FloatOps F]

/-- A neighbour copy's payload at `d`: the copy's source row is named by the word the body read at (p, q) of the
    neighbour block, so the payload at `d` is the table at (that word, d). -/
theorem nbr_read (arg2 : Memref sig .tc .smem S8x16 .i32) (harg2 : arg2.IsWhole) (x1 : Vec F S8x16 .i32)
    (fh : S100000x256.Idx → Elt F .f32) (p q : ℕ)
    (inbw : ∀ a, (![p, q] : Fin 2 → ℕ) a + S1x1.size a ≤ S8x16.size a)
    (jw : (Rect.unit (s := S8x16) ![p, q] S1x1.size inbw).toLoadRect.shape.Idx)
    (koff : Fin 2 → ℕ)
    (hk : koff = ![(View.readAt (Elt F) arg2.view (Rect.unit (s := S8x16) ![p, q] S1x1.size inbw).toLoadRect (harg2.unread x1) jw).toNat, 0])
    (inb : ∀ a, koff a + S1x256.size a ≤ S100000x256.size a)
    (h1 : ∀ a, (Rect.unit (s := S100000x256) koff S1x256.size inb).stride a = 1)
    (h2 : (Rect.unit (s := S100000x256) koff S1x256.size inb).shape.Squeezes S256) (d : Fin 256)
    (hlt : (x1 (ix2 ⟨p, inbw 0⟩ ⟨q, inbw 1⟩)).toNat < 100000) :
    ReadAs.same.apply ((((Memref.whole main_arg2).slice (Rect.unit (s := S100000x256) koff S1x256.size inb) h1).squeeze S256 h2).view.read (Elt F) fh) (ix1 d)
      = fh (ix2 ⟨(x1 (ix2 ⟨p, inbw 0⟩ ⟨q, inbw 1⟩)).toNat, hlt⟩ d) := by
  have hidx : (Rect.unit (s := S8x16) ![p, q] S1x1.size inbw).toLoadRect.idx jw = ix2 ⟨p, inbw 0⟩ ⟨q, inbw 1⟩ := by
    funext a
    refine Fin.ext ?_
    match a with
    | ⟨0, h⟩ =>
      have hj : (jw ⟨0, h⟩).val < 1 := (jw ⟨0, h⟩).isLt
      show p + 1 * (jw ⟨0, h⟩).val = p
      omega
    | ⟨1, h⟩ =>
      have hj : (jw ⟨1, h⟩).val < 1 := (jw ⟨1, h⟩).isLt
      show q + 1 * (jw ⟨1, h⟩).val = q
      omega
  have hw : View.readAt (Elt F) arg2.view (Rect.unit (s := S8x16) ![p, q] S1x1.size inbw).toLoadRect (harg2.unread x1) jw
      = x1 (ix2 ⟨p, inbw 0⟩ ⟨q, inbw 1⟩) := (harg2.readAt_unread x1 _ jw).trans (congrArg x1 hidx)
  rw [hw] at hk
  rw [ReadAs.apply_same]
  exact src_row_read fh koff _ hlt hk inb h1 h2 d

end Source

/-- Sixteen terms added in turn onto zero and scaled: equal termwise. -/
theorem add16 {z c c' a1 a2 a3 a4 a5 a6 a7 a8 a9 a10 a11 a12 a13 a14 a15 a16 b1 b2 b3 b4 b5 b6 b7 b8 b9 b10 b11 b12 b13 b14 b15 b16 : EReal} (hz : z = 0) (hc : c' = c)
    (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    (z + a1 + a2 + a3 + a4 + a5 + a6 + a7 + a8 + a9 + a10 + a11 + a12 + a13 + a14 + a15 + a16) * c' = (0 + b1 + b2 + b3 + b4 + b5 + b6 + b7 + b8 + b9 + b10 + b11 + b12 + b13 + b14 + b15 + b16) * c := by
  subst hz hc h1 h2 h3 h4 h5 h6 h7 h8 h9 h10 h11 h12 h13 h14 h15 h16
  rfl

/-- One neighbour term: the copy's payload at `d` is the table at (the neighbour word, d). -/
macro "nbr_term" : tactic => `(tactic| (sl_unfold_run_names; exact nbr_read _ _ _ _ _ _ _ _ _ rfl _ _ _ _ _))

set_option hygiene false in
/-- A row's payload at (0, d), from the piece to the sum: opens the accumulator chain, reads each loaded row as its
    copy's payload, reads the arithmetic entrywise, and compares the sixteen terms one by one. The row is `r`. -/
macro "mean_row_tail " r:term : tactic => `(tactic| (
  repeat (run_rows_once; try simp only [scratch_hit', scratch_miss01', scratch_miss10'])
  pay_open
  simp only [mulf_apply, addf_apply, broadcast_apply, shapeCast_a_1a_apply]
  refine Eq.trans ?_ (congrArg (· * Ideal.ofBits .f32 0x3D800000#32) (sum16 (M := EReal) (fun k : Fin 16 => (fh0 : S100000x256.Idx → EReal) (ix2 ⟨(x1 (ix2 ($r : Fin 8) k)).toNat, hx1 _⟩ d))))
  beta_reduce
  refine add16 Ideal.ofBits_zero_f32 rfl ?_ ?_ ?_ ?_ ?_ ?_ ?_ ?_ ?_ ?_ ?_ ?_ ?_ ?_ ?_ ?_
  all_goals nbr_term))

set_option maxHeartbeats 4000000 in
/-- Row 0 of the second output block. -/
theorem mean_row0 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (0 : Fin 8) d)
      = ((fun (f : S100000x256.Idx → EReal) => ∑ k : Fin 16, f (ix2 ⟨(x1 (ix2 (0 : Fin 8) k)).toNat, hx1 _⟩ d)) fh0) * Ideal.ofBits .f32 0x3D800000#32 := by
  unfold kernelRun0
  dsimp only
  refine (read_row_0 VO _ _ _ _ _ _ _ _ _ _ _ _ _ _ _ _ _ d).trans ?_
  mean_row_tail 0

set_option maxHeartbeats 4000000 in
/-- Row 1 of the second output block. -/
theorem mean_row1 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (1 : Fin 8) d)
      = ((fun (f : S100000x256.Idx → EReal) => ∑ k : Fin 16, f (ix2 ⟨(x1 (ix2 (1 : Fin 8) k)).toNat, hx1 _⟩ d)) fh0) * Ideal.ofBits .f32 0x3D800000#32 := by
  unfold kernelRun0
  dsimp only
  refine (read_row_1 VO _ _ _ _ _ _ _ _ _ _ _ _ _ _ _ _ _ d).trans ?_
  mean_row_tail 1

set_option maxHeartbeats 4000000 in
/-- Row 2 of the second output block. -/
theorem mean_row2 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (2 : Fin 8) d)
      = ((fun (f : S100000x256.Idx → EReal) => ∑ k : Fin 16, f (ix2 ⟨(x1 (ix2 (2 : Fin 8) k)).toNat, hx1 _⟩ d)) fh0) * Ideal.ofBits .f32 0x3D800000#32 := by
  unfold kernelRun0
  dsimp only
  refine (read_row_2 VO _ _ _ _ _ _ _ _ _ _ _ _ _ _ _ _ _ d).trans ?_
  mean_row_tail 2

set_option maxHeartbeats 4000000 in
/-- Row 3 of the second output block. -/
theorem mean_row3 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (3 : Fin 8) d)
      = ((fun (f : S100000x256.Idx → EReal) => ∑ k : Fin 16, f (ix2 ⟨(x1 (ix2 (3 : Fin 8) k)).toNat, hx1 _⟩ d)) fh0) * Ideal.ofBits .f32 0x3D800000#32 := by
  unfold kernelRun0
  dsimp only
  refine (read_row_3 VO _ _ _ _ _ _ _ _ _ _ _ _ _ _ _ _ _ d).trans ?_
  mean_row_tail 3

set_option maxHeartbeats 4000000 in
/-- Row 4 of the second output block. -/
theorem mean_row4 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (4 : Fin 8) d)
      = ((fun (f : S100000x256.Idx → EReal) => ∑ k : Fin 16, f (ix2 ⟨(x1 (ix2 (4 : Fin 8) k)).toNat, hx1 _⟩ d)) fh0) * Ideal.ofBits .f32 0x3D800000#32 := by
  unfold kernelRun0
  dsimp only
  refine (read_row_4 VO _ _ _ _ _ _ _ _ _ _ _ _ _ _ _ _ _ d).trans ?_
  mean_row_tail 4

set_option maxHeartbeats 4000000 in
/-- Row 5 of the second output block. -/
theorem mean_row5 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (5 : Fin 8) d)
      = ((fun (f : S100000x256.Idx → EReal) => ∑ k : Fin 16, f (ix2 ⟨(x1 (ix2 (5 : Fin 8) k)).toNat, hx1 _⟩ d)) fh0) * Ideal.ofBits .f32 0x3D800000#32 := by
  unfold kernelRun0
  dsimp only
  refine (read_row_5 VO _ _ _ _ _ _ _ _ _ _ _ _ _ _ _ _ _ d).trans ?_
  mean_row_tail 5

set_option maxHeartbeats 4000000 in
/-- Row 6 of the second output block. -/
theorem mean_row6 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (6 : Fin 8) d)
      = ((fun (f : S100000x256.Idx → EReal) => ∑ k : Fin 16, f (ix2 ⟨(x1 (ix2 (6 : Fin 8) k)).toNat, hx1 _⟩ d)) fh0) * Ideal.ofBits .f32 0x3D800000#32 := by
  unfold kernelRun0
  dsimp only
  refine (read_row_6 VO _ _ _ _ _ _ _ _ _ _ _ _ _ _ _ _ _ d).trans ?_
  mean_row_tail 6

set_option maxHeartbeats 4000000 in
/-- Row 7 of the second output block. -/
theorem mean_row7 (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 (7 : Fin 8) d)
      = ((fun (f : S100000x256.Idx → EReal) => ∑ k : Fin 16, f (ix2 ⟨(x1 (ix2 (7 : Fin 8) k)).toNat, hx1 _⟩ d)) fh0) * Ideal.ofBits .f32 0x3D800000#32 := by
  unfold kernelRun0
  dsimp only
  refine (read_row_7 VO _ _ _ _ _ _ _ _ _ _ _ _ _ _ _ _ _ d).trans ?_
  mean_row_tail 7

/-- The second output block, entry (r, d): the mean of the sixteen neighbour rows' entries d. -/
theorem run0_mean (c : Dev nD) (i : grid0.Coords)
    (arg1 : Memref sig .tc .smem S8x1 .i32) (harg1 : arg1.IsWhole) (arg2 : Memref sig .tc .smem S8x16 .i32) (harg2 : arg2.IsWhole)
    (arg4 : Memref sig .tc .vmem S8x256 .f32) (harg4 : arg4.IsWhole) (arg5 : Memref sig .tc .vmem S8x256 .f32) (harg5 : arg5.IsWhole)
    (arg6 : Memref sig .tc .vmem S2x256 .f32) (harg6 : arg6.IsWhole)
    (x0 : Vec Ideal S8x1 .i32) (x1 : Vec Ideal S8x16 .i32) (fh0 : HbBuf0 (F := Ideal) c hbM0) (fs0 : BufTy.Contents (Elt Ideal) arg6.view.ty)
    (hx0 : ∀ j, (x0 j).toNat < 100000) (hx1 : ∀ j, (x1 j).toNat < 100000) (VO : View sig .tc .vmem S8x256 .f32) (r : Fin 8) (d : Fin 256) :
    VO.read (Elt Ideal) (VO.writes (Elt Ideal) VO.junk (kernelRun0 (F := Ideal) c i arg1 harg1 arg2 harg2 arg4 harg4 arg5 harg5 arg6 harg6 x0 x1 fh0 fs0 hx0 hx1).2.1) (ix2 r d)
      = ((fun (f : S100000x256.Idx → EReal) => ∑ k : Fin 16, f (ix2 ⟨(x1 (ix2 r k)).toNat, hx1 _⟩ d)) fh0) * Ideal.ofBits .f32 0x3D800000#32 := by
  fin_cases r
  · exact mean_row0 c i arg1 harg1 arg2 harg2 arg4 harg4 arg5 harg5 arg6 harg6 x0 x1 fh0 fs0 hx0 hx1 VO d
  · exact mean_row1 c i arg1 harg1 arg2 harg2 arg4 harg4 arg5 harg5 arg6 harg6 x0 x1 fh0 fs0 hx0 hx1 VO d
  · exact mean_row2 c i arg1 harg1 arg2 harg2 arg4 harg4 arg5 harg5 arg6 harg6 x0 x1 fh0 fs0 hx0 hx1 VO d
  · exact mean_row3 c i arg1 harg1 arg2 harg2 arg4 harg4 arg5 harg5 arg6 harg6 x0 x1 fh0 fs0 hx0 hx1 VO d
  · exact mean_row4 c i arg1 harg1 arg2 harg2 arg4 harg4 arg5 harg5 arg6 harg6 x0 x1 fh0 fs0 hx0 hx1 VO d
  · exact mean_row5 c i arg1 harg1 arg2 harg2 arg4 harg4 arg5 harg5 arg6 harg6 x0 x1 fh0 fs0 hx0 hx1 VO d
  · exact mean_row6 c i arg1 harg1 arg2 harg2 arg4 harg4 arg5 harg5 arg6 harg6 x0 x1 fh0 fs0 hx0 hx1 VO d
  · exact mean_row7 c i arg1 harg1 arg2 harg2 arg4 harg4 arg5 harg5 arg6 harg6 x0 x1 fh0 fs0 hx0 hx1 VO d

end Cert.KernelIdeal.Hand

end
-- ==== Proof.KI.Final.lean ====
/-
  The whole kernel program computes the specification.  Every word of the two index arguments being below 100000:
  the first kernel leaves in its two result arrays, row b, the own feature row of batch row b and the sum of its sixteen
  neighbour rows times 1/16 (each block's entry read back through the node column, which is the node vector word for
  word, and the neighbour table); the host stretches lay the two side by side, pad and narrow them, and stack and narrow
  the two encoders; the second kernel's result is max (W · Xᵀ) 0 of those two operands entry by entry; and the two
  results are its upper and lower 256 rows cut back to 20000 columns, which are the two encoders' outputs.  The five
  arguments end as launched.
-/
import proofs.«402250_j36103495090682_1_alg».proof.Proof.KI.Args
import proofs.«402250_j36103495090682_1_alg».proof.Proof.KI.Out1Apply
import proofs.«402250_j36103495090682_1_alg».proof.Proof.KI.Cover1
import proofs.«402250_j36103495090682_1_alg».proof.Proof.KI.HostChain
import proofs.«402250_j36103495090682_1_alg».proof.Proof.KI.HostRead
import proofs.«402250_j36103495090682_1_alg».proof.Proof.KI.Cover0
import proofs.«402250_j36103495090682_1_alg».proof.Proof.KI.Value0a
import proofs.«402250_j36103495090682_1_alg».proof.Proof.KI.Value0b
import proofs.«402250_j36103495090682_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (m : (ℓ : Loc nD τ sig) → Buf (Elt Ideal) ℓ) (ρ : Dev nD → PrngReg)

/-! ## The arguments at their literal types -/

/-- The node vector, the neighbour table, the feature table and the two encoders, as launched. -/
abbrev nodesOf (c : Dev nD) : IVec S20000 32 := m ((c.tc : Thread nD τ).loc main_arg0)
abbrev neighOf (c : Dev nD) : IVec S20000x16 32 := m ((c.tc : Thread nD τ).loc main_arg1)
abbrev featOf (c : Dev nD) : FVec Ideal S100000x256 .f32 := m ((c.tc : Thread nD τ).loc main_arg2)
abbrev enc1Of (c : Dev nD) : FVec Ideal S256x512 .f32 := m ((c.tc : Thread nD τ).loc main_arg3)
abbrev enc2Of (c : Dev nD) : FVec Ideal S256x512 .f32 := m ((c.tc : Thread nD τ).loc main_arg4)

/-- The own rows of all batch rows as one array, and the neighbour sums times the pattern of 1/16. -/
def selfArr (c : Dev nD) : S20000x256.Idx → EReal := fun i =>
  Cert.Spec.selfRow (nodesOf m c) (featOf m c) (i 0) (i 1)
def meanArr (c : Dev nD) : S20000x256.Idx → EReal := fun i =>
  Cert.Spec.neighSum (neighOf m c) (featOf m c) (i 0) (i 1) * Ideal.ofBits .f32 0x3D800000#32

/-- Two rank-2 indices with the same row number and the same column are equal. -/
theorem ix2_congr_left {n0 n1 : Nat} {a a' : Fin n0} (h : a.val = a'.val) (d : Fin n1) : ix2 a d = ix2 a' d := by
  rw [Fin.ext h]

/-! ## The gather region's entry contents -/

/-- The feature table at the gather region's entry is the argument. -/
theorem V1_main_arg2 (c : Dev nD) : Hand.V1 m ρ c main_arg2 = m ((c.tc : Thread nD τ).loc main_arg2) :=
  StableHlo.after_of_writes_sub hostOps0 _ Gen.hostOps0_writes (by decide)

/-- Row b of the node column is word b of the node vector. -/
theorem node_word (c : Dev nD) (b : Fin 20000) :
    (Hand.V1 m ρ c main_v0 : S20000x1.Idx → BitVec 32) (ix2 b 0) = nodesOf m c (ix1 b) := by
  rw [V1_main_v0 m ρ c]
  exact shapeCast_apply _ shapeCasts_S20000_S20000x1 (ix2 b (0 : Fin 1)) (ix1 b) (by
    rw [Shape.rowMajor_val_two, Shape.rowMajor_val_one]; show b.val = b.val * 1 + 0; omega)

variable (hV : Hyp0 (Hand.V1 m ρ))

/-! ## The gather kernel's blocks, entry by entry -/

/-- The feature table and the two index blocks of point t as the gather region finds them, at their literal types. -/
abbrev featAt1 (c : Dev nD) : S100000x256.Idx → EReal := Hand.V1 m ρ c main_arg2
abbrev nodeBlk (c : Dev nD) (t : Fin cfg0.N) : S8x1.Idx → BitVec 32 := iblk0 (F := Ideal) (Hand.V1 m ρ) c 0 t
abbrev neighBlk (c : Dev nD) (t : Fin cfg0.N) : S8x16.Idx → BitVec 32 := iblk0 (F := Ideal) (Hand.V1 m ρ) c 1 t

/-- The feature table at the gather region's entry is the argument. -/
theorem featAt1_eq (c : Dev nD) : featAt1 m ρ c = featOf m c := V1_main_arg2 m ρ c

/-- Entry (r, d) of the first result block at point t: the table row the block's r-th node word names, at column d. -/
theorem gather_self_at (c : Dev nD) (t : Fin cfg0.N) (r : Fin 8) (d : Fin 256) :
    out0_2 (F := Ideal) (Hand.V1 m ρ) hV c t (ix2 r d)
      = featAt1 m ρ c (ix2 ⟨(nodeBlk m ρ c t (ix2 r 0)).toNat, iblk0_0_lt (Hand.V1 m ρ) hV c t _⟩ d) := by
  unfold out0_2
  exact run0_self c (grid0.coords t) (ms0_0 t) (hs0_0 t) (ms0_1 t) (hs0_1 t) (ms0_2 t) (hs0_2 t) (ms0_3 t) (hs0_3 t)
    scM0 (Memref.isWhole_whole _) (iblk0 (Hand.V1 m ρ) c 0 t) (iblk0 (Hand.V1 m ρ) c 1 t) (Hand.V1 m ρ c main_arg2) fsJ
    (iblk0_0_lt (Hand.V1 m ρ) hV c t) (iblk0_1_lt (Hand.V1 m ρ) hV c t) VO0_2 r d

/-- Entry (r, d) of the second result block at point t: the sum of the sixteen table rows the block's r-th row of
    neighbour words names, at column d, times the pattern of 1/16. -/
theorem gather_mean_at (c : Dev nD) (t : Fin cfg0.N) (r : Fin 8) (d : Fin 256) :
    out0_3 (F := Ideal) (Hand.V1 m ρ) hV c t (ix2 r d)
      = (∑ k : Fin 16, featAt1 m ρ c (ix2 ⟨(neighBlk m ρ c t (ix2 r k)).toNat, iblk0_1_lt (Hand.V1 m ρ) hV c t _⟩ d))
          * Ideal.ofBits .f32 0x3D800000#32 := by
  unfold out0_3
  exact run0_mean c (grid0.coords t) (ms0_0 t) (hs0_0 t) (ms0_1 t) (hs0_1 t) (ms0_2 t) (hs0_2 t) (ms0_3 t) (hs0_3 t)
    scM0 (Memref.isWhole_whole _) (iblk0 (Hand.V1 m ρ) c 0 t) (iblk0 (Hand.V1 m ρ) c 1 t) (Hand.V1 m ρ c main_arg2) fsJ
    (iblk0_0_lt (Hand.V1 m ρ) hV c t) (iblk0_1_lt (Hand.V1 m ρ) hV c t) VO0_3 r d

/-- The first result block at point t is rows 8t … 8t+7 of the own rows. -/
theorem gather_self_blk (c : Dev nD) (t : Fin cfg0.N) (r : Fin 8) (d : Fin 256) :
    out0_2 (F := Ideal) (Hand.V1 m ρ) hV c t (ix2 r d)
      = selfArr m c (ix2 ⟨8 * t.val + r.val, by have h : t.val < cfg0.N := t.isLt; have hN : cfg0.N = 2500 := N_0; omega⟩ d) := by
  have hb : 8 * t.val + r.val < 20000 := by have h : t.val < cfg0.N := t.isLt; have hN : cfg0.N = 2500 := N_0; omega
  have hw : nodeBlk m ρ c t (ix2 r 0) = nodesOf m c (ix1 ⟨8 * t.val + r.val, hb⟩) :=
    (iblk0_0_apply (Hand.V1 m ρ) c t r).trans (node_word m ρ c ⟨8 * t.val + r.val, hb⟩)
  have hlt : (nodesOf m c (ix1 ⟨8 * t.val + r.val, hb⟩)).toNat < 100000 := by
    rw [← hw]; exact iblk0_0_lt (Hand.V1 m ρ) hV c t _
  refine (gather_self_at m ρ hV c t r d).trans ?_
  rw [featAt1_eq m ρ c]
  show featOf m c _ = featOf m c (ix2 (Cert.Spec.rowOf (nodesOf m c (ix1 ⟨8 * t.val + r.val, hb⟩))) d)
  refine congrArg (featOf m c) (ix2_congr_left ?_ d)
  show (nodeBlk m ρ c t (ix2 r 0)).toNat = (Cert.Spec.rowOf _).val
  rw [hw, Cert.Spec.rowOf_val_of_lt _ hlt]

/-- The second result block at point t is rows 8t … 8t+7 of the neighbour means. -/
theorem gather_mean_blk (c : Dev nD) (t : Fin cfg0.N) (r : Fin 8) (d : Fin 256) :
    out0_3 (F := Ideal) (Hand.V1 m ρ) hV c t (ix2 r d)
      = meanArr m c (ix2 ⟨8 * t.val + r.val, by have h : t.val < cfg0.N := t.isLt; have hN : cfg0.N = 2500 := N_0; omega⟩ d) := by
  have hb : 8 * t.val + r.val < 20000 := by have h : t.val < cfg0.N := t.isLt; have hN : cfg0.N = 2500 := N_0; omega
  refine (gather_mean_at m ρ hV c t r d).trans ?_
  rw [featAt1_eq m ρ c]
  show (∑ k : Fin 16, featOf m c _) * _
    = (∑ k : Fin 16, featOf m c (ix2 (Cert.Spec.rowOf (neighOf m c (ix2 ⟨8 * t.val + r.val, hb⟩ k))) d)) * Ideal.ofBits .f32 0x3D800000#32
  refine congrArg (· * Ideal.ofBits .f32 0x3D800000#32) (Finset.sum_congr rfl fun k _ => ?_)
  have hw : neighBlk m ρ c t (ix2 r k) = neighOf m c (ix2 ⟨8 * t.val + r.val, hb⟩ k) := by
    refine (iblk0_1_apply (Hand.V1 m ρ) c t r k).trans ?_
    rw [V1_main_arg1 m ρ c]
  have hlt : (neighOf m c (ix2 ⟨8 * t.val + r.val, hb⟩ k)).toNat < 100000 := by
    rw [← hw]; exact iblk0_1_lt (Hand.V1 m ρ) hV c t _
  refine congrArg (featOf m c) (ix2_congr_left ?_ d)
  show (neighBlk m ρ c t (ix2 r k)).toNat = (Cert.Spec.rowOf _).val
  rw [hw, Cert.Spec.rowOf_val_of_lt _ hlt]

/-! ## The buffers at the boundaries -/

/-- The gather region leaves the own rows in its first result array and the neighbour means in its second. -/
theorem W2_main_v1_0 (c : Dev nD) :
    (Hand.W2 m ρ hV c (Proc.devRef .tc main_v1_0) : S20000x256.Idx → EReal) = selfArr m c :=
  (W2_arr m ρ hV c 2).trans (arr0_self (Hand.V1 m ρ) hV c (selfArr m c) (gather_self_blk m ρ hV c))
theorem W2_main_v1_1 (c : Dev nD) :
    (Hand.W2 m ρ hV c (Proc.devRef .tc main_v1_1) : S20000x256.Idx → EReal) = meanArr m c :=
  (W2_arr m ρ hV c 3).trans (arr0_mean (Hand.V1 m ρ) hV c (meanArr m c) (gather_mean_blk m ρ hV c))

/-- The two encoders pass the gather region as launched. -/
theorem W2_main_arg3 (c : Dev nD) : Hand.W2 m ρ hV c (Proc.devRef .tc main_arg3) = m ((c.tc : Thread nD τ).loc main_arg3) :=
  (W2_of_ne m ρ hV c main_arg3 (by decide)).trans (StableHlo.after_of_writes_sub hostOps0 _ Gen.hostOps0_writes (by decide))
theorem W2_main_arg4 (c : Dev nD) : Hand.W2 m ρ hV c (Proc.devRef .tc main_arg4) = m ((c.tc : Thread nD τ).loc main_arg4) :=
  (W2_of_ne m ρ hV c main_arg4 (by decide)).trans (StableHlo.after_of_writes_sub hostOps0 _ Gen.hostOps0_writes (by decide))

/-- The product region's weight operand: the two encoders stacked, narrowed. -/
theorem V5_main_v6 (c : Dev nD) :
    (Hand.V5 m ρ hV c main_v6 : S512x512.Idx → EReal) = wcat (enc1Of m c) (enc2Of m c) := by
  refine (mid_main_v6 (Hand.W2 m ρ hV c)).trans ?_
  rw [W2_main_arg3 m ρ hV c, W2_main_arg4 m ρ hV c]

/-- The product region's input operand: own rows and neighbour means side by side, padded, narrowed. -/
theorem V5_main_v4 (c : Dev nD) :
    (Hand.V5 m ρ hV c main_v4 : S20480x512.Idx → EReal) = xin (selfArr m c) (meanArr m c) := by
  refine (mid_main_v4 (Hand.W2 m ρ hV c)).trans ?_
  rw [W2_main_v1_0 m ρ hV c, W2_main_v1_1 m ρ hV c]

/-- The product region's result array, entry by entry. -/
theorem W6_main_v7_apply (c : Dev nD) (o : Fin 512) (b : Fin 20480) :
    (Hand.W6 m ρ hV c (Proc.devRef .tc main_v7) : S512x20480.Idx → EReal) (ix2 o b)
      = max (∑ k : Fin 512, wcat (enc1Of m c) (enc2Of m c) (ix2 o k) * xin (selfArr m c) (meanArr m c) (ix2 b k)) 0 := by
  have e : (Hand.W6 m ρ hV c (Proc.devRef .tc main_v7) : S512x20480.Idx → EReal)
      = (dat1 (F := Ideal) (Hand.V5 m ρ hV) c).arrAt 2 cfg1.N := W6_arr m ρ hV c 2
  rw [e]
  refine (arr1_apply (Hand.V5 m ρ hV) c (fun t o b => out1_apply (Hand.V5 m ρ hV) c t o b) o b).trans ?_
  rw [show warr (Hand.V5 m ρ hV) c = wcat (enc1Of m c) (enc2Of m c) from V5_main_v6 m ρ hV c,
    show xarr (Hand.V5 m ρ hV) c = xin (selfArr m c) (meanArr m c) from V5_main_v4 m ρ hV c]

/-- The two results at the end are the two encoders' outputs. -/
theorem W7_results (c : Dev nD) :
    (Hand.W7 m ρ hV c (Proc.devRef .tc main_v9) : S256x20000.Idx → EReal)
        = Cert.Spec.G (nodesOf m c) (neighOf m c) (featOf m c) (enc1Of m c)
      ∧ (Hand.W7 m ρ hV c (Proc.devRef .tc main_v10) : S256x20000.Idx → EReal)
        = Cert.Spec.G (nodesOf m c) (neighOf m c) (featOf m c) (enc2Of m c) := by
  have hres := results (nodesOf m c) (neighOf m c) (featOf m c) (enc1Of m c) (enc2Of m c) (selfArr m c) (meanArr m c)
    (Hand.W6 m ρ hV c (Proc.devRef .tc main_v7) : S512x20480.Idx → EReal)
    (fun b d => rfl) (fun b d => rfl) (W6_main_v7_apply m ρ hV c)
  exact ⟨(end_main_v9 (Hand.W6 m ρ hV c)).trans hres.1, (end_main_v10 (Hand.W6 m ρ hV c)).trans hres.2⟩

/-! ## The run -/

/-- Every weakly fair execution of the kernel program from a memory whose index words are below 100000 terminates,
    nothing faulting, with the two results at the two encoders' outputs of the specification and the arguments as launched. -/
theorem kernel_G (m : (ℓ : Loc nD τ sig) → Buf (Elt Ideal) ℓ) (ρ : Dev nD → PrngReg)
    (h0 : ∀ (c : Dev nD) (i : S20000.Idx), (m ((c.tc : Thread nD τ).loc main_arg0) i).toNat < 100000)
    (h1 : ∀ (c : Dev nD) (i : S20000x16.Idx), (m ((c.tc : Thread nD τ).loc main_arg1) i).toNat < 100000) :
    θ_run (defs (F := Ideal)) (onTc (τ := τ) (main (F := Ideal))) ⟨m, fun _ => 0, ρ⟩ (fun r => ∀ c : Dev nD,
      r.2.mem ((c.tc : Thread nD τ).loc main_v9)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v10)
          = Cert.Spec.G (m ((c.tc : Thread nD τ).loc main_arg0)) (m ((c.tc : Thread nD τ).loc main_arg1))
              (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hV : Hyp0 (Hand.V1 m ρ) := hyp0_of m ρ h0 h1
  exact (θ_run defs _ _).mono (fun r h c =>
    ⟨(h c _ (mem_uc main_v9 (by decide))).trans (W7_results m ρ hV c).1,
     (h c _ (mem_uc main_v10 (by decide))).trans (W7_results m ρ hV c).2,
     (h c _ (mem_uc main_arg0 (by decide))).trans (W7_main_arg0 m ρ hV c),
     (h c _ (mem_uc main_arg1 (by decide))).trans (W7_main_arg1 m ρ hV c),
     (h c _ (mem_uc main_arg2 (by decide))).trans (W7_main_arg2 m ρ hV c),
     (h c _ (mem_uc main_arg3 (by decide))).trans (W7_main_arg3 m ρ hV c),
     (h c _ (mem_uc main_arg4 (by decide))).trans (W7_main_arg4 m ρ hV c)⟩) (run_all m ρ hV)

end Cert.KernelIdeal.Hand

end
-- ==== Proof.lean ====
/-
  The certificate: a two-kernel GraphSAGE-style encoder against its jnp reference.

  The kernel program gathers, for each of 20000 batch rows, the row's own feature row and the mean of sixteen neighbour
  rows out of a 100000 × 256 table (one DMA per row, double-buffered through a two-row scratch), lays the two side by side,
  and multiplies by the two stacked 256 × 512 encoders with a rectifier; the reference writes the same with a gather, a sum
  divided by 16, a concatenate, a contraction and a maximum with zero.  Over the extended reals both are
  `max (∑ j, W[o, j] · row_b[j]) 0` with `row_b = feat[nodes[b]] ‖ (∑ k, feat[neigh[b, k]]) · (1/16)` (Proof/Spec.lean):
  dividing by 16 is multiplying by 1/16 on every extended real, a change of float format is the identity, and the padded
  batch rows the kernel computes are sliced away.  The precondition bounds every index word into the table (which both
  the kernel's copies and the reference's gathers need to mean the same row); nothing else of it is used.
-/
import proofs.«402250_j36103495090682_1_alg».proof.Defs
import proofs.«402250_j36103495090682_1_alg».proof.Proof.Gen.Kernel
import proofs.«402250_j36103495090682_1_alg».proof.Proof.Gen.KernelIdeal
import proofs.«402250_j36103495090682_1_alg».proof.Proof.Gen.ReferenceIdeal
import proofs.«402250_j36103495090682_1_alg».proof.Proof.Gen.Pre_finite_inputs
import proofs.«402250_j36103495090682_1_alg».proof.Proof.PreIdx
import proofs.«402250_j36103495090682_1_alg».proof.Proof.Ref
import proofs.«402250_j36103495090682_1_alg».proof.Proof.K.Args
import proofs.«402250_j36103495090682_1_alg».proof.Proof.KI.Args
import proofs.«402250_j36103495090682_1_alg».proof.Proof.KI.Final
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level program's frame: the precondition bounds the index words, which is what the gather region assumes. -/
theorem frame_p : Cert.frame_Kernel := fun m ρ hpre =>
  Cert.Kernel.Hand.frame m ρ (Cert.Kernel.Hand.hyp0_of m ρ
    (fun c => (Cert.PreIdx.idx_lt _ _ _ _ _ (hpre c)).1) (fun c => (Cert.PreIdx.idx_lt _ _ _ _ _ (hpre c)).2))

/-- The idealized program's frame, the same way. -/
theorem frame_pi : Cert.frame_KernelIdeal := fun m ρ hpre =>
  Cert.KernelIdeal.Hand.frame m ρ (Cert.KernelIdeal.Hand.hyp0_of m ρ
    (fun c => (Cert.PreIdx.idx_lt _ _ _ _ _ (hpre c)).1) (fun c => (Cert.PreIdx.idx_lt _ _ _ _ _ (hpre c)).2))

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end at the specification's two arrays of the (agreeing) arguments. -/
theorem algebraic : Cert.algebraic_KernelIdeal_ReferenceIdeal := by
  intro m ρ m' ρ' hpre hagree
  have h0 := fun c => (Cert.PreIdx.idx_lt _ _ _ _ _ (hpre c)).1
  have h1 := fun c => (Cert.PreIdx.idx_lt _ _ _ _ _ (hpre c)).2
  refine ⟨_, _, Cert.KernelIdeal.Hand.kernel_G m ρ h0 h1, ?_⟩
  refine (θ_run Cert.ReferenceIdeal.defs _ _).mono (fun _ h c => ?_)
    (Cert.RefValue.run_G m' ρ' (fun c i => by rw [(hagree c).1]; exact h0 c i) (fun c i => by rw [(hagree c).2.1]; exact h1 c i))
  obtain ⟨e0, e1, e2, e3, e4⟩ := hagree c
  refine ⟨(h c).1.trans ?_, (h c).2.1.trans ?_, (h c).2.2⟩
  · rw [e0, e1, e2, e3]
  · rw [e0, e1, e2, e4]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
